-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : IVec S100000 32) (main_arg4 : FVec F S256x128 .f32) (main_arg5 : FVec F S128 .f32) (main_arg6 : FVec F S128x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000x128 : Shape := ⟨2, ![100000, 128]⟩
abbrev S5000x256 : Shape := ⟨2, ![5000, 256]⟩
abbrev S5000x128 : Shape := ⟨2, ![5000, 128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S64 : Shape := ⟨1, ![64]⟩
abbrev S1x64 : Shape := ⟨2, ![1, 64]⟩
abbrev S100000x1 : Shape := ⟨2, ![100000, 1]⟩
abbrev S100000x64 : Shape := ⟨2, ![100000, 64]⟩
abbrev S1x128 : Shape := ⟨2, ![1, 128]⟩
abbrev S2x64x128 : Shape := ⟨3, ![2, 64, 128]⟩
abbrev S2x1x64 : Shape := ⟨3, ![2, 1, 64]⟩
abbrev S5000x64 : Shape := ⟨2, ![5000, 64]⟩
abbrev S1x64x128 : Shape := ⟨3, ![1, 64, 128]⟩
abbrev S1x1x64 : Shape := ⟨3, ![1, 1, 64]⟩
abbrev S64x128 : Shape := ⟨2, ![64, 128]⟩
abbrev S64x1 : Shape := ⟨2, ![64, 1]⟩
abbrev S1x1 : Shape := ⟨2, ![1, 1]⟩

abbrev nBuf : Space → Nat
  | .hbm => 93
  | .vmem => 21
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S64, .i32⟩
  | .hbm, ⟨71, _⟩ => ⟨S1x64, .i32⟩
  | .hbm, ⟨72, _⟩ => ⟨S100000x1, .i32⟩
  | .hbm, ⟨73, _⟩ => ⟨S100000x64, .i32⟩
  | .hbm, ⟨74, _⟩ => ⟨S100000x64, .i32⟩
  | .hbm, ⟨75, _⟩ => ⟨S100000x64, .i1⟩
  | .hbm, ⟨76, _⟩ => ⟨S100000x64, .bf16⟩
  | .hbm, ⟨77, _⟩ => ⟨S1x128, .f32⟩
  | .hbm, ⟨78, _⟩ => ⟨S2x64x128, .f32⟩
  | .hbm, ⟨79, _⟩ => ⟨S2x1x64, .f32⟩
  | .hbm, ⟨80, _⟩ => ⟨S1x64x128, .f32⟩
  | .hbm, ⟨81, _⟩ => ⟨S64x128, .f32⟩
  | .hbm, ⟨82, _⟩ => ⟨S1x64x128, .f32⟩
  | .hbm, ⟨83, _⟩ => ⟨S64x128, .f32⟩
  | .hbm, ⟨84, _⟩ => ⟨S64x128, .f32⟩
  | .hbm, ⟨85, _⟩ => ⟨S1x1x64, .f32⟩
  | .hbm, ⟨86, _⟩ => ⟨S64, .f32⟩
  | .hbm, ⟨87, _⟩ => ⟨S1x1x64, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S1x1, .f32⟩
  | .hbm, ⟨92, _⟩ => ⟨S64x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x64, .bf16⟩
  | .local _ .vmem, ⟨9, _⟩ => ⟨S5000x64, .bf16⟩
  | .local _ .vmem, ⟨10, _⟩ => ⟨S1x64x128, .f32⟩
  | .local _ .vmem, ⟨11, _⟩ => ⟨S1x64x128, .f32⟩
  | .local _ .vmem, ⟨12, _⟩ => ⟨S1x1x64, .f32⟩
  | .local _ .vmem, ⟨13, _⟩ => ⟨S1x1x64, .f32⟩
  | .local _ .vmem, ⟨14, _⟩ => ⟨S64x128, .f32⟩
  | .local _ .vmem, ⟨15, _⟩ => ⟨S1x64, .f32⟩
  | .local _ .vmem, ⟨16, _⟩ => ⟨S64x128, .f32⟩
  | .local _ .vmem, ⟨17, _⟩ => ⟨S64x1, .f32⟩
  | .local _ .vmem, ⟨18, _⟩ => ⟨S128x1, .f32⟩
  | .local _ .vmem, ⟨19, _⟩ => ⟨S1x1, .f32⟩
  | .local _ .vmem, ⟨20, _⟩ => ⟨S64x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v27 : BitVec 1 := Scalar.cmpi .eq arg1 c9_i32
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S64 : S5000x64.Reduces [0] S64
  shapeCasts_S64_S1x64 : S64.ShapeCasts S1x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  slices_S2x64x128_S1x64x128_0_0_0 : S2x64x128.Slices ![0, 0, 0] S1x64x128
  slices_S2x64x128_S1x64x128_1_0_0 : S2x64x128.Slices ![1, 0, 0] S1x64x128
  slices_S2x1x64_S1x1x64_0_0_0 : S2x1x64.Slices ![0, 0, 0] S1x1x64
  shapeCasts_S1x1x64_S64 : S1x1x64.ShapeCasts S64
  slices_S2x1x64_S1x1x64_1_0_0 : S2x1x64.Slices ![1, 0, 0] S1x1x64
  shapeCasts_S64_S64x1 : S64.ShapeCasts S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128.size a ≤ S2x64x128.size a
  hwx1_3 : ∀ i : grid1.Coords, EltTy.bits .f32 = 32 ∨ (Rect.block (s := S2x64x128) S1x64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S2x1x64.size a
  hwx1_4 : ∀ i : grid1.Coords, EltTy.bits .f32 = 32 ∨ (Rect.block (s := S2x1x64) S1x1x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56_0) S1x64x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56_1) S1x1x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v61) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v67) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S64x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S64x128, .f32⟩
  | .hbm, ⟨78, _⟩ => ⟨S100000x1, .i32⟩
  | .hbm, ⟨79, _⟩ => ⟨S64x128, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S64, .f32⟩
  | .hbm, ⟨84, _⟩ => ⟨S100000x1, .i32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1, .f32⟩
  | .hbm, ⟨90, _⟩ => ⟨S64x128, .f32⟩
  | .hbm, ⟨91, _⟩ => ⟨S64x128, .f32⟩
  | .hbm, ⟨92, _⟩ => ⟨S64x1, .f32⟩
  | .hbm, ⟨93, _⟩ => ⟨S1x1, .f32⟩
  | .hbm, ⟨94, _⟩ => ⟨S64x1, .f32⟩
  | .hbm, ⟨95, _⟩ => ⟨S64x1, .f32⟩
  | .hbm, ⟨96, _⟩ => ⟨S64x1, .f32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S_, .f32⟩
  | .hbm, ⟨102, _⟩ => ⟨S64x1, .f32⟩
  | .hbm, ⟨103, _⟩ => ⟨S64x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KbRegion0.lean ====
/-
  The first launch: the dense layer's product h = x · W, one block of 5000 rows of x per grid point against
  the whole of W. A point loads its two blocks, forms the product and stores it over the whole output block;
  nothing is kept between points. Stated here: what a point leaves in the output block as a function of the two
  input blocks, the body's triple, the launch's proof data over the arrays as the launch finds them, and the
  body obligation at every point.
-/
import proofs.«422273_j43499428774207_3_alg».proof.Proof.Gen.Kernel.Launch
import proofs.«422273_j43499428774207_3_alg».proof.Proof.Gen.Kernel.Skeleton
import proofs.«422273_j43499428774207_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: the parameter everything here is stated at
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x: its staging buffer holds the array's block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix W: fetched once, its block index never moves, so its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_o : Rect S5000x128 := Rect.unit (s := S5000x128) ![0, 0] S5000x128.size inb_S5000x128_S5000x128_0_0

theorem hz2 : (![0, 0] : Fin 2 → Nat) = fun _ => 0 := funext fun a => by fin_cases a <;> rfl

/-- What a point leaves in the output block: the product of its block of x with W (the body's one payload), stored
    over the whole block. -/
abbrev linOut (x0 : Vec F S5000x256 .f32) (x1 : Vec F S256x128 .f32) : Vec F S5000x128 .f32 := k0_pay1 x0 x1

/-- The one store covers the output block. -/
theorem cover0 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging memrefs: from the two input blocks at `x0`, `x1` and the output block at anything, it
    runs to the inputs as they were and the output block at `linOut x0 x1`. -/
theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (linOut x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  rw [View.canon_unit_zero hz2]
  simp only [View.readAt_eq_ld, View.ld_unit_zero (S := S5000x256) hz2, View.ld_unit_zero (S := S256x128) hz2]

/-- The launch's proof data on core `c`: the arrays as the launch finds them; after the body each input block in place
    and the output block at the product of the two; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbRegion1.lean ====
/-
  The second launch: the pooling kernel on a grid of two rows of ten points. Along a row it keeps two running
  quantities in scratch buffers that survive from point to point: the sums (the transposed one-hot block times the
  rectified, biased block of rows) and the counts (the column sums of the one-hot block). At the first point of a row
  both are zeroed before the update; at the last point both are copied into the row's two output blocks, which are
  idle (untouched and not written back) at every other point. Stated here: the body's triple in each of the three
  cases, the running quantities as a recursion over the points, the invariant that carries them, the launch's proof
  data, and the body obligation at every point.
-/
import proofs.«422273_j43499428774207_3_alg».proof.Proof.Gen.Kernel.Launch
import proofs.«422273_j43499428774207_3_alg».proof.Proof.Gen.Kernel.Skeleton
import proofs.«422273_j43499428774207_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions and where the output windows are idle -/

/-- The first conditional's test: the second grid coordinate is zero (the scalar chain the body computes). -/
abbrev cond1_0 (i : grid1.Coords) : Prop := (Scalar.cmpi .ne (Scalar.extui (Scalar.cmpi .eq (BitVec.ofNat 32 (i 1).val) 0#32)) 0#32) = 1#1
/-- It holds at the points ≡ 0 (mod 10): the first point of each core's row. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: the second grid coordinate is nine. -/
abbrev cond1_1 (i : grid1.Coords) : Prop := k1_cond2 i = 1#1
/-- It holds at the points ≡ 9 (mod 10): the last point of each core's row. -/
theorem hcond1_1 : ∀ t : Fin cfg1.N, cond1_1 (grid1.coords t) ↔ t.val % 10 = 9 :=
  (by decide +kernel : ∀ t : Fin grid1.N, cond1_1 (grid1.coords t) ↔ t.val % 10 = 9)

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point of a row the two outputs are idle and not written back; -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- at it they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## The body's triple, one per control case -/

set_option maxHeartbeats 4000000 in
/-- FIRST POINT OF A ROW (the coordinate is zero): both scratch buffers, holding anything, are zeroed and then updated
    with this point's blocks; the outputs are not touched (they are framed out). -/
theorem sound_kernel1_A (c : Dev nD) (E : Set ℕ) (i : grid1.Coords) (hc0 : cond1_0 i) (hc1 : ¬cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg7 fullShare (k1_pay4 x0 x1 x2 (k1_pay1 (F := F)))
            ∗ owns (c : Thread nD τ) arg8 fullShare (k1_pay5 x2 (k1_pay2 (F := F)))) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

set_option maxHeartbeats 4000000 in
/-- A MIDDLE POINT (the coordinate is neither zero nor nine): both scratch buffers, holding `s0` and `s1`, are
    updated with this point's blocks; the outputs are not touched. -/
theorem sound_kernel1_B (c : Dev nD) (E : Set ℕ) (i : grid1.Coords) (hc0 : ¬cond1_0 i) (hc1 : ¬cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16)
    (s0 : Vec F S64x128 .f32) (s1 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg7 fullShare (k1_pay4 x0 x1 x2 s0)
            ∗ owns (c : Thread nD τ) arg8 fullShare (k1_pay5 x2 s1)) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

set_option maxHeartbeats 4000000 in
/-- LAST POINT OF A ROW (the coordinate is nine): both scratch buffers are updated as at a middle point, and then
    copied whole into the two output blocks, which held anything. -/
theorem sound_kernel1_C (c : Dev nD) (E : Set ℕ) (i : grid1.Coords) (hc0 : ¬cond1_0 i) (hc1 : cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16)
    (s0 : Vec F S64x128 .f32) (s1 : Vec F S1x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 (k1_pay4 x0 x1 x2 s0))
            ∗ owns (c : Thread nD τ) arg6 fullShare (k1_pay7 (k1_pay5 x2 s1))
            ∗ owns (c : Thread nD τ) arg7 fullShare (k1_pay4 x0 x1 x2 s0)
            ∗ owns (c : Thread nD τ) arg8 fullShare (k1_pay5 x2 s1)) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (fun y => ⟨_, List.Mem.head _, View.mem_set_unit_zero hz3_1 inb_S1x64x128_S1x64x128_0_0_0 y⟩)).trans ?_
    rw [View.canon_cons_unit_zero hz3_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  isplitl [H4]
  · iexists _; isplitr
    swap; · iexact H4
    ipureintro
    sl_unfold_run_names
    refine (View.read_writes_eq_canon _ _ _ (fun y => ⟨_, List.Mem.head _, View.mem_set_unit_zero hz3_1 inb_S1x1x64_S1x1x64_0_0_0 y⟩)).trans ?_
    rw [View.canon_cons_unit_zero hz3_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

/-! ## The blocks, the running sums, the invariant and the proof data -/

-- the buffers' contents when the launch is entered: the parameter everything below is stated at
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not (an unfetched window's
    block index has not moved), for any proof data over the arrays as found whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first scratch buffer (the running sums) after point `n`: this point's update of the zero block at the first
    point of a row, of what the point before left elsewhere. -/
def accS (c : Dev nD) : (n : ℕ) → n < cfg1.N → Vec F S64x128 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩)
      (if (n + 1) % 10 = 0 then k1_pay1 (F := F) else accS c n (Nat.lt_of_succ_lt h))

/-- The second scratch buffer (the running counts) after point `n`, likewise. -/
def accC (c : Dev nD) : (n : ℕ) → n < cfg1.N → Vec F S1x64 .f32
  | 0, h => k1_pay5 (iblk1 V c 2 ⟨0, h⟩) (k1_pay2 (F := F))
  | n + 1, h => k1_pay5 (iblk1 V c 2 ⟨n + 1, h⟩) (if (n + 1) % 10 = 0 then k1_pay2 (F := F) else accC c n (Nat.lt_of_succ_lt h))

theorem accS_succ (c : Dev nD) (n : ℕ) (h : n + 1 < cfg1.N) :
    accS V c (n + 1) h = k1_pay4 (iblk1 V c 0 ⟨n + 1, h⟩) (iblk1 V c 1 ⟨n + 1, h⟩) (iblk1 V c 2 ⟨n + 1, h⟩)
      (if (n + 1) % 10 = 0 then k1_pay1 (F := F) else accS V c n (Nat.lt_of_succ_lt h)) := rfl
theorem accC_succ (c : Dev nD) (n : ℕ) (h : n + 1 < cfg1.N) :
    accC V c (n + 1) h = k1_pay5 (iblk1 V c 2 ⟨n + 1, h⟩) (if (n + 1) % 10 = 0 then k1_pay2 (F := F) else accC V c n (Nat.lt_of_succ_lt h)) := rfl

/-- At the first point of a row the sums restart from the zero block. -/
theorem accS_reset (c : Dev nD) (t : Fin cfg1.N) (h : t.val % 10 = 0) :
    accS V c t.val t.isLt = k1_pay4 (iblk1 V c 0 t) (iblk1 V c 1 t) (iblk1 V c 2 t) (k1_pay1 (F := F)) := by
  obtain ⟨n, hn⟩ := t
  cases n with
  | zero => rfl
  | succ n =>
    have h' : (n + 1) % 10 = 0 := h
    exact (accS_succ V c n hn).trans (by rw [if_pos h'])

/-- Elsewhere they continue from what the point before left. -/
theorem accS_step (c : Dev nD) (t : Fin cfg1.N) (h : t.val % 10 ≠ 0) :
    accS V c t.val t.isLt = k1_pay4 (iblk1 V c 0 t) (iblk1 V c 1 t) (iblk1 V c 2 t)
      (accS V c (t.val - 1) (Nat.lt_of_le_of_lt (Nat.sub_le _ _) t.isLt)) := by
  obtain ⟨n, hn⟩ := t
  cases n with
  | zero => exact absurd (Nat.zero_mod _) h
  | succ n =>
    have h' : ¬(n + 1) % 10 = 0 := h
    exact (accS_succ V c n hn).trans (by rw [if_neg h']; rfl)

theorem accC_reset (c : Dev nD) (t : Fin cfg1.N) (h : t.val % 10 = 0) :
    accC V c t.val t.isLt = k1_pay5 (iblk1 V c 2 t) (k1_pay2 (F := F)) := by
  obtain ⟨n, hn⟩ := t
  cases n with
  | zero => rfl
  | succ n =>
    have h' : (n + 1) % 10 = 0 := h
    exact (accC_succ V c n hn).trans (by rw [if_pos h'])

theorem accC_step (c : Dev nD) (t : Fin cfg1.N) (h : t.val % 10 ≠ 0) :
    accC V c t.val t.isLt = k1_pay5 (iblk1 V c 2 t) (accC V c (t.val - 1) (Nat.lt_of_le_of_lt (Nat.sub_le _ _) t.isLt)) := by
  obtain ⟨n, hn⟩ := t
  cases n with
  | zero => exact absurd (Nat.zero_mod _) h
  | succ n =>
    have h' : ¬(n + 1) % 10 = 0 := h
    exact (accC_succ V c n hn).trans (by rw [if_neg h']; rfl)

/-- A scoped buffer of another launch, whole at some contents. -/
abbrev anyAt (c : Dev nD) (b : Ref sig .tc) : sProp 𝕄 :=
  iprop(∃ f : Buf (Elt F) ((c : Thread nD τ).loc b), ((c : Thread nD τ).loc b) ↦{fullShare} f)

/-- The two scratch operands as memrefs. -/
abbrev scM1_0 : Memref sig .tc .vmem S64x128 .f32 := Memref.whole cc1_scratch0
abbrev scM1_1 : Memref sig .tc .vmem S1x64 .f32 := Memref.whole cc1_scratch1

/-- What the launch hands the region, with the two scratch operands as memrefs owned at some contents. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ (∃ d, owns (c : Thread nD τ) scM1_0 fullShare d) ∗ (∃ d, owns (c : Thread nD τ) scM1_1 fullShare d) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := by
  unfold Pipeline.ΦA; rw [scopedRest1_eq]; simp only [scM1_0, scM1_1, owns_whole]; try rfl

/-- The invariant before position `n`: before the first point what the launch hands the region; afterwards the other
    launches' scoped buffers at anything, the two scratch buffers at the running sums and counts after the point
    before, and the generator register at some state. -/
def Phi1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c n hn) ∗ owns (c : Thread nD τ) scM1_1 fullShare (accC V c n hn) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c n hn) ∗ owns (c : Thread nD τ) scM1_1 fullShare (accC V c n hn) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := rfl

theorem Phi1_pos (c : Dev nD) (n : ℕ) (h : n ≤ cfg1.N) (hz : n ≠ 0) :
    Phi1 V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c (n - 1) (by omega)) ∗ owns (c : Thread nD τ) scM1_1 fullShare (accC V c (n - 1) (by omega)) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := by
  cases n with
  | zero => exact absurd rfl hz
  | succ n => rfl

/-- At any position the invariant gives back what the launch handed the region: the scratch contents are forgotten. -/
theorem Phi1_out (c : Dev nD) (n : ℕ) (h : n ≤ cfg1.N) : Phi1 V c n h ⊢ Pipeline.ΦA spec1 c := by
  cases n with
  | zero => exact Idealize.SL.BI.Entails.refl _
  | succ n =>
    rw [Phi1_succ, PhiA1_eq]
    iintro ⟨⟨R1, R2, R3, R4, R5, HS0, HS1, R8, R9, R10, R11, R12⟩, Hg⟩
    isplitr [Hg]
    · isplitl [R1]; · iexact R1
      isplitl [R2]; · iexact R2
      isplitl [R3]; · iexact R3
      isplitl [R4]; · iexact R4
      isplitl [R5]; · iexact R5
      isplitl [HS0]; · iexists _; iexact HS0
      isplitl [HS1]; · iexists _; iexact HS1
      isplitl [R8]; · iexact R8
      isplitl [R9]; · iexact R9
      isplitl [R10]; · iexact R10
      isplitl [R11]; · iexact R11
      iexact R12
    iexact Hg

/-- The launch's proof data on core `c`: the arrays as the launch finds them; after the body each input block in place
    and the two output blocks at the copies of the running sums and counts; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (accS V c t.val t.isLt)
    | ⟨4, _⟩ => k1_pay7 (accC V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay6 (accS V c t.val t.isLt) := by dsimp only [dat1]
theorem after1_4 (c : Dev nD) (t : Fin cfg1.N) : (dat1 V c).after 4 t = k1_pay7 (accC V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's position in its row says which of the
    three cases it is in; the invariant hands the body the two scratch buffers at what the point before left (at
    anything at a row's first point, where they are zeroed) and takes them back at this point's running sums and
    counts; off a row's last point the two output buffers are handed back as found, at it they hold the copies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (st1_0 t) fullShare ((dat1 V c).after 0 t) from by
        unfold Dat.leavesExact; rw [liveAt1_0 t], after1_0,
      show (dat1 V c).leavesExact 1 t = owns (c : Thread nD τ) (st1_1 t) fullShare ((dat1 V c).after 1 t) from by
        unfold Dat.leavesExact; rw [liveAt1_1 t], after1_1,
      show (dat1 V c).leavesExact 2 t = owns (c : Thread nD τ) (st1_2 t) fullShare ((dat1 V c).after 2 t) from by
        unfold Dat.leavesExact; rw [liveAt1_2 t], after1_2]
  by_cases h0 : t.val % 10 = 0
  · have h9 : ¬t.val % 10 = 9 := by omega
    have hc0 : cond1_0 (grid1.coords t) := (hcond1_0 t).mpr h0
    have hc1 : ¬cond1_1 (grid1.coords t) := fun h => h9 ((hcond1_1 t).mp h)
    rw [Dat.leavesExact_idle (dat1 V c) 3 t (idleAt1_3 t hc1) (noFlush1_3 t hc1),
      Dat.leavesExact_idle (dat1 V c) 4 t (idleAt1_4 t hc1) (noFlush1_4 t hc1)]
    rw [accS_reset V c t h0, accC_reset V c t h0]
    rw [Phi1_castSucc V c t]
    refine (Idealize.SL.BI.Laws.sep_mono_left (Phi1_out V c _ _)).trans ?_
    rw [PhiA1_eq]
    iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
    iapply (sound_kernel1_A c Set.univ _ hc0 hc1 _ _ _ _ _ _ _ _ _ _ _ _ _ _ (iblk1 V c 0 t) (iblk1 V c 1 t) (iblk1 V c 2 t) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R1 R2 R3 R4 R5 HS0 HS1 R8 R9 R10 R11 R12 Hg]
    · isplitr [Hg]
      · isplitl [R1]; · iexact R1
        isplitl [R2]; · iexact R2
        isplitl [R3]; · iexact R3
        isplitl [R4]; · iexact R4
        isplitl [R5]; · iexact R5
        isplitl [HS0]; · iexact HS0
        isplitl [HS1]; · iexact HS1
        isplitl [R8]; · iexact R8
        isplitl [R9]; · iexact R9
        isplitl [R10]; · iexact R10
        isplitl [R11]; · iexact R11
        iexact R12
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond1_0 (grid1.coords t) := fun h => h0 ((hcond1_0 t).mp h)
    rw [accS_step V c t h0, accC_step V c t h0]
    rw [Phi1_castSucc V c t, Phi1_pos V c _ _ hz]
    by_cases h9 : t.val % 10 = 9
    · have hc1 : cond1_1 (grid1.coords t) := (hcond1_1 t).mpr h9
      rw [show (dat1 V c).leavesExact 3 t = owns (c : Thread nD τ) (st1_3 t) fullShare ((dat1 V c).after 3 t) from by
          unfold Dat.leavesExact; rw [liveAt1_3 t hc1], after1_3,
        show (dat1 V c).leavesExact 4 t = owns (c : Thread nD τ) (st1_4 t) fullShare ((dat1 V c).after 4 t) from by
          unfold Dat.leavesExact; rw [liveAt1_4 t hc1], after1_4]
      rw [accS_step V c t h0, accC_step V c t h0]
      iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
      iapply (sound_kernel1_C c Set.univ _ hc0 hc1 _ _ _ _ _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [R1 R2 R3 R4 R5 HS0 HS1 R8 R9 R10 R11 R12 Hg]
      · isplitr [Hg]
        · isplitl [R1]; · iexact R1
          isplitl [R2]; · iexact R2
          isplitl [R3]; · iexact R3
          isplitl [R4]; · iexact R4
          isplitl [R5]; · iexact R5
          isplitl [HS0]; · iexact HS0
          isplitl [HS1]; · iexact HS1
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h9 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
      iapply (sound_kernel1_B c Set.univ _ hc0 hc1 _ _ _ _ _ _ _ _ _ _ _ _ _ _ (iblk1 V c 0 t) (iblk1 V c 1 t) (iblk1 V c 2 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 HS0 HS1 R8 R9 R10 R11 R12 Hg]
      · isplitr [Hg]
        · isplitl [R1]; · iexact R1
          isplitl [R2]; · iexact R2
          isplitl [R3]; · iexact R3
          isplitl [R4]; · iexact R4
          isplitl [R5]; · iexact R5
          isplitl [HS0]; · iexact HS0
          isplitl [HS1]; · iexact HS1
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back: the scratch buffers' contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_out V c _ _

end Cert.Kernel.Hand

end
-- ==== Proof.KbRegion2.lean ====
/-
  The third launch: the classifier. One grid point; it reads the pooled sums (64x128), the per-graph counts (64x1),
  the weight column (128x1) and the bias (1x1), forms sigmoid((sums / max(counts, 1)) · W + b) and stores it over
  the whole 64x1 output block. Stated here: what the point leaves in the output block as a function of the four
  input blocks, the body's triple, the launch's proof data over the arrays as the launch finds them, and the body
  obligation at the point.
-/
import proofs.«422273_j43499428774207_3_alg».proof.Proof.Gen.Kernel.Launch
import proofs.«422273_j43499428774207_3_alg».proof.Proof.Gen.Kernel.Skeleton
import proofs.«422273_j43499428774207_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: the parameter everything here is stated at
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pooled sums: fetched at the one point, so the staging buffer holds the array's block there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The counts: fetched at the one point, so the staging buffer holds the array's block there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight column: fetched at the one point, so the staging buffer holds the array's block there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias: fetched at the one point, so the staging buffer holds the array's block there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_s : Rect S64x128 := Rect.unit (s := S64x128) ![0, 0] S64x128.size inb_S64x128_S64x128_0_0
abbrev r2_n : Rect S64x1 := Rect.unit (s := S64x1) ![0, 0] S64x1.size inb_S64x1_S64x1_0_0
abbrev r2_w : Rect S128x1 := Rect.unit (s := S128x1) ![0, 0] S128x1.size inb_S128x1_S128x1_0_0
abbrev r2_b : Rect S1x1 := Rect.unit (s := S1x1) ![0, 0] S1x1.size inb_S1x1_S1x1_0_0

theorem hz2' : (![0, 0] : Fin 2 → Nat) = fun _ => 0 := funext fun a => by fin_cases a <;> rfl

/-- What the point leaves in the output block: the classifier's value on the counts, the sums, the weight column and
    the bias (the body's one payload), stored over the whole block. -/
abbrev clsOut (n : Vec F S64x1 .f32) (s : Vec F S64x128 .f32) (w : Vec F S128x1 .f32) (b : Vec F S1x1 .f32) : Vec F S64x1 .f32 :=
  k2_pay1 n s w b

/-- The one store covers the output block. -/
theorem cover2 (p0 : Vec F S64x1 .f32) (y : S64x1.Idx) :
    ∃ pc ∈ ([⟨r2_n, p0⟩] : List (View.Piece (Elt F) S64x1 .f32)), y ∈ pc.1.set :=
  View.cover_of_tiled [⟨r2_n, p0⟩] S64x1.size (by rfl) y

set_option maxHeartbeats 1000000 in
/-- The body on whole staging memrefs: from the four input blocks at `x0 … x3` and the output block at anything, it
    runs to the inputs as they were and the output block at `clsOut x1 x0 x2 x3`. -/
theorem sound_kernel2 (c : Dev nD) (E : Set ℕ) (i : grid2.Coords)
    (arg1 : Memref sig .tc .vmem S64x128 .f32) (harg1 : arg1.IsWhole) (arg2 : Memref sig .tc .vmem S64x1 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole)
    (x0 : Vec F S64x128 .f32) (x1 : Vec F S64x1 .f32) (x2 : Vec F S128x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (clsOut x1 x0 x2 x3)) -∗ K ⟨⟩))
      ⊢ wp frame (wpE (defs₀ (F := F)) Variants.none c none) E (cc2__classify_kernel i arg1 harg1 arg2 harg2 arg3 harg3 arg4 harg4 arg5 harg5) K := by
  simp only [cc2__classify_kernel_eq_skeleton]; unfold cc2__classify_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover2 _)).trans ?_
  rw [View.canon_unit_zero hz2']
  simp only [View.readAt_eq_ld, View.ld_unit_zero (S := S64x1) hz2', View.ld_unit_zero (S := S64x128) hz2',
    View.ld_unit_zero (S := S128x1) hz2', View.ld_unit_zero (S := S1x1) hz2']

/-- The launch's proof data on core `c`: the arrays as the launch finds them; after the body each input block in place
    and the output block at the classifier's value on the four; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 1 t) (iblk2 V c 0 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 1 t) (iblk2 V c 0 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at the point: the input memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at the point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbRun.lean ====
/-
  The whole run of @main: the contents of the device's buffers between @main's items (the three launches and the host
  stretches between them) as a fold from the launch memory, each launch's proof data at the contents it is entered
  with, the three launches as segments of the run, and the launch theorem over them: every weakly fair execution
  terminates and ends with every unscoped buffer at the fold's last valuation. The frame (the arguments end as
  launched) and the result buffer's value are read off that valuation.
-/
import proofs.«422273_j43499428774207_3_alg».proof.Proof.KbRegion0
import proofs.«422273_j43499428774207_3_alg».proof.Proof.KbRegion1
import proofs.«422273_j43499428774207_3_alg».proof.Proof.KbRegion2
import proofs.«422273_j43499428774207_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- At launch. -/
abbrev U0 : Dev nD → Valuation τ sig (Elt F) := fun c b => m (c, b)
abbrev T0 : (c : Dev nD) → (b : Ref sig .tc) → Buf (Elt F) ((c : Thread nD τ).loc b) := fun c b => U0 m c b

/-- After launch 0: each output array at what the pipeline leaves (its write-backs folded), every other buffer as
    entered (an input window's array is only read). -/
def U1 (c : Dev nD) : Valuation τ sig (Elt F) :=
  Function.update (U0 m c) (Proc.devRef .tc main_v0) ((dat0 (T0 m) c).arrAt 2 cfg0.N)
theorem U1_out2 (c : Dev nD) : U1 m c (Proc.devRef .tc main_v0) = (dat0 (T0 m) c).arrAt 2 cfg0.N := by
  unfold U1; exact Function.update_self ..
theorem U1_of_ne (c : Dev nD) (b : Ref sig .tc) (hb : b ≠ main_v0) :
    U1 m c (Proc.devRef .tc b) = U0 m c (Proc.devRef .tc b) := by
  unfold U1; exact Function.update_of_ne (StableHlo.devRef_ne_of_ne hb) _ _
abbrev T1 : (c : Dev nD) → (b : Ref sig .tc) → Buf (Elt F) ((c : Thread nD τ).loc b) := fun c b => U1 m c b
theorem hF0 (c : Dev nD) (w : Fin cfg0.W) : (dat0 (T0 m) c).arrAt w cfg0.N = T1 m c (Pipeline.arrRef spec0 w) := by
  match w with
  | ⟨0, _⟩ => exact (((dat0 (T0 m) c).arrAt_in 0 rfl _).trans (A_eq0 (T0 m) c 0)).trans (U1_of_ne m c main_arg0 (by decide)).symm
  | ⟨1, _⟩ => exact (((dat0 (T0 m) c).arrAt_in 1 rfl _).trans (A_eq0 (T0 m) c 1)).trans (U1_of_ne m c main_arg4 (by decide)).symm
  | ⟨2, _⟩ => exact (U1_out2 m c).symm
theorem hrest0 (c : Dev nD) : ∀ b, b ∉ Finset.univ.image (Pipeline.arrRef spec0) → T1 m c b = T0 m c b := fun b hb =>
  U1_of_ne m c b (fun e => hb (Finset.mem_image.mpr ⟨2, Finset.mem_univ _, e.symm ▸ rfl⟩))

/-- After the three host stretches between the first launch and the second. -/
abbrev U2 : Dev nD → Valuation τ sig (Elt F) := fun c => StableHlo.after hostOps1 (U1 m c)
abbrev U3 : Dev nD → Valuation τ sig (Elt F) := fun c => StableHlo.after hostOps1_1 (U2 m c)
abbrev U4 : Dev nD → Valuation τ sig (Elt F) := fun c => StableHlo.after hostOps1_2 (U3 m c)
abbrev T4 : (c : Dev nD) → (b : Ref sig .tc) → Buf (Elt F) ((c : Thread nD τ).loc b) := fun c b => U4 m c b

/-- After launch 1: each output array at what the pipeline leaves (its write-backs folded), every other buffer as
    entered (an input window's array is only read). -/
def U5 (c : Dev nD) : Valuation τ sig (Elt F) :=
  Function.update (Function.update (U4 m c) (Proc.devRef .tc main_v56_0) ((dat1 (T4 m) c).arrAt 3 cfg1.N)) (Proc.devRef .tc main_v56_1) ((dat1 (T4 m) c).arrAt 4 cfg1.N)
theorem U5_out3 (c : Dev nD) : U5 m c (Proc.devRef .tc main_v56_0) = (dat1 (T4 m) c).arrAt 3 cfg1.N := by
  unfold U5; rw [Function.update_of_ne (StableHlo.devRef_ne_of_ne (by decide : main_v56_0 ≠ main_v56_1))]; exact Function.update_self ..
theorem U5_out4 (c : Dev nD) : U5 m c (Proc.devRef .tc main_v56_1) = (dat1 (T4 m) c).arrAt 4 cfg1.N := by
  unfold U5; exact Function.update_self ..
theorem U5_of_ne (c : Dev nD) (b : Ref sig .tc) (hb : b ≠ main_v56_0 ∧ b ≠ main_v56_1) :
    U5 m c (Proc.devRef .tc b) = U4 m c (Proc.devRef .tc b) := by
  unfold U5; rw [Function.update_of_ne (StableHlo.devRef_ne_of_ne hb.2), Function.update_of_ne (StableHlo.devRef_ne_of_ne hb.1)]
abbrev T5 : (c : Dev nD) → (b : Ref sig .tc) → Buf (Elt F) ((c : Thread nD τ).loc b) := fun c b => U5 m c b
theorem hF1 (c : Dev nD) (w : Fin cfg1.W) : (dat1 (T4 m) c).arrAt w cfg1.N = T5 m c (Pipeline.arrRef spec1 w) := by
  match w with
  | ⟨0, _⟩ => exact (((dat1 (T4 m) c).arrAt_in 0 rfl _).trans (A_eq1 (T4 m) c 0)).trans (U5_of_ne m c main_v47 (by decide)).symm
  | ⟨1, _⟩ => exact (((dat1 (T4 m) c).arrAt_in 1 rfl _).trans (A_eq1 (T4 m) c 1)).trans (U5_of_ne m c main_v55 (by decide)).symm
  | ⟨2, _⟩ => exact (((dat1 (T4 m) c).arrAt_in 2 rfl _).trans (A_eq1 (T4 m) c 2)).trans (U5_of_ne m c main_v54 (by decide)).symm
  | ⟨3, _⟩ => exact (U5_out3 m c).symm
  | ⟨4, _⟩ => exact (U5_out4 m c).symm
theorem hrest1 (c : Dev nD) : ∀ b, b ∉ Finset.univ.image (Pipeline.arrRef spec1) → T5 m c b = T4 m c b := fun b hb =>
  U5_of_ne m c b ⟨fun e => hb (Finset.mem_image.mpr ⟨3, Finset.mem_univ _, e.symm ▸ rfl⟩), fun e => hb (Finset.mem_image.mpr ⟨4, Finset.mem_univ _, e.symm ▸ rfl⟩)⟩

/-- After the host stretch between the second launch and the third. -/
abbrev U6 : Dev nD → Valuation τ sig (Elt F) := fun c => StableHlo.after hostOps2 (U5 m c)
abbrev T6 : (c : Dev nD) → (b : Ref sig .tc) → Buf (Elt F) ((c : Thread nD τ).loc b) := fun c b => U6 m c b

/-- After launch 2: each output array at what the pipeline leaves (its write-backs folded), every other buffer as
    entered (an input window's array is only read). -/
def U7 (c : Dev nD) : Valuation τ sig (Elt F) :=
  Function.update (U6 m c) (Proc.devRef .tc main_v69) ((dat2 (T6 m) c).arrAt 4 cfg2.N)
theorem U7_out4 (c : Dev nD) : U7 m c (Proc.devRef .tc main_v69) = (dat2 (T6 m) c).arrAt 4 cfg2.N := by
  unfold U7; exact Function.update_self ..
theorem U7_of_ne (c : Dev nD) (b : Ref sig .tc) (hb : b ≠ main_v69) :
    U7 m c (Proc.devRef .tc b) = U6 m c (Proc.devRef .tc b) := by
  unfold U7; exact Function.update_of_ne (StableHlo.devRef_ne_of_ne hb) _ _
abbrev T7 : (c : Dev nD) → (b : Ref sig .tc) → Buf (Elt F) ((c : Thread nD τ).loc b) := fun c b => U7 m c b
theorem hF2 (c : Dev nD) (w : Fin cfg2.W) : (dat2 (T6 m) c).arrAt w cfg2.N = T7 m c (Pipeline.arrRef spec2 w) := by
  match w with
  | ⟨0, _⟩ => exact (((dat2 (T6 m) c).arrAt_in 0 rfl _).trans (A_eq2 (T6 m) c 0)).trans (U7_of_ne m c main_v61 (by decide)).symm
  | ⟨1, _⟩ => exact (((dat2 (T6 m) c).arrAt_in 1 rfl _).trans (A_eq2 (T6 m) c 1)).trans (U7_of_ne m c main_v67 (by decide)).symm
  | ⟨2, _⟩ => exact (((dat2 (T6 m) c).arrAt_in 2 rfl _).trans (A_eq2 (T6 m) c 2)).trans (U7_of_ne m c main_arg6 (by decide)).symm
  | ⟨3, _⟩ => exact (((dat2 (T6 m) c).arrAt_in 3 rfl _).trans (A_eq2 (T6 m) c 3)).trans (U7_of_ne m c main_v68 (by decide)).symm
  | ⟨4, _⟩ => exact (U7_out4 m c).symm
theorem hrest2 (c : Dev nD) : ∀ b, b ∉ Finset.univ.image (Pipeline.arrRef spec2) → T7 m c b = T6 m c b := fun b hb =>
  U7_of_ne m c b (fun e => hb (Finset.mem_image.mpr ⟨4, Finset.mem_univ _, e.symm ▸ rfl⟩))

/-! ## The arguments end as launched: no host operation writes one and a launch reads one only through an input window -/

theorem U7_main_arg0 (c : Dev nD) : U7 m c (Proc.devRef .tc main_arg0) = m ((c : Thread nD τ).loc main_arg0) :=
  calc U7 m c (Proc.devRef .tc main_arg0)
    _ = U6 m c (Proc.devRef .tc main_arg0) := U7_of_ne m c main_arg0 (by decide)
    _ = U5 m c (Proc.devRef .tc main_arg0) := StableHlo.after_of_writes_sub hostOps2 _ hostOps2_writes (r := main_arg0) (by decide)
    _ = U4 m c (Proc.devRef .tc main_arg0) := U5_of_ne m c main_arg0 (by decide)
    _ = U3 m c (Proc.devRef .tc main_arg0) := StableHlo.after_of_writes_sub hostOps1_2 _ hostOps1_2_writes (r := main_arg0) (by decide)
    _ = U2 m c (Proc.devRef .tc main_arg0) := StableHlo.after_of_writes_sub hostOps1_1 _ hostOps1_1_writes (r := main_arg0) (by decide)
    _ = U1 m c (Proc.devRef .tc main_arg0) := StableHlo.after_of_writes_sub hostOps1 _ hostOps1_writes (r := main_arg0) (by decide)
    _ = U0 m c (Proc.devRef .tc main_arg0) := U1_of_ne m c main_arg0 (by decide)
    _ = m ((c : Thread nD τ).loc main_arg0) := rfl

theorem U7_main_arg1 (c : Dev nD) : U7 m c (Proc.devRef .tc main_arg1) = m ((c : Thread nD τ).loc main_arg1) :=
  calc U7 m c (Proc.devRef .tc main_arg1)
    _ = U6 m c (Proc.devRef .tc main_arg1) := U7_of_ne m c main_arg1 (by decide)
    _ = U5 m c (Proc.devRef .tc main_arg1) := StableHlo.after_of_writes_sub hostOps2 _ hostOps2_writes (r := main_arg1) (by decide)
    _ = U4 m c (Proc.devRef .tc main_arg1) := U5_of_ne m c main_arg1 (by decide)
    _ = U3 m c (Proc.devRef .tc main_arg1) := StableHlo.after_of_writes_sub hostOps1_2 _ hostOps1_2_writes (r := main_arg1) (by decide)
    _ = U2 m c (Proc.devRef .tc main_arg1) := StableHlo.after_of_writes_sub hostOps1_1 _ hostOps1_1_writes (r := main_arg1) (by decide)
    _ = U1 m c (Proc.devRef .tc main_arg1) := StableHlo.after_of_writes_sub hostOps1 _ hostOps1_writes (r := main_arg1) (by decide)
    _ = U0 m c (Proc.devRef .tc main_arg1) := U1_of_ne m c main_arg1 (by decide)
    _ = m ((c : Thread nD τ).loc main_arg1) := rfl

theorem U7_main_arg2 (c : Dev nD) : U7 m c (Proc.devRef .tc main_arg2) = m ((c : Thread nD τ).loc main_arg2) :=
  calc U7 m c (Proc.devRef .tc main_arg2)
    _ = U6 m c (Proc.devRef .tc main_arg2) := U7_of_ne m c main_arg2 (by decide)
    _ = U5 m c (Proc.devRef .tc main_arg2) := StableHlo.after_of_writes_sub hostOps2 _ hostOps2_writes (r := main_arg2) (by decide)
    _ = U4 m c (Proc.devRef .tc main_arg2) := U5_of_ne m c main_arg2 (by decide)
    _ = U3 m c (Proc.devRef .tc main_arg2) := StableHlo.after_of_writes_sub hostOps1_2 _ hostOps1_2_writes (r := main_arg2) (by decide)
    _ = U2 m c (Proc.devRef .tc main_arg2) := StableHlo.after_of_writes_sub hostOps1_1 _ hostOps1_1_writes (r := main_arg2) (by decide)
    _ = U1 m c (Proc.devRef .tc main_arg2) := StableHlo.after_of_writes_sub hostOps1 _ hostOps1_writes (r := main_arg2) (by decide)
    _ = U0 m c (Proc.devRef .tc main_arg2) := U1_of_ne m c main_arg2 (by decide)
    _ = m ((c : Thread nD τ).loc main_arg2) := rfl

theorem U7_main_arg3 (c : Dev nD) : U7 m c (Proc.devRef .tc main_arg3) = m ((c : Thread nD τ).loc main_arg3) :=
  calc U7 m c (Proc.devRef .tc main_arg3)
    _ = U6 m c (Proc.devRef .tc main_arg3) := U7_of_ne m c main_arg3 (by decide)
    _ = U5 m c (Proc.devRef .tc main_arg3) := StableHlo.after_of_writes_sub hostOps2 _ hostOps2_writes (r := main_arg3) (by decide)
    _ = U4 m c (Proc.devRef .tc main_arg3) := U5_of_ne m c main_arg3 (by decide)
    _ = U3 m c (Proc.devRef .tc main_arg3) := StableHlo.after_of_writes_sub hostOps1_2 _ hostOps1_2_writes (r := main_arg3) (by decide)
    _ = U2 m c (Proc.devRef .tc main_arg3) := StableHlo.after_of_writes_sub hostOps1_1 _ hostOps1_1_writes (r := main_arg3) (by decide)
    _ = U1 m c (Proc.devRef .tc main_arg3) := StableHlo.after_of_writes_sub hostOps1 _ hostOps1_writes (r := main_arg3) (by decide)
    _ = U0 m c (Proc.devRef .tc main_arg3) := U1_of_ne m c main_arg3 (by decide)
    _ = m ((c : Thread nD τ).loc main_arg3) := rfl

theorem U7_main_arg4 (c : Dev nD) : U7 m c (Proc.devRef .tc main_arg4) = m ((c : Thread nD τ).loc main_arg4) :=
  calc U7 m c (Proc.devRef .tc main_arg4)
    _ = U6 m c (Proc.devRef .tc main_arg4) := U7_of_ne m c main_arg4 (by decide)
    _ = U5 m c (Proc.devRef .tc main_arg4) := StableHlo.after_of_writes_sub hostOps2 _ hostOps2_writes (r := main_arg4) (by decide)
    _ = U4 m c (Proc.devRef .tc main_arg4) := U5_of_ne m c main_arg4 (by decide)
    _ = U3 m c (Proc.devRef .tc main_arg4) := StableHlo.after_of_writes_sub hostOps1_2 _ hostOps1_2_writes (r := main_arg4) (by decide)
    _ = U2 m c (Proc.devRef .tc main_arg4) := StableHlo.after_of_writes_sub hostOps1_1 _ hostOps1_1_writes (r := main_arg4) (by decide)
    _ = U1 m c (Proc.devRef .tc main_arg4) := StableHlo.after_of_writes_sub hostOps1 _ hostOps1_writes (r := main_arg4) (by decide)
    _ = U0 m c (Proc.devRef .tc main_arg4) := U1_of_ne m c main_arg4 (by decide)
    _ = m ((c : Thread nD τ).loc main_arg4) := rfl

theorem U7_main_arg5 (c : Dev nD) : U7 m c (Proc.devRef .tc main_arg5) = m ((c : Thread nD τ).loc main_arg5) :=
  calc U7 m c (Proc.devRef .tc main_arg5)
    _ = U6 m c (Proc.devRef .tc main_arg5) := U7_of_ne m c main_arg5 (by decide)
    _ = U5 m c (Proc.devRef .tc main_arg5) := StableHlo.after_of_writes_sub hostOps2 _ hostOps2_writes (r := main_arg5) (by decide)
    _ = U4 m c (Proc.devRef .tc main_arg5) := U5_of_ne m c main_arg5 (by decide)
    _ = U3 m c (Proc.devRef .tc main_arg5) := StableHlo.after_of_writes_sub hostOps1_2 _ hostOps1_2_writes (r := main_arg5) (by decide)
    _ = U2 m c (Proc.devRef .tc main_arg5) := StableHlo.after_of_writes_sub hostOps1_1 _ hostOps1_1_writes (r := main_arg5) (by decide)
    _ = U1 m c (Proc.devRef .tc main_arg5) := StableHlo.after_of_writes_sub hostOps1 _ hostOps1_writes (r := main_arg5) (by decide)
    _ = U0 m c (Proc.devRef .tc main_arg5) := U1_of_ne m c main_arg5 (by decide)
    _ = m ((c : Thread nD τ).loc main_arg5) := rfl

theorem U7_main_arg6 (c : Dev nD) : U7 m c (Proc.devRef .tc main_arg6) = m ((c : Thread nD τ).loc main_arg6) :=
  calc U7 m c (Proc.devRef .tc main_arg6)
    _ = U6 m c (Proc.devRef .tc main_arg6) := U7_of_ne m c main_arg6 (by decide)
    _ = U5 m c (Proc.devRef .tc main_arg6) := StableHlo.after_of_writes_sub hostOps2 _ hostOps2_writes (r := main_arg6) (by decide)
    _ = U4 m c (Proc.devRef .tc main_arg6) := U5_of_ne m c main_arg6 (by decide)
    _ = U3 m c (Proc.devRef .tc main_arg6) := StableHlo.after_of_writes_sub hostOps1_2 _ hostOps1_2_writes (r := main_arg6) (by decide)
    _ = U2 m c (Proc.devRef .tc main_arg6) := StableHlo.after_of_writes_sub hostOps1_1 _ hostOps1_1_writes (r := main_arg6) (by decide)
    _ = U1 m c (Proc.devRef .tc main_arg6) := StableHlo.after_of_writes_sub hostOps1 _ hostOps1_writes (r := main_arg6) (by decide)
    _ = U0 m c (Proc.devRef .tc main_arg6) := U1_of_ne m c main_arg6 (by decide)
    _ = m ((c : Thread nD τ).loc main_arg6) := rfl

theorem U7_main_arg7 (c : Dev nD) : U7 m c (Proc.devRef .tc main_arg7) = m ((c : Thread nD τ).loc main_arg7) :=
  calc U7 m c (Proc.devRef .tc main_arg7)
    _ = U6 m c (Proc.devRef .tc main_arg7) := U7_of_ne m c main_arg7 (by decide)
    _ = U5 m c (Proc.devRef .tc main_arg7) := StableHlo.after_of_writes_sub hostOps2 _ hostOps2_writes (r := main_arg7) (by decide)
    _ = U4 m c (Proc.devRef .tc main_arg7) := U5_of_ne m c main_arg7 (by decide)
    _ = U3 m c (Proc.devRef .tc main_arg7) := StableHlo.after_of_writes_sub hostOps1_2 _ hostOps1_2_writes (r := main_arg7) (by decide)
    _ = U2 m c (Proc.devRef .tc main_arg7) := StableHlo.after_of_writes_sub hostOps1_1 _ hostOps1_1_writes (r := main_arg7) (by decide)
    _ = U1 m c (Proc.devRef .tc main_arg7) := StableHlo.after_of_writes_sub hostOps1 _ hostOps1_writes (r := main_arg7) (by decide)
    _ = U0 m c (Proc.devRef .tc main_arg7) := U1_of_ne m c main_arg7 (by decide)
    _ = m ((c : Thread nD τ).loc main_arg7) := rfl

/-! ## The proof data family and the thread state -/

/-- Every launch's proof data, each at the contents its launch is entered with. -/
def pdats : (p : Fin 3) → (c : Dev nD) → Dat τ (Elt F) Unit ℕ (UR sig nD τ) ℕ (Pipeline.pin (pcfgs (F := F)) adm p) c
  | ⟨0, _⟩ => fun c => dat0 (T0 m) c
  | ⟨1, _⟩ => fun c => dat1 (T4 m) c
  | ⟨2, _⟩ => fun c => dat2 (T6 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U7 m c) ∗ ∃ r, prngReg c r)

/-! ## The launches as segments -/

set_option backward.isDefEq.respectTransparency.types false in
/-- Launch 0 as a segment: entered with every unscoped buffer at its contents before the launch, left with the launch's
    arrays at what the pipeline leaves and every other buffer as entered; the generator register goes into the invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T0 m c) (T1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at its contents before the launch, left with the launch's
    arrays at what the pipeline leaves and every other buffer as entered; the generator register goes into the invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T4 m) c).loose
  hwaits := Pipeline.hwaits_of_owed_zero _ _ _ _ L lv 1 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (T4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (T4 m) c).Φ 0 from rfl]
    refine BIBase.Entails.trans (Q := Pipeline.ΦA spec1 c) ?_ (hin1 (T4 m) c)
    unfold Pipeline.ΦA
    iintro ⟨Hp, -, Hr⟩
    isplitl [Hr]; · iexact Hr
    iexact Hp
  hout c := by
    rw [Pipeline.ownSems0_none, show (pdats m 1 c).Φ (Fin.last _) = (dat1 (T4 m) c).Φ (Fin.last cfg1.N) from rfl]
    refine (hout1 (T4 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T4 m c) (T5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at its contents before the launch, left with the launch's
    arrays at what the pipeline leaves and every other buffer as entered; the generator register goes into the invariant
    and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T6 m c) (T7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .region (reg2 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last valuation of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (U7 m c) ∗ R c)
        ⊢ iprop(Tₙ m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold StableHlo.held
      imodintro
      iapply (pointsTo_read_all (Pipeline.ucRefs τ sig) (fun b => (((c : Thread nD τ)).1, b)) (U7 m c) s')
      isplitl [Hh] <;> iassumption)
    (hQ := fun s h => h)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (U7_main_arg0 m c),
    (h c _ (mem_uc main_arg1 (by decide))).trans (U7_main_arg1 m c),
    (h c _ (mem_uc main_arg2 (by decide))).trans (U7_main_arg2 m c),
    (h c _ (mem_uc main_arg3 (by decide))).trans (U7_main_arg3 m c),
    (h c _ (mem_uc main_arg4 (by decide))).trans (U7_main_arg4 m c),
    (h c _ (mem_uc main_arg5 (by decide))).trans (U7_main_arg5 m c),
    (h c _ (mem_uc main_arg6 (by decide))).trans (U7_main_arg6 m c),
    (h c _ (mem_uc main_arg7 (by decide))).trans (U7_main_arg7 m c)⟩) (run_all m ρ)

end Cert.Kernel.Hand

end
-- ==== Proof.KiRegion0.lean ====
/-
  The first launch: the dense layer's product h = x · W, one block of 5000 rows of x per grid point against
  the whole of W. A point loads its two blocks, forms the product and stores it over the whole output block;
  nothing is kept between points. Stated here: what a point leaves in the output block as a function of the two
  input blocks, the body's triple, the launch's proof data over the arrays as the launch finds them, and the
  body obligation at every point.
-/
import proofs.«422273_j43499428774207_3_alg».proof.Proof.Gen.KernelIdeal.Launch
import proofs.«422273_j43499428774207_3_alg».proof.Proof.Gen.KernelIdeal.Skeleton
import proofs.«422273_j43499428774207_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: the parameter everything here is stated at
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x: its staging buffer holds the array's block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix W: fetched once, its block index never moves, so its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_o : Rect S5000x128 := Rect.unit (s := S5000x128) ![0, 0] S5000x128.size inb_S5000x128_S5000x128_0_0

theorem hz2 : (![0, 0] : Fin 2 → Nat) = fun _ => 0 := funext fun a => by fin_cases a <;> rfl

/-- What a point leaves in the output block: the product of its block of x with W (the body's one payload), stored
    over the whole block. -/
abbrev linOut (x0 : Vec F S5000x256 .f32) (x1 : Vec F S256x128 .f32) : Vec F S5000x128 .f32 := k0_pay1 x0 x1

/-- The one store covers the output block. -/
theorem cover0 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging memrefs: from the two input blocks at `x0`, `x1` and the output block at anything, it
    runs to the inputs as they were and the output block at `linOut x0 x1`. -/
theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (linOut x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  rw [View.canon_unit_zero hz2]
  simp only [View.readAt_eq_ld, View.ld_unit_zero (S := S5000x256) hz2, View.ld_unit_zero (S := S256x128) hz2]

/-- The launch's proof data on core `c`: the arrays as the launch finds them; after the body each input block in place
    and the output block at the product of the two; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The second launch: the pooling kernel on a grid of two rows of ten points. Along a row it keeps two running
  quantities in scratch buffers that survive from point to point: the sums (the transposed one-hot block times the
  rectified, biased block of rows) and the counts (the column sums of the one-hot block). At the first point of a row
  both are zeroed before the update; at the last point both are copied into the row's two output blocks, which are
  idle (untouched and not written back) at every other point. Stated here: the body's triple in each of the three
  cases, the running quantities as a recursion over the points, the invariant that carries them, the launch's proof
  data, and the body obligation at every point.
-/
import proofs.«422273_j43499428774207_3_alg».proof.Proof.Gen.KernelIdeal.Launch
import proofs.«422273_j43499428774207_3_alg».proof.Proof.Gen.KernelIdeal.Skeleton
import proofs.«422273_j43499428774207_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions and where the output windows are idle -/

/-- The first conditional's test: the second grid coordinate is zero (the scalar chain the body computes). -/
abbrev cond1_0 (i : grid1.Coords) : Prop := (Scalar.cmpi .ne (Scalar.extui (Scalar.cmpi .eq (BitVec.ofNat 32 (i 1).val) 0#32)) 0#32) = 1#1
/-- It holds at the points ≡ 0 (mod 10): the first point of each core's row. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: the second grid coordinate is nine. -/
abbrev cond1_1 (i : grid1.Coords) : Prop := k1_cond2 i = 1#1
/-- It holds at the points ≡ 9 (mod 10): the last point of each core's row. -/
theorem hcond1_1 : ∀ t : Fin cfg1.N, cond1_1 (grid1.coords t) ↔ t.val % 10 = 9 :=
  (by decide +kernel : ∀ t : Fin grid1.N, cond1_1 (grid1.coords t) ↔ t.val % 10 = 9)

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point of a row the two outputs are idle and not written back; -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- at it they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## The body's triple, one per control case -/

set_option maxHeartbeats 4000000 in
/-- FIRST POINT OF A ROW (the coordinate is zero): both scratch buffers, holding anything, are zeroed and then updated
    with this point's blocks; the outputs are not touched (they are framed out). -/
theorem sound_kernel1_A (c : Dev nD) (E : Set ℕ) (i : grid1.Coords) (hc0 : cond1_0 i) (hc1 : ¬cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg7 fullShare (k1_pay4 x0 x1 x2 (k1_pay1 (F := F)))
            ∗ owns (c : Thread nD τ) arg8 fullShare (k1_pay5 x2 (k1_pay2 (F := F)))) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

set_option maxHeartbeats 4000000 in
/-- A MIDDLE POINT (the coordinate is neither zero nor nine): both scratch buffers, holding `s0` and `s1`, are
    updated with this point's blocks; the outputs are not touched. -/
theorem sound_kernel1_B (c : Dev nD) (E : Set ℕ) (i : grid1.Coords) (hc0 : ¬cond1_0 i) (hc1 : ¬cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16)
    (s0 : Vec F S64x128 .f32) (s1 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg7 fullShare (k1_pay4 x0 x1 x2 s0)
            ∗ owns (c : Thread nD τ) arg8 fullShare (k1_pay5 x2 s1)) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

set_option maxHeartbeats 4000000 in
/-- LAST POINT OF A ROW (the coordinate is nine): both scratch buffers are updated as at a middle point, and then
    copied whole into the two output blocks, which held anything. -/
theorem sound_kernel1_C (c : Dev nD) (E : Set ℕ) (i : grid1.Coords) (hc0 : ¬cond1_0 i) (hc1 : cond1_1 i)
    (arg2 : Memref sig .tc .vmem S5000x128 .f32) (harg2 : arg2.IsWhole) (arg3 : Memref sig .tc .vmem S1x128 .f32) (harg3 : arg3.IsWhole)
    (arg4 : Memref sig .tc .vmem S5000x64 .bf16) (harg4 : arg4.IsWhole) (arg5 : Memref sig .tc .vmem S1x64x128 .f32) (harg5 : arg5.IsWhole)
    (arg6 : Memref sig .tc .vmem S1x1x64 .f32) (harg6 : arg6.IsWhole) (arg7 : Memref sig .tc .vmem S64x128 .f32) (harg7 : arg7.IsWhole)
    (arg8 : Memref sig .tc .vmem S1x64 .f32) (harg8 : arg8.IsWhole)
    (x0 : Vec F S5000x128 .f32) (x1 : Vec F S1x128 .f32) (x2 : Vec F S5000x64 .bf16)
    (s0 : Vec F S64x128 .f32) (s1 : Vec F S1x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 (k1_pay4 x0 x1 x2 s0))
            ∗ owns (c : Thread nD τ) arg6 fullShare (k1_pay7 (k1_pay5 x2 s1))
            ∗ owns (c : Thread nD τ) arg7 fullShare (k1_pay4 x0 x1 x2 s0)
            ∗ owns (c : Thread nD τ) arg8 fullShare (k1_pay5 x2 s1)) -∗ K ⟨⟩))
      ⊢ wp frame (wpE (defs₀ (F := F)) Variants.none c none) E (cc1__pool_kernel i arg2 harg2 arg3 harg3 arg4 harg4 arg5 harg5 arg6 harg6 arg7 harg7 arg8 harg8) K := by
  simp only [cc1__pool_kernel_eq_skeleton]; unfold cc1__pool_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (fun y => ⟨_, List.Mem.head _, View.mem_set_unit_zero hz3_1 inb_S1x64x128_S1x64x128_0_0_0 y⟩)).trans ?_
    rw [View.canon_cons_unit_zero hz3_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  isplitl [H4]
  · iexists _; isplitr
    swap; · iexact H4
    ipureintro
    sl_unfold_run_names
    refine (View.read_writes_eq_canon _ _ _ (fun y => ⟨_, List.Mem.head _, View.mem_set_unit_zero hz3_1 inb_S1x1x64_S1x1x64_0_0_0 y⟩)).trans ?_
    rw [View.canon_cons_unit_zero hz3_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  isplitl [HS0]
  · iexists _; isplitr
    swap; · iexact HS0
    ipureintro
    sl_unfold_run_names
    refine (View.read_writes_eq_canon _ _ _ (fun y => ⟨_, List.Mem.head _, View.mem_set_unit_zero hz2_1 inb_S64x128_S64x128_0_0 y⟩)).trans ?_
    rw [View.canon_cons_unit_zero hz2_1]
    simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]
  iexists _; isplitr
  swap; · iexact HS1
  ipureintro
  sl_unfold_run_names
  refine (View.read_writes_eq_canon _ _ _ (fun y => ⟨_, List.Mem.head _, View.mem_set_unit_zero hz2_1 inb_S1x64_S1x64_0_0 y⟩)).trans ?_
  rw [View.canon_cons_unit_zero hz2_1]
  simp only [View.readAt_eq_ld, View.ld_unit_zero (S := S5000x128) hz2_1, View.ld_unit_zero (S := S1x128) hz2_1, View.ld_unit_zero (S := S5000x64) hz2_1, View.ld_unit_zero (S := S64x128) hz2_1, View.ld_unit_zero (S := S1x64) hz2_1, View.readCov_unit_zero (S := S64x128) _ hz2_1, View.readCov_unit_zero (S := S1x64) _ hz2_1]

/-! ## The blocks, the running sums, the invariant and the proof data -/

-- the buffers' contents when the launch is entered: the parameter everything below is stated at
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not (an unfetched window's
    block index has not moved), for any proof data over the arrays as found whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first scratch buffer (the running sums) after point `n`: this point's update of the zero block at the first
    point of a row, of what the point before left elsewhere. -/
def accS (c : Dev nD) : (n : ℕ) → n < cfg1.N → Vec F S64x128 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩)
      (if (n + 1) % 10 = 0 then k1_pay1 (F := F) else accS c n (Nat.lt_of_succ_lt h))

/-- The second scratch buffer (the running counts) after point `n`, likewise. -/
def accC (c : Dev nD) : (n : ℕ) → n < cfg1.N → Vec F S1x64 .f32
  | 0, h => k1_pay5 (iblk1 V c 2 ⟨0, h⟩) (k1_pay2 (F := F))
  | n + 1, h => k1_pay5 (iblk1 V c 2 ⟨n + 1, h⟩) (if (n + 1) % 10 = 0 then k1_pay2 (F := F) else accC c n (Nat.lt_of_succ_lt h))

theorem accS_succ (c : Dev nD) (n : ℕ) (h : n + 1 < cfg1.N) :
    accS V c (n + 1) h = k1_pay4 (iblk1 V c 0 ⟨n + 1, h⟩) (iblk1 V c 1 ⟨n + 1, h⟩) (iblk1 V c 2 ⟨n + 1, h⟩)
      (if (n + 1) % 10 = 0 then k1_pay1 (F := F) else accS V c n (Nat.lt_of_succ_lt h)) := rfl
theorem accC_succ (c : Dev nD) (n : ℕ) (h : n + 1 < cfg1.N) :
    accC V c (n + 1) h = k1_pay5 (iblk1 V c 2 ⟨n + 1, h⟩) (if (n + 1) % 10 = 0 then k1_pay2 (F := F) else accC V c n (Nat.lt_of_succ_lt h)) := rfl

/-- At the first point of a row the sums restart from the zero block. -/
theorem accS_reset (c : Dev nD) (t : Fin cfg1.N) (h : t.val % 10 = 0) :
    accS V c t.val t.isLt = k1_pay4 (iblk1 V c 0 t) (iblk1 V c 1 t) (iblk1 V c 2 t) (k1_pay1 (F := F)) := by
  obtain ⟨n, hn⟩ := t
  cases n with
  | zero => rfl
  | succ n =>
    have h' : (n + 1) % 10 = 0 := h
    exact (accS_succ V c n hn).trans (by rw [if_pos h'])

/-- Elsewhere they continue from what the point before left. -/
theorem accS_step (c : Dev nD) (t : Fin cfg1.N) (h : t.val % 10 ≠ 0) :
    accS V c t.val t.isLt = k1_pay4 (iblk1 V c 0 t) (iblk1 V c 1 t) (iblk1 V c 2 t)
      (accS V c (t.val - 1) (Nat.lt_of_le_of_lt (Nat.sub_le _ _) t.isLt)) := by
  obtain ⟨n, hn⟩ := t
  cases n with
  | zero => exact absurd (Nat.zero_mod _) h
  | succ n =>
    have h' : ¬(n + 1) % 10 = 0 := h
    exact (accS_succ V c n hn).trans (by rw [if_neg h']; rfl)

theorem accC_reset (c : Dev nD) (t : Fin cfg1.N) (h : t.val % 10 = 0) :
    accC V c t.val t.isLt = k1_pay5 (iblk1 V c 2 t) (k1_pay2 (F := F)) := by
  obtain ⟨n, hn⟩ := t
  cases n with
  | zero => rfl
  | succ n =>
    have h' : (n + 1) % 10 = 0 := h
    exact (accC_succ V c n hn).trans (by rw [if_pos h'])

theorem accC_step (c : Dev nD) (t : Fin cfg1.N) (h : t.val % 10 ≠ 0) :
    accC V c t.val t.isLt = k1_pay5 (iblk1 V c 2 t) (accC V c (t.val - 1) (Nat.lt_of_le_of_lt (Nat.sub_le _ _) t.isLt)) := by
  obtain ⟨n, hn⟩ := t
  cases n with
  | zero => exact absurd (Nat.zero_mod _) h
  | succ n =>
    have h' : ¬(n + 1) % 10 = 0 := h
    exact (accC_succ V c n hn).trans (by rw [if_neg h']; rfl)

/-- A scoped buffer of another launch, whole at some contents. -/
abbrev anyAt (c : Dev nD) (b : Ref sig .tc) : sProp 𝕄 :=
  iprop(∃ f : Buf (Elt F) ((c : Thread nD τ).loc b), ((c : Thread nD τ).loc b) ↦{fullShare} f)

/-- The two scratch operands as memrefs. -/
abbrev scM1_0 : Memref sig .tc .vmem S64x128 .f32 := Memref.whole cc1_scratch0
abbrev scM1_1 : Memref sig .tc .vmem S1x64 .f32 := Memref.whole cc1_scratch1

/-- What the launch hands the region, with the two scratch operands as memrefs owned at some contents. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ (∃ d, owns (c : Thread nD τ) scM1_0 fullShare d) ∗ (∃ d, owns (c : Thread nD τ) scM1_1 fullShare d) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := by
  unfold Pipeline.ΦA; rw [scopedRest1_eq]; simp only [scM1_0, scM1_1, owns_whole]; try rfl

/-- The invariant before position `n`: before the first point what the launch hands the region; afterwards the other
    launches' scoped buffers at anything, the two scratch buffers at the running sums and counts after the point
    before, and the generator register at some state. -/
def Phi1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c n hn) ∗ owns (c : Thread nD τ) scM1_1 fullShare (accC V c n hn) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c n hn) ∗ owns (c : Thread nD τ) scM1_1 fullShare (accC V c n hn) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := rfl

theorem Phi1_pos (c : Dev nD) (n : ℕ) (h : n ≤ cfg1.N) (hz : n ≠ 0) :
    Phi1 V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1 ∗ owns (c : Thread nD τ) scM1_0 fullShare (accS V c (n - 1) (by omega)) ∗ owns (c : Thread nD τ) scM1_1 fullShare (accC V c (n - 1) (by omega)) ∗ anyAt (F := F) c cc2_stg0_0 ∗ anyAt (F := F) c cc2_stg1_0 ∗ anyAt (F := F) c cc2_stg2_0 ∗ anyAt (F := F) c cc2_stg3_0 ∗ anyAt (F := F) c cc2_stg4_0) ∗ (∃ r, prngReg c r)) := by
  cases n with
  | zero => exact absurd rfl hz
  | succ n => rfl

/-- At any position the invariant gives back what the launch handed the region: the scratch contents are forgotten. -/
theorem Phi1_out (c : Dev nD) (n : ℕ) (h : n ≤ cfg1.N) : Phi1 V c n h ⊢ Pipeline.ΦA spec1 c := by
  cases n with
  | zero => exact Idealize.SL.BI.Entails.refl _
  | succ n =>
    rw [Phi1_succ, PhiA1_eq]
    iintro ⟨⟨R1, R2, R3, R4, R5, HS0, HS1, R8, R9, R10, R11, R12⟩, Hg⟩
    isplitr [Hg]
    · isplitl [R1]; · iexact R1
      isplitl [R2]; · iexact R2
      isplitl [R3]; · iexact R3
      isplitl [R4]; · iexact R4
      isplitl [R5]; · iexact R5
      isplitl [HS0]; · iexists _; iexact HS0
      isplitl [HS1]; · iexists _; iexact HS1
      isplitl [R8]; · iexact R8
      isplitl [R9]; · iexact R9
      isplitl [R10]; · iexact R10
      isplitl [R11]; · iexact R11
      iexact R12
    iexact Hg

/-- The launch's proof data on core `c`: the arrays as the launch finds them; after the body each input block in place
    and the two output blocks at the copies of the running sums and counts; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (accS V c t.val t.isLt)
    | ⟨4, _⟩ => k1_pay7 (accC V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay6 (accS V c t.val t.isLt) := by dsimp only [dat1]
theorem after1_4 (c : Dev nD) (t : Fin cfg1.N) : (dat1 V c).after 4 t = k1_pay7 (accC V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's position in its row says which of the
    three cases it is in; the invariant hands the body the two scratch buffers at what the point before left (at
    anything at a row's first point, where they are zeroed) and takes them back at this point's running sums and
    counts; off a row's last point the two output buffers are handed back as found, at it they hold the copies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (st1_0 t) fullShare ((dat1 V c).after 0 t) from by
        unfold Dat.leavesExact; rw [liveAt1_0 t], after1_0,
      show (dat1 V c).leavesExact 1 t = owns (c : Thread nD τ) (st1_1 t) fullShare ((dat1 V c).after 1 t) from by
        unfold Dat.leavesExact; rw [liveAt1_1 t], after1_1,
      show (dat1 V c).leavesExact 2 t = owns (c : Thread nD τ) (st1_2 t) fullShare ((dat1 V c).after 2 t) from by
        unfold Dat.leavesExact; rw [liveAt1_2 t], after1_2]
  by_cases h0 : t.val % 10 = 0
  · have h9 : ¬t.val % 10 = 9 := by omega
    have hc0 : cond1_0 (grid1.coords t) := (hcond1_0 t).mpr h0
    have hc1 : ¬cond1_1 (grid1.coords t) := fun h => h9 ((hcond1_1 t).mp h)
    rw [Dat.leavesExact_idle (dat1 V c) 3 t (idleAt1_3 t hc1) (noFlush1_3 t hc1),
      Dat.leavesExact_idle (dat1 V c) 4 t (idleAt1_4 t hc1) (noFlush1_4 t hc1)]
    rw [accS_reset V c t h0, accC_reset V c t h0]
    rw [Phi1_castSucc V c t]
    refine (Idealize.SL.BI.Laws.sep_mono_left (Phi1_out V c _ _)).trans ?_
    rw [PhiA1_eq]
    iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
    iapply (sound_kernel1_A c Set.univ _ hc0 hc1 _ _ _ _ _ _ _ _ _ _ _ _ _ _ (iblk1 V c 0 t) (iblk1 V c 1 t) (iblk1 V c 2 t) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R1 R2 R3 R4 R5 HS0 HS1 R8 R9 R10 R11 R12 Hg]
    · isplitr [Hg]
      · isplitl [R1]; · iexact R1
        isplitl [R2]; · iexact R2
        isplitl [R3]; · iexact R3
        isplitl [R4]; · iexact R4
        isplitl [R5]; · iexact R5
        isplitl [HS0]; · iexact HS0
        isplitl [HS1]; · iexact HS1
        isplitl [R8]; · iexact R8
        isplitl [R9]; · iexact R9
        isplitl [R10]; · iexact R10
        isplitl [R11]; · iexact R11
        iexact R12
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond1_0 (grid1.coords t) := fun h => h0 ((hcond1_0 t).mp h)
    rw [accS_step V c t h0, accC_step V c t h0]
    rw [Phi1_castSucc V c t, Phi1_pos V c _ _ hz]
    by_cases h9 : t.val % 10 = 9
    · have hc1 : cond1_1 (grid1.coords t) := (hcond1_1 t).mpr h9
      rw [show (dat1 V c).leavesExact 3 t = owns (c : Thread nD τ) (st1_3 t) fullShare ((dat1 V c).after 3 t) from by
          unfold Dat.leavesExact; rw [liveAt1_3 t hc1], after1_3,
        show (dat1 V c).leavesExact 4 t = owns (c : Thread nD τ) (st1_4 t) fullShare ((dat1 V c).after 4 t) from by
          unfold Dat.leavesExact; rw [liveAt1_4 t hc1], after1_4]
      rw [accS_step V c t h0, accC_step V c t h0]
      iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
      iapply (sound_kernel1_C c Set.univ _ hc0 hc1 _ _ _ _ _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [R1 R2 R3 R4 R5 HS0 HS1 R8 R9 R10 R11 R12 Hg]
      · isplitr [Hg]
        · isplitl [R1]; · iexact R1
          isplitl [R2]; · iexact R2
          isplitl [R3]; · iexact R3
          isplitl [R4]; · iexact R4
          isplitl [R5]; · iexact R5
          isplitl [HS0]; · iexact HS0
          isplitl [HS1]; · iexact HS1
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h9 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      iintro ⟨⟨⟨R1, R2, R3, R4, R5, HS0, HS1, R8, R9, R10, R11, R12⟩, Hg⟩, Ho, ⟨%d0, H0⟩, ⟨%d1, H1⟩, ⟨%d2, H2⟩, ⟨%d3, H3⟩, ⟨%d4, H4⟩⟩
      iapply (sound_kernel1_B c Set.univ _ hc0 hc1 _ _ _ _ _ _ _ _ _ _ _ _ _ _ (iblk1 V c 0 t) (iblk1 V c 1 t) (iblk1 V c 2 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R1 R2 R3 R4 R5 HS0 HS1 R8 R9 R10 R11 R12 Hg]
      · isplitr [Hg]
        · isplitl [R1]; · iexact R1
          isplitl [R2]; · iexact R2
          isplitl [R3]; · iexact R3
          isplitl [R4]; · iexact R4
          isplitl [R5]; · iexact R5
          isplitl [HS0]; · iexact HS0
          isplitl [HS1]; · iexact HS1
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back: the scratch buffers' contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_out V c _ _

end Cert.KernelIdeal.Hand

end
-- ==== Proof.KiRegion2.lean ====
/-
  The third launch: the classifier. One grid point; it reads the pooled sums (64x128), the per-graph counts (64x1),
  the weight column (128x1) and the bias (1x1), forms sigmoid((sums / max(counts, 1)) · W + b) and stores it over
  the whole 64x1 output block. Stated here: what the point leaves in the output block as a function of the four
  input blocks, the body's triple, the launch's proof data over the arrays as the launch finds them, and the body
  obligation at the point.
-/
import proofs.«422273_j43499428774207_3_alg».proof.Proof.Gen.KernelIdeal.Launch
import proofs.«422273_j43499428774207_3_alg».proof.Proof.Gen.KernelIdeal.Skeleton
import proofs.«422273_j43499428774207_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: the parameter everything here is stated at
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pooled sums: fetched at the one point, so the staging buffer holds the array's block there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The counts: fetched at the one point, so the staging buffer holds the array's block there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight column: fetched at the one point, so the staging buffer holds the array's block there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias: fetched at the one point, so the staging buffer holds the array's block there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_s : Rect S64x128 := Rect.unit (s := S64x128) ![0, 0] S64x128.size inb_S64x128_S64x128_0_0
abbrev r2_n : Rect S64x1 := Rect.unit (s := S64x1) ![0, 0] S64x1.size inb_S64x1_S64x1_0_0
abbrev r2_w : Rect S128x1 := Rect.unit (s := S128x1) ![0, 0] S128x1.size inb_S128x1_S128x1_0_0
abbrev r2_b : Rect S1x1 := Rect.unit (s := S1x1) ![0, 0] S1x1.size inb_S1x1_S1x1_0_0

theorem hz2' : (![0, 0] : Fin 2 → Nat) = fun _ => 0 := funext fun a => by fin_cases a <;> rfl

/-- What the point leaves in the output block: the classifier's value on the counts, the sums, the weight column and
    the bias (the body's one payload), stored over the whole block. -/
abbrev clsOut (n : Vec F S64x1 .f32) (s : Vec F S64x128 .f32) (w : Vec F S128x1 .f32) (b : Vec F S1x1 .f32) : Vec F S64x1 .f32 :=
  k2_pay1 n s w b

/-- The one store covers the output block. -/
theorem cover2 (p0 : Vec F S64x1 .f32) (y : S64x1.Idx) :
    ∃ pc ∈ ([⟨r2_n, p0⟩] : List (View.Piece (Elt F) S64x1 .f32)), y ∈ pc.1.set :=
  View.cover_of_tiled [⟨r2_n, p0⟩] S64x1.size (by rfl) y

set_option maxHeartbeats 1000000 in
/-- The body on whole staging memrefs: from the four input blocks at `x0 … x3` and the output block at anything, it
    runs to the inputs as they were and the output block at `clsOut x1 x0 x2 x3`. -/
theorem sound_kernel2 (c : Dev nD) (E : Set ℕ) (i : grid2.Coords)
    (arg1 : Memref sig .tc .vmem S64x128 .f32) (harg1 : arg1.IsWhole) (arg2 : Memref sig .tc .vmem S64x1 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole)
    (x0 : Vec F S64x128 .f32) (x1 : Vec F S64x1 .f32) (x2 : Vec F S128x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (clsOut x1 x0 x2 x3)) -∗ K ⟨⟩))
      ⊢ wp frame (wpE (defs₀ (F := F)) Variants.none c none) E (cc2__classify_kernel i arg1 harg1 arg2 harg2 arg3 harg3 arg4 harg4 arg5 harg5) K := by
  simp only [cc2__classify_kernel_eq_skeleton]; unfold cc2__classify_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover2 _)).trans ?_
  rw [View.canon_unit_zero hz2']
  simp only [View.readAt_eq_ld, View.ld_unit_zero (S := S64x1) hz2', View.ld_unit_zero (S := S64x128) hz2',
    View.ld_unit_zero (S := S128x1) hz2', View.ld_unit_zero (S := S1x1) hz2']

/-- The launch's proof data on core `c`: the arrays as the launch finds them; after the body each input block in place
    and the output block at the classifier's value on the four; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 1 t) (iblk2 V c 0 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 1 t) (iblk2 V c 0 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at the point: the input memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at the point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The whole run of @main: the contents of the device's buffers between @main's items (the three launches and the host
  stretches between them) as a fold from the launch memory, each launch's proof data at the contents it is entered
  with, the three launches as segments of the run, and the launch theorem over them: every weakly fair execution
  terminates and ends with every unscoped buffer at the fold's last valuation. The frame (the arguments end as
  launched) and the result buffer's value are read off that valuation.
-/
import proofs.«422273_j43499428774207_3_alg».proof.Proof.KiRegion0
import proofs.«422273_j43499428774207_3_alg».proof.Proof.KiRegion1
import proofs.«422273_j43499428774207_3_alg».proof.Proof.KiRegion2
import proofs.«422273_j43499428774207_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- At launch. -/
abbrev U0 : Dev nD → Valuation τ sig (Elt F) := fun c b => m (c, b)
abbrev T0 : (c : Dev nD) → (b : Ref sig .tc) → Buf (Elt F) ((c : Thread nD τ).loc b) := fun c b => U0 m c b

/-- After launch 0: each output array at what the pipeline leaves (its write-backs folded), every other buffer as
    entered (an input window's array is only read). -/
def U1 (c : Dev nD) : Valuation τ sig (Elt F) :=
  Function.update (U0 m c) (Proc.devRef .tc main_v0) ((dat0 (T0 m) c).arrAt 2 cfg0.N)
theorem U1_out2 (c : Dev nD) : U1 m c (Proc.devRef .tc main_v0) = (dat0 (T0 m) c).arrAt 2 cfg0.N := by
  unfold U1; exact Function.update_self ..
theorem U1_of_ne (c : Dev nD) (b : Ref sig .tc) (hb : b ≠ main_v0) :
    U1 m c (Proc.devRef .tc b) = U0 m c (Proc.devRef .tc b) := by
  unfold U1; exact Function.update_of_ne (StableHlo.devRef_ne_of_ne hb) _ _
abbrev T1 : (c : Dev nD) → (b : Ref sig .tc) → Buf (Elt F) ((c : Thread nD τ).loc b) := fun c b => U1 m c b
theorem hF0 (c : Dev nD) (w : Fin cfg0.W) : (dat0 (T0 m) c).arrAt w cfg0.N = T1 m c (Pipeline.arrRef spec0 w) := by
  match w with
  | ⟨0, _⟩ => exact (((dat0 (T0 m) c).arrAt_in 0 rfl _).trans (A_eq0 (T0 m) c 0)).trans (U1_of_ne m c main_arg0 (by decide)).symm
  | ⟨1, _⟩ => exact (((dat0 (T0 m) c).arrAt_in 1 rfl _).trans (A_eq0 (T0 m) c 1)).trans (U1_of_ne m c main_arg4 (by decide)).symm
  | ⟨2, _⟩ => exact (U1_out2 m c).symm
theorem hrest0 (c : Dev nD) : ∀ b, b ∉ Finset.univ.image (Pipeline.arrRef spec0) → T1 m c b = T0 m c b := fun b hb =>
  U1_of_ne m c b (fun e => hb (Finset.mem_image.mpr ⟨2, Finset.mem_univ _, e.symm ▸ rfl⟩))

/-- After the three host stretches between the first launch and the second. -/
abbrev U2 : Dev nD → Valuation τ sig (Elt F) := fun c => StableHlo.after hostOps1 (U1 m c)
abbrev U3 : Dev nD → Valuation τ sig (Elt F) := fun c => StableHlo.after hostOps1_1 (U2 m c)
abbrev U4 : Dev nD → Valuation τ sig (Elt F) := fun c => StableHlo.after hostOps1_2 (U3 m c)
abbrev T4 : (c : Dev nD) → (b : Ref sig .tc) → Buf (Elt F) ((c : Thread nD τ).loc b) := fun c b => U4 m c b

/-- After launch 1: each output array at what the pipeline leaves (its write-backs folded), every other buffer as
    entered (an input window's array is only read). -/
def U5 (c : Dev nD) : Valuation τ sig (Elt F) :=
  Function.update (Function.update (U4 m c) (Proc.devRef .tc main_v56_0) ((dat1 (T4 m) c).arrAt 3 cfg1.N)) (Proc.devRef .tc main_v56_1) ((dat1 (T4 m) c).arrAt 4 cfg1.N)
theorem U5_out3 (c : Dev nD) : U5 m c (Proc.devRef .tc main_v56_0) = (dat1 (T4 m) c).arrAt 3 cfg1.N := by
  unfold U5; rw [Function.update_of_ne (StableHlo.devRef_ne_of_ne (by decide : main_v56_0 ≠ main_v56_1))]; exact Function.update_self ..
theorem U5_out4 (c : Dev nD) : U5 m c (Proc.devRef .tc main_v56_1) = (dat1 (T4 m) c).arrAt 4 cfg1.N := by
  unfold U5; exact Function.update_self ..
theorem U5_of_ne (c : Dev nD) (b : Ref sig .tc) (hb : b ≠ main_v56_0 ∧ b ≠ main_v56_1) :
    U5 m c (Proc.devRef .tc b) = U4 m c (Proc.devRef .tc b) := by
  unfold U5; rw [Function.update_of_ne (StableHlo.devRef_ne_of_ne hb.2), Function.update_of_ne (StableHlo.devRef_ne_of_ne hb.1)]
abbrev T5 : (c : Dev nD) → (b : Ref sig .tc) → Buf (Elt F) ((c : Thread nD τ).loc b) := fun c b => U5 m c b
theorem hF1 (c : Dev nD) (w : Fin cfg1.W) : (dat1 (T4 m) c).arrAt w cfg1.N = T5 m c (Pipeline.arrRef spec1 w) := by
  match w with
  | ⟨0, _⟩ => exact (((dat1 (T4 m) c).arrAt_in 0 rfl _).trans (A_eq1 (T4 m) c 0)).trans (U5_of_ne m c main_v47 (by decide)).symm
  | ⟨1, _⟩ => exact (((dat1 (T4 m) c).arrAt_in 1 rfl _).trans (A_eq1 (T4 m) c 1)).trans (U5_of_ne m c main_v55 (by decide)).symm
  | ⟨2, _⟩ => exact (((dat1 (T4 m) c).arrAt_in 2 rfl _).trans (A_eq1 (T4 m) c 2)).trans (U5_of_ne m c main_v54 (by decide)).symm
  | ⟨3, _⟩ => exact (U5_out3 m c).symm
  | ⟨4, _⟩ => exact (U5_out4 m c).symm
theorem hrest1 (c : Dev nD) : ∀ b, b ∉ Finset.univ.image (Pipeline.arrRef spec1) → T5 m c b = T4 m c b := fun b hb =>
  U5_of_ne m c b ⟨fun e => hb (Finset.mem_image.mpr ⟨3, Finset.mem_univ _, e.symm ▸ rfl⟩), fun e => hb (Finset.mem_image.mpr ⟨4, Finset.mem_univ _, e.symm ▸ rfl⟩)⟩

/-- After the host stretch between the second launch and the third. -/
abbrev U6 : Dev nD → Valuation τ sig (Elt F) := fun c => StableHlo.after hostOps2 (U5 m c)
abbrev T6 : (c : Dev nD) → (b : Ref sig .tc) → Buf (Elt F) ((c : Thread nD τ).loc b) := fun c b => U6 m c b

/-- After launch 2: each output array at what the pipeline leaves (its write-backs folded), every other buffer as
    entered (an input window's array is only read). -/
def U7 (c : Dev nD) : Valuation τ sig (Elt F) :=
  Function.update (U6 m c) (Proc.devRef .tc main_v69) ((dat2 (T6 m) c).arrAt 4 cfg2.N)
theorem U7_out4 (c : Dev nD) : U7 m c (Proc.devRef .tc main_v69) = (dat2 (T6 m) c).arrAt 4 cfg2.N := by
  unfold U7; exact Function.update_self ..
theorem U7_of_ne (c : Dev nD) (b : Ref sig .tc) (hb : b ≠ main_v69) :
    U7 m c (Proc.devRef .tc b) = U6 m c (Proc.devRef .tc b) := by
  unfold U7; exact Function.update_of_ne (StableHlo.devRef_ne_of_ne hb) _ _
abbrev T7 : (c : Dev nD) → (b : Ref sig .tc) → Buf (Elt F) ((c : Thread nD τ).loc b) := fun c b => U7 m c b
theorem hF2 (c : Dev nD) (w : Fin cfg2.W) : (dat2 (T6 m) c).arrAt w cfg2.N = T7 m c (Pipeline.arrRef spec2 w) := by
  match w with
  | ⟨0, _⟩ => exact (((dat2 (T6 m) c).arrAt_in 0 rfl _).trans (A_eq2 (T6 m) c 0)).trans (U7_of_ne m c main_v61 (by decide)).symm
  | ⟨1, _⟩ => exact (((dat2 (T6 m) c).arrAt_in 1 rfl _).trans (A_eq2 (T6 m) c 1)).trans (U7_of_ne m c main_v67 (by decide)).symm
  | ⟨2, _⟩ => exact (((dat2 (T6 m) c).arrAt_in 2 rfl _).trans (A_eq2 (T6 m) c 2)).trans (U7_of_ne m c main_arg6 (by decide)).symm
  | ⟨3, _⟩ => exact (((dat2 (T6 m) c).arrAt_in 3 rfl _).trans (A_eq2 (T6 m) c 3)).trans (U7_of_ne m c main_v68 (by decide)).symm
  | ⟨4, _⟩ => exact (U7_out4 m c).symm
theorem hrest2 (c : Dev nD) : ∀ b, b ∉ Finset.univ.image (Pipeline.arrRef spec2) → T7 m c b = T6 m c b := fun b hb =>
  U7_of_ne m c b (fun e => hb (Finset.mem_image.mpr ⟨4, Finset.mem_univ _, e.symm ▸ rfl⟩))

/-! ## The arguments end as launched: no host operation writes one and a launch reads one only through an input window -/

theorem U7_main_arg0 (c : Dev nD) : U7 m c (Proc.devRef .tc main_arg0) = m ((c : Thread nD τ).loc main_arg0) :=
  calc U7 m c (Proc.devRef .tc main_arg0)
    _ = U6 m c (Proc.devRef .tc main_arg0) := U7_of_ne m c main_arg0 (by decide)
    _ = U5 m c (Proc.devRef .tc main_arg0) := StableHlo.after_of_writes_sub hostOps2 _ hostOps2_writes (r := main_arg0) (by decide)
    _ = U4 m c (Proc.devRef .tc main_arg0) := U5_of_ne m c main_arg0 (by decide)
    _ = U3 m c (Proc.devRef .tc main_arg0) := StableHlo.after_of_writes_sub hostOps1_2 _ hostOps1_2_writes (r := main_arg0) (by decide)
    _ = U2 m c (Proc.devRef .tc main_arg0) := StableHlo.after_of_writes_sub hostOps1_1 _ hostOps1_1_writes (r := main_arg0) (by decide)
    _ = U1 m c (Proc.devRef .tc main_arg0) := StableHlo.after_of_writes_sub hostOps1 _ hostOps1_writes (r := main_arg0) (by decide)
    _ = U0 m c (Proc.devRef .tc main_arg0) := U1_of_ne m c main_arg0 (by decide)
    _ = m ((c : Thread nD τ).loc main_arg0) := rfl

theorem U7_main_arg1 (c : Dev nD) : U7 m c (Proc.devRef .tc main_arg1) = m ((c : Thread nD τ).loc main_arg1) :=
  calc U7 m c (Proc.devRef .tc main_arg1)
    _ = U6 m c (Proc.devRef .tc main_arg1) := U7_of_ne m c main_arg1 (by decide)
    _ = U5 m c (Proc.devRef .tc main_arg1) := StableHlo.after_of_writes_sub hostOps2 _ hostOps2_writes (r := main_arg1) (by decide)
    _ = U4 m c (Proc.devRef .tc main_arg1) := U5_of_ne m c main_arg1 (by decide)
    _ = U3 m c (Proc.devRef .tc main_arg1) := StableHlo.after_of_writes_sub hostOps1_2 _ hostOps1_2_writes (r := main_arg1) (by decide)
    _ = U2 m c (Proc.devRef .tc main_arg1) := StableHlo.after_of_writes_sub hostOps1_1 _ hostOps1_1_writes (r := main_arg1) (by decide)
    _ = U1 m c (Proc.devRef .tc main_arg1) := StableHlo.after_of_writes_sub hostOps1 _ hostOps1_writes (r := main_arg1) (by decide)
    _ = U0 m c (Proc.devRef .tc main_arg1) := U1_of_ne m c main_arg1 (by decide)
    _ = m ((c : Thread nD τ).loc main_arg1) := rfl

theorem U7_main_arg2 (c : Dev nD) : U7 m c (Proc.devRef .tc main_arg2) = m ((c : Thread nD τ).loc main_arg2) :=
  calc U7 m c (Proc.devRef .tc main_arg2)
    _ = U6 m c (Proc.devRef .tc main_arg2) := U7_of_ne m c main_arg2 (by decide)
    _ = U5 m c (Proc.devRef .tc main_arg2) := StableHlo.after_of_writes_sub hostOps2 _ hostOps2_writes (r := main_arg2) (by decide)
    _ = U4 m c (Proc.devRef .tc main_arg2) := U5_of_ne m c main_arg2 (by decide)
    _ = U3 m c (Proc.devRef .tc main_arg2) := StableHlo.after_of_writes_sub hostOps1_2 _ hostOps1_2_writes (r := main_arg2) (by decide)
    _ = U2 m c (Proc.devRef .tc main_arg2) := StableHlo.after_of_writes_sub hostOps1_1 _ hostOps1_1_writes (r := main_arg2) (by decide)
    _ = U1 m c (Proc.devRef .tc main_arg2) := StableHlo.after_of_writes_sub hostOps1 _ hostOps1_writes (r := main_arg2) (by decide)
    _ = U0 m c (Proc.devRef .tc main_arg2) := U1_of_ne m c main_arg2 (by decide)
    _ = m ((c : Thread nD τ).loc main_arg2) := rfl

theorem U7_main_arg3 (c : Dev nD) : U7 m c (Proc.devRef .tc main_arg3) = m ((c : Thread nD τ).loc main_arg3) :=
  calc U7 m c (Proc.devRef .tc main_arg3)
    _ = U6 m c (Proc.devRef .tc main_arg3) := U7_of_ne m c main_arg3 (by decide)
    _ = U5 m c (Proc.devRef .tc main_arg3) := StableHlo.after_of_writes_sub hostOps2 _ hostOps2_writes (r := main_arg3) (by decide)
    _ = U4 m c (Proc.devRef .tc main_arg3) := U5_of_ne m c main_arg3 (by decide)
    _ = U3 m c (Proc.devRef .tc main_arg3) := StableHlo.after_of_writes_sub hostOps1_2 _ hostOps1_2_writes (r := main_arg3) (by decide)
    _ = U2 m c (Proc.devRef .tc main_arg3) := StableHlo.after_of_writes_sub hostOps1_1 _ hostOps1_1_writes (r := main_arg3) (by decide)
    _ = U1 m c (Proc.devRef .tc main_arg3) := StableHlo.after_of_writes_sub hostOps1 _ hostOps1_writes (r := main_arg3) (by decide)
    _ = U0 m c (Proc.devRef .tc main_arg3) := U1_of_ne m c main_arg3 (by decide)
    _ = m ((c : Thread nD τ).loc main_arg3) := rfl

theorem U7_main_arg4 (c : Dev nD) : U7 m c (Proc.devRef .tc main_arg4) = m ((c : Thread nD τ).loc main_arg4) :=
  calc U7 m c (Proc.devRef .tc main_arg4)
    _ = U6 m c (Proc.devRef .tc main_arg4) := U7_of_ne m c main_arg4 (by decide)
    _ = U5 m c (Proc.devRef .tc main_arg4) := StableHlo.after_of_writes_sub hostOps2 _ hostOps2_writes (r := main_arg4) (by decide)
    _ = U4 m c (Proc.devRef .tc main_arg4) := U5_of_ne m c main_arg4 (by decide)
    _ = U3 m c (Proc.devRef .tc main_arg4) := StableHlo.after_of_writes_sub hostOps1_2 _ hostOps1_2_writes (r := main_arg4) (by decide)
    _ = U2 m c (Proc.devRef .tc main_arg4) := StableHlo.after_of_writes_sub hostOps1_1 _ hostOps1_1_writes (r := main_arg4) (by decide)
    _ = U1 m c (Proc.devRef .tc main_arg4) := StableHlo.after_of_writes_sub hostOps1 _ hostOps1_writes (r := main_arg4) (by decide)
    _ = U0 m c (Proc.devRef .tc main_arg4) := U1_of_ne m c main_arg4 (by decide)
    _ = m ((c : Thread nD τ).loc main_arg4) := rfl

theorem U7_main_arg5 (c : Dev nD) : U7 m c (Proc.devRef .tc main_arg5) = m ((c : Thread nD τ).loc main_arg5) :=
  calc U7 m c (Proc.devRef .tc main_arg5)
    _ = U6 m c (Proc.devRef .tc main_arg5) := U7_of_ne m c main_arg5 (by decide)
    _ = U5 m c (Proc.devRef .tc main_arg5) := StableHlo.after_of_writes_sub hostOps2 _ hostOps2_writes (r := main_arg5) (by decide)
    _ = U4 m c (Proc.devRef .tc main_arg5) := U5_of_ne m c main_arg5 (by decide)
    _ = U3 m c (Proc.devRef .tc main_arg5) := StableHlo.after_of_writes_sub hostOps1_2 _ hostOps1_2_writes (r := main_arg5) (by decide)
    _ = U2 m c (Proc.devRef .tc main_arg5) := StableHlo.after_of_writes_sub hostOps1_1 _ hostOps1_1_writes (r := main_arg5) (by decide)
    _ = U1 m c (Proc.devRef .tc main_arg5) := StableHlo.after_of_writes_sub hostOps1 _ hostOps1_writes (r := main_arg5) (by decide)
    _ = U0 m c (Proc.devRef .tc main_arg5) := U1_of_ne m c main_arg5 (by decide)
    _ = m ((c : Thread nD τ).loc main_arg5) := rfl

theorem U7_main_arg6 (c : Dev nD) : U7 m c (Proc.devRef .tc main_arg6) = m ((c : Thread nD τ).loc main_arg6) :=
  calc U7 m c (Proc.devRef .tc main_arg6)
    _ = U6 m c (Proc.devRef .tc main_arg6) := U7_of_ne m c main_arg6 (by decide)
    _ = U5 m c (Proc.devRef .tc main_arg6) := StableHlo.after_of_writes_sub hostOps2 _ hostOps2_writes (r := main_arg6) (by decide)
    _ = U4 m c (Proc.devRef .tc main_arg6) := U5_of_ne m c main_arg6 (by decide)
    _ = U3 m c (Proc.devRef .tc main_arg6) := StableHlo.after_of_writes_sub hostOps1_2 _ hostOps1_2_writes (r := main_arg6) (by decide)
    _ = U2 m c (Proc.devRef .tc main_arg6) := StableHlo.after_of_writes_sub hostOps1_1 _ hostOps1_1_writes (r := main_arg6) (by decide)
    _ = U1 m c (Proc.devRef .tc main_arg6) := StableHlo.after_of_writes_sub hostOps1 _ hostOps1_writes (r := main_arg6) (by decide)
    _ = U0 m c (Proc.devRef .tc main_arg6) := U1_of_ne m c main_arg6 (by decide)
    _ = m ((c : Thread nD τ).loc main_arg6) := rfl

theorem U7_main_arg7 (c : Dev nD) : U7 m c (Proc.devRef .tc main_arg7) = m ((c : Thread nD τ).loc main_arg7) :=
  calc U7 m c (Proc.devRef .tc main_arg7)
    _ = U6 m c (Proc.devRef .tc main_arg7) := U7_of_ne m c main_arg7 (by decide)
    _ = U5 m c (Proc.devRef .tc main_arg7) := StableHlo.after_of_writes_sub hostOps2 _ hostOps2_writes (r := main_arg7) (by decide)
    _ = U4 m c (Proc.devRef .tc main_arg7) := U5_of_ne m c main_arg7 (by decide)
    _ = U3 m c (Proc.devRef .tc main_arg7) := StableHlo.after_of_writes_sub hostOps1_2 _ hostOps1_2_writes (r := main_arg7) (by decide)
    _ = U2 m c (Proc.devRef .tc main_arg7) := StableHlo.after_of_writes_sub hostOps1_1 _ hostOps1_1_writes (r := main_arg7) (by decide)
    _ = U1 m c (Proc.devRef .tc main_arg7) := StableHlo.after_of_writes_sub hostOps1 _ hostOps1_writes (r := main_arg7) (by decide)
    _ = U0 m c (Proc.devRef .tc main_arg7) := U1_of_ne m c main_arg7 (by decide)
    _ = m ((c : Thread nD τ).loc main_arg7) := rfl

/-! ## The proof data family and the thread state -/

/-- Every launch's proof data, each at the contents its launch is entered with. -/
def pdats : (p : Fin 3) → (c : Dev nD) → Dat τ (Elt F) Unit ℕ (UR sig nD τ) ℕ (Pipeline.pin (pcfgs (F := F)) adm p) c
  | ⟨0, _⟩ => fun c => dat0 (T0 m) c
  | ⟨1, _⟩ => fun c => dat1 (T4 m) c
  | ⟨2, _⟩ => fun c => dat2 (T6 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U7 m c) ∗ ∃ r, prngReg c r)

/-! ## The launches as segments -/

set_option backward.isDefEq.respectTransparency.types false in
/-- Launch 0 as a segment: entered with every unscoped buffer at its contents before the launch, left with the launch's
    arrays at what the pipeline leaves and every other buffer as entered; the generator register goes into the invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T0 m c) (T1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at its contents before the launch, left with the launch's
    arrays at what the pipeline leaves and every other buffer as entered; the generator register goes into the invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T4 m) c).loose
  hwaits := Pipeline.hwaits_of_owed_zero _ _ _ _ L lv 1 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (T4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (T4 m) c).Φ 0 from rfl]
    refine BIBase.Entails.trans (Q := Pipeline.ΦA spec1 c) ?_ (hin1 (T4 m) c)
    unfold Pipeline.ΦA
    iintro ⟨Hp, -, Hr⟩
    isplitl [Hr]; · iexact Hr
    iexact Hp
  hout c := by
    rw [Pipeline.ownSems0_none, show (pdats m 1 c).Φ (Fin.last _) = (dat1 (T4 m) c).Φ (Fin.last cfg1.N) from rfl]
    refine (hout1 (T4 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T4 m c) (T5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at its contents before the launch, left with the launch's
    arrays at what the pipeline leaves and every other buffer as entered; the generator register goes into the invariant
    and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T6 m c) (T7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .region (reg2 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last valuation of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (U7 m c) ∗ R c)
        ⊢ iprop(Tₙ m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold StableHlo.held
      imodintro
      iapply (pointsTo_read_all (Pipeline.ucRefs τ sig) (fun b => (((c : Thread nD τ)).1, b)) (U7 m c) s')
      isplitl [Hh] <;> iassumption)
    (hQ := fun s h => h)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (U7_main_arg0 m c),
    (h c _ (mem_uc main_arg1 (by decide))).trans (U7_main_arg1 m c),
    (h c _ (mem_uc main_arg2 (by decide))).trans (U7_main_arg2 m c),
    (h c _ (mem_uc main_arg3 (by decide))).trans (U7_main_arg3 m c),
    (h c _ (mem_uc main_arg4 (by decide))).trans (U7_main_arg4 m c),
    (h c _ (mem_uc main_arg5 (by decide))).trans (U7_main_arg5 m c),
    (h c _ (mem_uc main_arg6 (by decide))).trans (U7_main_arg6 m c),
    (h c _ (mem_uc main_arg7 (by decide))).trans (U7_main_arg7 m c)⟩) (run_all m ρ)

end Cert.KernelIdeal.Hand

end
-- ==== Proof.RefSide.lean ====
/-
  The reference's side: its run read back operation by operation (the generated run and read-at-an-index modules),
  gathered under one name for the modules that compare the two programs' values.
-/
import proofs.«422273_j43499428774207_3_alg».proof.Proof.Gen.ReferenceIdeal.Run
import proofs.«422273_j43499428774207_3_alg».proof.Proof.Gen.ReferenceIdeal.Read
-- ==== Proof.KiVal0.lean ====
/-
  The first launch, read as a value at the ideal numbers: after its twenty points the [100000,128] array holds the
  dense layer's product x · W, element (n, d) = ∑ k, x(n, k) · W(k, d). A point's payload at an index is that sum
  over its block of x (the format changes are the identity on the extended reals, the accumulator is zero); block t
  of the output is rows 5000t … 5000t + 4999, read from the same rows of x and the whole of W; the twenty blocks
  cover the array.
-/
import proofs.«422273_j43499428774207_3_alg».proof.Proof.KiRegion0
import proofs.«422273_j43499428774207_3_alg».proof.Proof.RefSide
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)

/-! ## The payload at an index -/

theorem lhs_lin_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_lin_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_lin_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_lin_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `j 0`, column `k` of the block of x; -/
abbrev lrow (j : S5000x128.Idx) (k : Fin 256) : S5000x256.Idx := fun a => match a with
  | ⟨0, _⟩ => ⟨(j 0).val, (j 0).isLt⟩
  | ⟨1, _⟩ => ⟨k.val, k.isLt⟩
/-- row `k`, column `j 1` of W. -/
abbrev rcol (j : S5000x128.Idx) (k : Fin 256) : S256x128.Idx := fun a => match a with
  | ⟨0, _⟩ => ⟨k.val, k.isLt⟩
  | ⟨1, _⟩ => ⟨(j 1).val, (j 1).isLt⟩

/-- The payload at an index: the row of the block of x against the column of W. -/
theorem lin_pay_apply (x0 : Vec Ideal S5000x256 .f32) (x1 : Vec Ideal S256x128 .f32) (j : S5000x128.Idx) :
    k0_pay1 (F := Ideal) x0 x1 j = ∑ k : Fin 256, x0 (lrow j k) * x1 (rcol j k) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow j k := funext fun a => Fin.ext (by
    match a with
    | ⟨0, _⟩ => exact lhs_lin_0 _ _
    | ⟨1, _⟩ => exact (lhs_lin_1 _ _).trans hk)
  have er : dot_S5000x256_S256x128_S5000x128_1_0_0_1_n_n.rhsIdx j ((ValueIdx.contrEquiv1 dot_S5000x256_S256x128_S5000x128_1_0_0_1_n_n 256 rfl rfl).symm k) = rcol j k := funext fun a => Fin.ext (by
    match a with
    | ⟨0, _⟩ => exact (rhs_lin_0 _ _).trans hk
    | ⟨1, _⟩ => exact rhs_lin_1 _ _)
  rw [el, er]
  rfl

/-! ## From blocks to the array -/

variable (V : (c : Dev nD) → (b : Ref sig .tc) → Buf (Elt Ideal) ((c : Thread nD τ).loc b))

/-- The printed index maps over the grid: the blocks of x and of the output move down the rows with the point, W's
    block stays. -/
theorem lin_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product as one function of the two arrays the launch finds. -/
abbrev linG (c : Dev nD) : S100000x128.Idx → Elt Ideal .f32 :=
  Cert.ReferenceIdeal.Read.val_main_v34 (F := Ideal) (V c main_arg0) (V c main_arg4)

/-- What point `t` writes back is block `t` of the product. -/
theorem lin_flushed (c : Dev nD) (t : Fin cfg0.N) :
    (dat0 (F := Ideal) V c).flushed 2 t = ((cfg0.win 2).blk t).view.read (Elt Ideal) (linG V c) := by
  show (cfg0.win 2).cut (grid0.coords t) ((dat0 (F := Ideal) V c).after 2 t) = _
  rw [after0_2]
  obtain ⟨e0, e1, e2, e3, e4, e5⟩ := lin_idx t
  funext j
  show k0_pay1 (F := Ideal) (iblk0 V c 0 t) (iblk0 V c 1 t) j = linG V c (((cfg0.win 2).blk t).view.emb j)
  rw [lin_pay_apply]
  unfold linG
  rw [Cert.ReferenceIdeal.Read.val_main_v34_apply]
  refine Finset.sum_congr rfl fun k _ => ?_
  have h0 : iblk0 V c 0 t (lrow j k) = V c main_arg0 (Cert.ReferenceIdeal.Read.lidx_main_v34 (((cfg0.win 2).blk t).view.emb j) k) := by
    show V c main_arg0 (((cfg0.win 0).blk t).view.emb (lrow j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (rcol j k) = V c main_arg4 (Cert.ReferenceIdeal.Read.ridx_main_v34 (((cfg0.win 2).blk t).view.emb j) k) := by
    show V c main_arg4 (((cfg0.win 1).blk t).view.emb (rcol j k)) = _
    congr 1
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem lin_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` is in the block of point `r / 5000`: the twenty blocks cover the array. -/
theorem lin_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := by decide
  let t : Fin cfg0.N := ⟨(i 0).val / 5000, by rw [hN]; omega⟩
  obtain ⟨e0, e1, e2, e3, e4, e5⟩ := lin_idx t
  have ht : t.val = (i 0).val / 5000 := rfl
  refine ⟨t, flush0_2 t, ?_⟩
  rw [lin_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the twenty points the output array is the product. -/
theorem lin_value (c : Dev nD) :
    (dat0 (F := Ideal) V c).arrAt 2 cfg0.N = Cert.ReferenceIdeal.Read.val_main_v34 (F := Ideal) (V c main_arg0) (V c main_arg4) :=
  (dat0 (F := Ideal) V c).arrAt_eq_of_cover 2 (linG V c) (fun t _ => lin_flushed V c t) lin_cover

end Cert.KernelIdeal.HandV

end
-- ==== Proof.KiMid.lean ====
/-
  The middle of the two programs is one and the same chain of host operations: the sources, destinations and weights of
  the edges with the self loops appended; the degree of each node by a scatter-add of the weights; its inverse square
  root where positive and zero elsewhere; each edge's norm by two gathers; the gathered rows of h scaled by it; the
  scatter-add into the nodes. The kernel's program applies the chain to the product its first launch leaves, the
  reference to its own dot product; the products are equal, so the scatter results are. The chain is read stretch by
  stretch, each stage over any contents of the buffers given its leaves, so that no stage opens the one before it.
-/
import proofs.«422273_j43499428774207_3_alg».proof.Proof.KiRun
import proofs.«422273_j43499428774207_3_alg».proof.Proof.KiVal0
import proofs.«422273_j43499428774207_3_alg».proof.Proof.RefSide

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

section Split
variable {F : FTy → Type} [FloatOps F]

/-- The first host stretch up to the three concatenated vectors (sources, destinations, weights with the self loops). -/
abbrev hops1a : List (HloOp τ sig (Elt F)) :=
  [ StableHlo.nullary main_v1 (iotaInDim S100000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]
/-- The rest of it: the degree, its comparison with zero and its inverse square root. -/
abbrev hops1b : List (HloOp τ sig (Elt F)) :=
  [ StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_3 (constant S_ .f32 0x00000000#32) ]
theorem hops1_split : (hostOps1 : List (HloOp τ sig (Elt F))) = hops1a ++ hops1b := rfl

theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, StableHlo.after_cons, ih]
end Split

/-! ### The second stretch, over any contents of the buffers: dis = deg^(-1/2) where deg > 0, zero elsewhere -/

/-- The three operations of the stretch, read at the selected vector. -/
theorem where_raw (W : Valuation τ sig (Elt Ideal)) :
    StableHlo.after (hostOps1_1 (F := Ideal)) W (Proc.devRef .tc main_v18)
      = select (W (Proc.devRef .tc main_v14)) (W (Proc.devRef .tc main_v17)) (broadcastInDim S100000 ![] bcast_S_S100000 (W (Proc.devRef .tc main_cst_3))) := by
  after_results_simp
  rfl

theorem where_stage (W : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h14 : W (Proc.devRef .tc main_v14) = Cert.ReferenceIdeal.Read.val_main_v13 (F := Ideal) x1 x2)
    (h17 : W (Proc.devRef .tc main_v17) = Cert.ReferenceIdeal.Read.val_main_v16 (F := Ideal) x1 x2)
    (hc3 : W (Proc.devRef .tc main_cst_3) = Cert.ReferenceIdeal.Read.val_main_cst_3 (F := Ideal)) :
    StableHlo.after (hostOps1_1 (F := Ideal)) W (Proc.devRef .tc main_v18) = Cert.ReferenceIdeal.Read.val_main_v17 (F := Ideal) x1 x2 := by
  rw [where_raw, h14, h17, hc3]
  rfl

/-! ### The third stretch, over any contents: the edge norm, the gathered rows scaled, the scatter-add into the nodes -/

set_option maxHeartbeats 8000000 in
theorem edge_stage (W : Valuation τ sig (Elt Ideal)) (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x4 : (⟨Cert.ReferenceIdeal.S256x128, .f32⟩ : BufTy).Contents (Elt Ideal))
    (h4 : W (Proc.devRef .tc main_v4) = Cert.ReferenceIdeal.Read.val_main_v3 (F := Ideal) x1)
    (h7 : W (Proc.devRef .tc main_v7) = Cert.ReferenceIdeal.Read.val_main_v6 (F := Ideal) x1)
    (h9 : W (Proc.devRef .tc main_v9) = Cert.ReferenceIdeal.Read.val_main_v8 (F := Ideal) x2)
    (h18 : W (Proc.devRef .tc main_v18) = Cert.ReferenceIdeal.Read.val_main_v17 (F := Ideal) x1 x2)
    (h0 : W (Proc.devRef .tc main_v0) = Cert.ReferenceIdeal.Read.val_main_v34 (F := Ideal) x0 x4) :
    StableHlo.after (hostOps1_2 (F := Ideal)) W (Proc.devRef .tc main_v47) = Cert.ReferenceIdeal.Read.val_main_v47 (F := Ideal) x0 x1 x2 x4 := by
  after_results_simp
  rw [h4, h7, h9, h18, h0]
  rfl

variable (m : (ℓ : Loc nD τ sig) → Buf (Elt Ideal) ℓ)

theorem U1_main_v0 (c : Dev nD) :
    U1 m c (Proc.devRef .tc main_v0) = Cert.ReferenceIdeal.Read.val_main_v34 (F := Ideal) (m ((c.tc : Thread nD τ).loc main_arg0)) (m ((c.tc : Thread nD τ).loc main_arg4)) :=
  (U1_out2 m c).trans (lin_value (T0 m) c)

/-- The buffers after the first ten host operations. -/
def Ua (c : Dev nD) : Valuation τ sig (Elt Ideal) := StableHlo.after hops1a (U1 m c)

theorem U2_split (c : Dev nD) : U2 m c = StableHlo.after hops1b (Ua m c) := by
  show StableHlo.after hostOps1 (U1 m c) = _
  rw [hops1_split, after_append]; rfl

set_option maxHeartbeats 2000000 in
theorem Ua_v4 (c : Dev nD) : Ua m c (Proc.devRef .tc main_v4) = Cert.ReferenceIdeal.Read.val_main_v3 (F := Ideal) (m ((c.tc : Thread nD τ).loc main_arg1)) := by
  show StableHlo.after hops1a (U1 m c) (Proc.devRef .tc main_v4) = _
  after_results_simp
  rfl
set_option maxHeartbeats 2000000 in
theorem Ua_v7 (c : Dev nD) : Ua m c (Proc.devRef .tc main_v7) = Cert.ReferenceIdeal.Read.val_main_v6 (F := Ideal) (m ((c.tc : Thread nD τ).loc main_arg1)) := by
  show StableHlo.after hops1a (U1 m c) (Proc.devRef .tc main_v7) = _
  after_results_simp
  rfl
set_option maxHeartbeats 2000000 in
theorem Ua_v9 (c : Dev nD) : Ua m c (Proc.devRef .tc main_v9) = Cert.ReferenceIdeal.Read.val_main_v8 (F := Ideal) (m ((c.tc : Thread nD τ).loc main_arg2)) := by
  show StableHlo.after hops1a (U1 m c) (Proc.devRef .tc main_v9) = _
  after_results_simp
  rfl
theorem Ua_v0 (c : Dev nD) : Ua m c (Proc.devRef .tc main_v0) = Cert.ReferenceIdeal.Read.val_main_v34 (F := Ideal) (m ((c.tc : Thread nD τ).loc main_arg0)) (m ((c.tc : Thread nD τ).loc main_arg4)) := by
  show StableHlo.after hops1a (U1 m c) (Proc.devRef .tc main_v0) = _
  after_results_simp
  exact U1_main_v0 m c

/-! ### The rest of the first stretch: the degree, its sign test and its inverse square root -/

/-- The buffers after the first host stretch. -/
def W2 (c : Dev nD) : Valuation τ sig (Elt Ideal) := StableHlo.after hops1b (Ua m c)
theorem U2_eq_W2 (c : Dev nD) : U2 m c = W2 m c := U2_split m c
theorem W2_v4 (c : Dev nD) : W2 m c (Proc.devRef .tc main_v4) = Cert.ReferenceIdeal.Read.val_main_v3 (F := Ideal) (m ((c.tc : Thread nD τ).loc main_arg1)) := by
  show StableHlo.after hops1b (Ua m c) (Proc.devRef .tc main_v4) = _
  after_results_simp
  exact Ua_v4 m c
theorem W2_v7 (c : Dev nD) : W2 m c (Proc.devRef .tc main_v7) = Cert.ReferenceIdeal.Read.val_main_v6 (F := Ideal) (m ((c.tc : Thread nD τ).loc main_arg1)) := by
  show StableHlo.after hops1b (Ua m c) (Proc.devRef .tc main_v7) = _
  after_results_simp
  exact Ua_v7 m c
theorem W2_v9 (c : Dev nD) : W2 m c (Proc.devRef .tc main_v9) = Cert.ReferenceIdeal.Read.val_main_v8 (F := Ideal) (m ((c.tc : Thread nD τ).loc main_arg2)) := by
  show StableHlo.after hops1b (Ua m c) (Proc.devRef .tc main_v9) = _
  after_results_simp
  exact Ua_v9 m c
theorem W2_v0 (c : Dev nD) : W2 m c (Proc.devRef .tc main_v0) = Cert.ReferenceIdeal.Read.val_main_v34 (F := Ideal) (m ((c.tc : Thread nD τ).loc main_arg0)) (m ((c.tc : Thread nD τ).loc main_arg4)) := by
  show StableHlo.after hops1b (Ua m c) (Proc.devRef .tc main_v0) = _
  after_results_simp
  exact Ua_v0 m c
set_option maxHeartbeats 2000000 in
theorem W2_v14 (c : Dev nD) : W2 m c (Proc.devRef .tc main_v14) = Cert.ReferenceIdeal.Read.val_main_v13 (F := Ideal) (m ((c.tc : Thread nD τ).loc main_arg1)) (m ((c.tc : Thread nD τ).loc main_arg2)) := by
  show StableHlo.after hops1b (Ua m c) (Proc.devRef .tc main_v14) = _
  after_results_simp
  rw [Ua_v7, Ua_v9]
  rfl
set_option maxHeartbeats 2000000 in
theorem W2_v17 (c : Dev nD) : W2 m c (Proc.devRef .tc main_v17) = Cert.ReferenceIdeal.Read.val_main_v16 (F := Ideal) (m ((c.tc : Thread nD τ).loc main_arg1)) (m ((c.tc : Thread nD τ).loc main_arg2)) := by
  show StableHlo.after hops1b (Ua m c) (Proc.devRef .tc main_v17) = _
  after_results_simp
  rw [Ua_v7, Ua_v9]
  rfl
theorem W2_cst_3 (c : Dev nD) : W2 m c (Proc.devRef .tc main_cst_3) = Cert.ReferenceIdeal.Read.val_main_cst_3 (F := Ideal) := by
  show StableHlo.after hops1b (Ua m c) (Proc.devRef .tc main_cst_3) = _
  after_results_simp
  rfl

/-! ### The second stretch: dis = deg^(-1/2) where deg > 0, zero elsewhere -/

/-- The buffers after the second host stretch. -/
def W3 (c : Dev nD) : Valuation τ sig (Elt Ideal) := StableHlo.after hostOps1_1 (W2 m c)
theorem U3_eq_W3 (c : Dev nD) : U3 m c = W3 m c := by
  show StableHlo.after hostOps1_1 (U2 m c) = _
  rw [U2_eq_W2]; rfl
theorem W3_v4 (c : Dev nD) : W3 m c (Proc.devRef .tc main_v4) = Cert.ReferenceIdeal.Read.val_main_v3 (F := Ideal) (m ((c.tc : Thread nD τ).loc main_arg1)) := by
  show StableHlo.after hostOps1_1 (W2 m c) (Proc.devRef .tc main_v4) = _
  after_results_simp
  exact W2_v4 m c
theorem W3_v7 (c : Dev nD) : W3 m c (Proc.devRef .tc main_v7) = Cert.ReferenceIdeal.Read.val_main_v6 (F := Ideal) (m ((c.tc : Thread nD τ).loc main_arg1)) := by
  show StableHlo.after hostOps1_1 (W2 m c) (Proc.devRef .tc main_v7) = _
  after_results_simp
  exact W2_v7 m c
theorem W3_v9 (c : Dev nD) : W3 m c (Proc.devRef .tc main_v9) = Cert.ReferenceIdeal.Read.val_main_v8 (F := Ideal) (m ((c.tc : Thread nD τ).loc main_arg2)) := by
  show StableHlo.after hostOps1_1 (W2 m c) (Proc.devRef .tc main_v9) = _
  after_results_simp
  exact W2_v9 m c
theorem W3_v0 (c : Dev nD) : W3 m c (Proc.devRef .tc main_v0) = Cert.ReferenceIdeal.Read.val_main_v34 (F := Ideal) (m ((c.tc : Thread nD τ).loc main_arg0)) (m ((c.tc : Thread nD τ).loc main_arg4)) := by
  show StableHlo.after hostOps1_1 (W2 m c) (Proc.devRef .tc main_v0) = _
  after_results_simp
  exact W2_v0 m c
theorem W3_v18 (c : Dev nD) : W3 m c (Proc.devRef .tc main_v18) = Cert.ReferenceIdeal.Read.val_main_v17 (F := Ideal) (m ((c.tc : Thread nD τ).loc main_arg1)) (m ((c.tc : Thread nD τ).loc main_arg2)) :=
  where_stage (W2 m c) _ _ (W2_v14 m c) (W2_v17 m c) (W2_cst_3 m c)

/-! ### The third stretch: the edge norm, the gathered rows scaled, the scatter-add into the nodes -/
/-- The convolution's scatter result, when the second launch is entered, is the reference's (the shared chain applied
    to equal products). -/
theorem U4_main_v47 (c : Dev nD) :
    U4 m c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg4)) := by
  show StableHlo.after hostOps1_2 (U3 m c) (Proc.devRef .tc main_v47) = _
  rw [U3_eq_W3]
  exact edge_stage (W3 m c) _ _ _ _ (W3_v4 m c) (W3_v7 m c) (W3_v9 m c) (W3_v18 m c) (W3_v0 m c)

end Cert.KernelIdeal.HandV

end
-- ==== Proof.KiVal1.lean ====
/-
  The second launch, read as a value at the ideal numbers. Its grid is 2 x 10: point t = 10 k + i reads rows
  5000 t ... 5000 t + 4999 of the activations x : [100000, 128] and of the membership matrix m : [100000, 64], and the
  whole bias row b : [1, 128]. A scratch accumulator S : [64, 128] is cleared at i = 0 and at every point gains
  S(g, d) += sum over the block's rows r of m(r, g) * max (x(r, d) + b(0, d)) 0 (a contraction over the row axis of both
  operands); a second one, C : [1, 64], gains the column sums of the block of m. At i = 9 both are written back as block k
  of the two output arrays. So after the twenty points output block k holds the sums over the rows of half k, the
  rows n with n / 50000 = k.
-/
import proofs.«422273_j43499428774207_3_alg».proof.Proof.KiRegion1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The two payloads at an index -/

/-- The contraction's operand indices: both operands are contracted over their row axis 0; the left operand's column is
    the output's row, the right operand's column the output's column. -/
theorem pool_lhs_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem pool_lhs_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem pool_rhs_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem pool_rhs_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The accumulator's step at an index: what was there plus the block's rows of the membership column against the
    rectified, biased activations' column. -/
theorem pool_pay4_apply (x : Vec Ideal S5000x128 .f32) (b : Vec Ideal S1x128 .f32) (m : Vec Ideal S5000x64 .bf16)
    (acc : Vec Ideal S64x128 .f32) (g : Fin 64) (d : Fin 128) :
    (k1_pay4 (F := Ideal) x b m acc (ix2 g d) : EReal)
      = (acc (ix2 g d) : EReal) + ∑ r : Fin 5000, (m (ix2 r g) : EReal) * max ((x (ix2 r d) : EReal) + (b (ix2 0 d) : EReal)) 0 := by
  unfold k1_pay4 k1_pay3
  simp only [matmul]
  rw [shapeCast_self, shapeCast_self, shapeCast_self, shapeCast_self]
  rw [addf_apply, Ideal.matmul_constant_zero_apply, ← Equiv.sum_comp (contrEquiv1 dot_S5000x64_S5000x128_S64x128_0_0_1_1_n_n 5000 rfl rfl).symm]
  refine congrArg (acc (ix2 g d) + ·) (Finset.sum_congr rfl fun r _ => ?_)
  have hr := contrEquiv1_symm_val dot_S5000x64_S5000x128_S64x128_0_0_1_1_n_n 5000 rfl rfl r
  have el : dot_S5000x64_S5000x128_S64x128_0_0_1_1_n_n.lhsIdx (ix2 g d) ((contrEquiv1 dot_S5000x64_S5000x128_S64x128_0_0_1_1_n_n 5000 rfl rfl).symm r) = ix2 r g := funext fun a => Fin.ext (by
    match a with
    | ⟨0, _⟩ => exact (pool_lhs_0 _ _).trans hr
    | ⟨1, _⟩ => exact pool_lhs_1 _ _)
  have er : dot_S5000x64_S5000x128_S64x128_0_0_1_1_n_n.rhsIdx (ix2 g d) ((contrEquiv1 dot_S5000x64_S5000x128_S64x128_0_0_1_1_n_n 5000 rfl rfl).symm r) = ix2 r d := funext fun a => Fin.ext (by
    match a with
    | ⟨0, _⟩ => exact (pool_rhs_0 _ _).trans hr
    | ⟨1, _⟩ => exact pool_rhs_1 _ _)
  rw [el, er]
  show (m (ix2 r g) : EReal) * max ((x (ix2 r d) : EReal) + broadcastTo S5000x128 b broadcasts_S1x128_S5000x128 (ix2 r d)) (Ideal.ofBits .f32 0x00000000#32) = _
  rw [broadcastTo_apply b broadcasts_S1x128_S5000x128 (ix2 r d) (ix2 0 d) (fun a => by
    match a with
    | ⟨0, _⟩ => rfl
    | ⟨1, _⟩ => rfl), Ideal.ofBits_zero_f32]

/-- The counter's step at an index: what was there plus the block's column sum of the membership matrix. -/
theorem pool_pay5_apply (m : Vec Ideal S5000x64 .bf16) (acc : Vec Ideal S1x64 .f32) (g : Fin 64) :
    (k1_pay5 (F := Ideal) m acc (ix2 0 g) : EReal) = (acc (ix2 0 g) : EReal) + ∑ r : Fin 5000, (m (ix2 r g) : EReal) := by
  unfold k1_pay5 k1_pay3
  rw [shapeCast_self, shapeCast_self, addf_apply]
  refine congrArg (acc (ix2 0 g) + ·) ?_
  rw [shapeCast_addUnit_apply ![64] _ shapeCasts_S64_S1x64 (ix2 0 g)]
  refine (Ideal.multiReduction_add_single _ _ reduces_S5000x64_S64 _ _ _).trans ?_
  refine Finset.sum_congr rfl fun r _ => ?_
  show (m _ : EReal) = m _
  congr 1
  funext a
  match a with
  | ⟨0, _⟩ => rfl
  | ⟨1, _⟩ => rfl

/-- The cleared accumulator reads zero everywhere. -/
theorem pool_pay1_apply (j : S64x128.Idx) : (k1_pay1 (F := Ideal) j : EReal) = 0 := by
  unfold k1_pay1
  rw [shapeCast_self]
  exact Ideal.ofBits_zero_f32

/-- The cleared counter reads zero everywhere. -/
theorem pool_pay2_apply (j : S1x64.Idx) : (k1_pay2 (F := Ideal) j : EReal) = 0 := by
  unfold k1_pay2
  rw [shapeCast_self]
  exact Ideal.ofBits_zero_f32

/-! ## Sums over the rows of one block -/

/-- The rows of block `t` (of twenty blocks of 5000 rows) are the rows `n` with `n / 5000 = t`: a sum over the block's rows is
    the sum over all rows of the terms of that block. -/
theorem sum_rows_block {M : Type*} [AddCommMonoid M] (f : Fin 100000 → M) (t : ℕ) (ht : t < 20) :
    ∑ r : Fin 5000, f ⟨5000 * t + r.val, by have := r.isLt; omega⟩ = ∑ n : Fin 100000, if n.val / 5000 = t then f n else 0 := by
  rw [← Equiv.sum_comp (finProdFinEquiv : Fin 20 × Fin 5000 ≃ Fin 100000) (fun n => if n.val / 5000 = t then f n else 0),
    Fintype.sum_prod_type, Finset.sum_eq_single (⟨t, ht⟩ : Fin 20)]
  · refine Finset.sum_congr rfl fun r _ => ?_
    have hr := r.isLt
    have hv : ((finProdFinEquiv : Fin 20 × Fin 5000 ≃ Fin 100000) (⟨t, ht⟩, r)).val = r.val + 5000 * t := rfl
    rw [if_pos (by rw [hv]; omega)]
    exact congrArg f (Fin.ext (by rw [hv]; show 5000 * t + r.val = r.val + 5000 * t; omega))
  · intro a _ ha
    refine Finset.sum_eq_zero fun r _ => ?_
    have hr := r.isLt
    have hv : ((finProdFinEquiv : Fin 20 × Fin 5000 ≃ Fin 100000) (a, r)).val = r.val + 5000 * a.val := rfl
    rw [if_neg (by rw [hv]; intro h; exact ha (Fin.ext (by show a.val = t; omega)))]
  · intro h; exact absurd (Finset.mem_univ _) h

/-! ## The blocks over the arrays -/

variable (V : (c : Dev nD) → (b : Ref sig .tc) → Buf (Elt Ideal) ((c : Thread nD τ).loc b))

/-- The printed index maps over the grid: the blocks of the activations and of the membership matrix move down the rows
    with the point, the bias's block stays, and the two outputs' blocks move with the point's first coordinate. -/
theorem pool_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 3) = t.val / 10 ∧ win1_3.index t (1 : Fin 3) = 0 ∧ win1_3.index t (2 : Fin 3) = 0
    ∧ win1_4.index t (0 : Fin 3) = t.val / 10 ∧ win1_4.index t (1 : Fin 3) = 0 ∧ win1_4.index t (2 : Fin 3) = 0 :=
  (by decide +kernel : ∀ t : Fin grid1.N, _)

theorem pool_N : cfg1.N = 20 := by decide

/-- Row `r` of point `t`'s block is row `5000 t + r` of the array. -/
abbrev prow (t : Fin cfg1.N) (r : Fin 5000) : Fin 100000 :=
  ⟨5000 * t.val + r.val, by have := t.isLt; have := pool_N; have := r.isLt; omega⟩

/-- The block of the activations at point `t`, read at an index. -/
theorem pool_blk0 (c : Dev nD) (t : Fin cfg1.N) (r : Fin 5000) (d : Fin 128) :
    (iblk1 V c 0 t (ix2 r d) : EReal) = (V c main_v47 : S100000x128.Idx → EReal) (ix2 (prow t r) d) := by
  obtain ⟨e0, e1, -⟩ := pool_idx t
  show V c main_v47 (((cfg1.win 0).blk t).view.emb (ix2 r d)) = _
  congr 1
  funext a; apply Fin.ext
  match a with
  | ⟨0, _⟩ => show win1_0.index t (0 : Fin 2) * 5000 + 1 * r.val = 5000 * t.val + r.val; omega
  | ⟨1, _⟩ => show win1_0.index t (1 : Fin 2) * 128 + 1 * d.val = d.val; omega

/-- The block of the bias at point `t`, read at an index: the whole row. -/
theorem pool_blk1 (c : Dev nD) (t : Fin cfg1.N) (d : Fin 128) :
    (iblk1 V c 1 t (ix2 0 d) : EReal) = (V c main_v55 : S1x128.Idx → EReal) (ix2 0 d) := by
  obtain ⟨-, -, e2, e3, -⟩ := pool_idx t
  show V c main_v55 (((cfg1.win 1).blk t).view.emb (ix2 0 d)) = _
  congr 1
  funext a; apply Fin.ext
  match a with
  | ⟨0, _⟩ => show win1_1.index t (0 : Fin 2) * 1 + 1 * 0 = 0; omega
  | ⟨1, _⟩ => show win1_1.index t (1 : Fin 2) * 128 + 1 * d.val = d.val; omega

/-- The block of the membership matrix at point `t`, read at an index. -/
theorem pool_blk2 (c : Dev nD) (t : Fin cfg1.N) (r : Fin 5000) (g : Fin 64) :
    (iblk1 V c 2 t (ix2 r g) : EReal) = (V c main_v54 : S100000x64.Idx → EReal) (ix2 (prow t r) g) := by
  obtain ⟨-, -, -, -, e4, e5, -⟩ := pool_idx t
  show V c main_v54 (((cfg1.win 2).blk t).view.emb (ix2 r g)) = _
  congr 1
  funext a; apply Fin.ext
  match a with
  | ⟨0, _⟩ => show win1_2.index t (0 : Fin 2) * 5000 + 1 * r.val = 5000 * t.val + r.val; omega
  | ⟨1, _⟩ => show win1_2.index t (1 : Fin 2) * 64 + 1 * g.val = g.val; omega

/-! ## One point's step over the arrays -/

/-- The three arrays the launch reads, as functions into the extended reals: the activations, the bias row, the
    membership matrix. -/
abbrev poolX (c : Dev nD) : S100000x128.Idx → EReal := V c main_v47
abbrev poolB (c : Dev nD) : S1x128.Idx → EReal := V c main_v55
abbrev poolM (c : Dev nD) : S100000x64.Idx → EReal := V c main_v54

/-- Their blocks at point `t`, likewise. -/
abbrev blkX (c : Dev nD) (t : Fin cfg1.N) : S5000x128.Idx → EReal := iblk1 V c 0 t
abbrev blkB (c : Dev nD) (t : Fin cfg1.N) : S1x128.Idx → EReal := iblk1 V c 1 t
abbrev blkM (c : Dev nD) (t : Fin cfg1.N) : S5000x64.Idx → EReal := iblk1 V c 2 t

/-- Row `n`'s term of the pooled sum at `(g, d)`: its membership in group `g` times its rectified, biased activation `d`. -/
abbrev poolTerm (c : Dev nD) (g : Fin 64) (d : Fin 128) (n : Fin 100000) : EReal :=
  poolM V c (ix2 n g) * max (poolX V c (ix2 n d) + poolB V c (ix2 0 d)) 0

/-- Row `n`'s term of the count of group `g`: its membership. -/
abbrev cntTerm (c : Dev nD) (g : Fin 64) (n : Fin 100000) : EReal := poolM V c (ix2 n g)

/-- What point `t` adds to the accumulator at `(g, d)`: the terms of the rows of block `t`. -/
theorem pool_block_sum (c : Dev nD) (t : Fin cfg1.N) (g : Fin 64) (d : Fin 128) :
    ∑ r : Fin 5000, blkM V c t (ix2 r g) * max (blkX V c t (ix2 r d) + blkB V c t (ix2 0 d)) 0
      = ∑ n : Fin 100000, if n.val / 5000 = t.val then poolTerm V c g d n else 0 := by
  rw [← sum_rows_block (poolTerm V c g d) t.val (by have := t.isLt; have := pool_N; omega)]
  refine Finset.sum_congr rfl fun r _ => ?_
  have h0 : blkX V c t (ix2 r d) = poolX V c (ix2 (prow t r) d) := pool_blk0 V c t r d
  have h1 : blkB V c t (ix2 0 d) = poolB V c (ix2 0 d) := pool_blk1 V c t d
  have h2 : blkM V c t (ix2 r g) = poolM V c (ix2 (prow t r) g) := pool_blk2 V c t r g
  rw [h0, h1, h2]

/-- What point `t` adds to the counter at `g`: the memberships of the rows of block `t`. -/
theorem cnt_block_sum (c : Dev nD) (t : Fin cfg1.N) (g : Fin 64) :
    ∑ r : Fin 5000, blkM V c t (ix2 r g) = ∑ n : Fin 100000, if n.val / 5000 = t.val then cntTerm V c g n else 0 := by
  rw [← sum_rows_block (cntTerm V c g) t.val (by have := t.isLt; have := pool_N; omega)]
  refine Finset.sum_congr rfl fun r _ => ?_
  exact pool_blk2 V c t r g

/-- At the first point of a run of ten the accumulator is that point's block sum … -/
theorem pool_accS_first (c : Dev nD) (n : ℕ) (h : n < cfg1.N) (h0 : n % 10 = 0) (g : Fin 64) (d : Fin 128) :
    (accS (F := Ideal) V c n h (ix2 g d) : EReal) = ∑ m : Fin 100000, if m.val / 5000 = n then poolTerm V c g d m else 0 := by
  have e : accS (F := Ideal) V c n h = k1_pay4 (iblk1 V c 0 ⟨n, h⟩) (iblk1 V c 1 ⟨n, h⟩) (iblk1 V c 2 ⟨n, h⟩) (k1_pay1 (F := Ideal)) :=
    accS_reset V c ⟨n, h⟩ h0
  rw [e, pool_pay4_apply, pool_pay1_apply, zero_add]
  exact pool_block_sum V c ⟨n, h⟩ g d

/-- … and at every other point what the point before left plus this point's block sum. -/
theorem pool_accS_next (c : Dev nD) (n : ℕ) (h : n + 1 < cfg1.N) (hne : (n + 1) % 10 ≠ 0) (g : Fin 64) (d : Fin 128) :
    (accS (F := Ideal) V c (n + 1) h (ix2 g d) : EReal)
      = (accS (F := Ideal) V c n (Nat.lt_of_succ_lt h) (ix2 g d) : EReal) + ∑ m : Fin 100000, if m.val / 5000 = n + 1 then poolTerm V c g d m else 0 := by
  have e : accS (F := Ideal) V c (n + 1) h
      = k1_pay4 (iblk1 V c 0 ⟨n + 1, h⟩) (iblk1 V c 1 ⟨n + 1, h⟩) (iblk1 V c 2 ⟨n + 1, h⟩) (accS (F := Ideal) V c n (Nat.lt_of_succ_lt h)) :=
    accS_step V c ⟨n + 1, h⟩ hne
  rw [e, pool_pay4_apply]
  exact congrArg (_ + ·) (pool_block_sum V c ⟨n + 1, h⟩ g d)

/-- The counter likewise: at the first point of a run its block's count … -/
theorem pool_accC_first (c : Dev nD) (n : ℕ) (h : n < cfg1.N) (h0 : n % 10 = 0) (g : Fin 64) :
    (accC (F := Ideal) V c n h (ix2 0 g) : EReal) = ∑ m : Fin 100000, if m.val / 5000 = n then cntTerm V c g m else 0 := by
  have e : accC (F := Ideal) V c n h = k1_pay5 (iblk1 V c 2 ⟨n, h⟩) (k1_pay2 (F := Ideal)) := accC_reset V c ⟨n, h⟩ h0
  rw [e, pool_pay5_apply, pool_pay2_apply, zero_add]
  exact cnt_block_sum V c ⟨n, h⟩ g

/-- … and at every other point what the point before left plus this block's count. -/
theorem pool_accC_next (c : Dev nD) (n : ℕ) (h : n + 1 < cfg1.N) (hne : (n + 1) % 10 ≠ 0) (g : Fin 64) :
    (accC (F := Ideal) V c (n + 1) h (ix2 0 g) : EReal)
      = (accC (F := Ideal) V c n (Nat.lt_of_succ_lt h) (ix2 0 g) : EReal) + ∑ m : Fin 100000, if m.val / 5000 = n + 1 then cntTerm V c g m else 0 := by
  have e : accC (F := Ideal) V c (n + 1) h = k1_pay5 (iblk1 V c 2 ⟨n + 1, h⟩) (accC (F := Ideal) V c n (Nat.lt_of_succ_lt h)) :=
    accC_step V c ⟨n + 1, h⟩ hne
  rw [e, pool_pay5_apply]
  exact congrArg (_ + ·) (cnt_block_sum V c ⟨n + 1, h⟩ g)

/-! ## A run of ten points -/

/-- A quantity that starts a run at point `10 k` with that point's block sum and gains each later point's block sum holds,
    at point `10 k + i`, the terms of the rows of blocks `10 k … 10 k + i`. -/
theorem run_sum (f : Fin 100000 → EReal) (a : (n : ℕ) → n < cfg1.N → EReal)
    (h0 : ∀ (n : ℕ) (h : n < cfg1.N), n % 10 = 0 → a n h = ∑ m : Fin 100000, if m.val / 5000 = n then f m else 0)
    (hs : ∀ (n : ℕ) (h : n + 1 < cfg1.N), (n + 1) % 10 ≠ 0 →
      a (n + 1) h = a n (Nat.lt_of_succ_lt h) + ∑ m : Fin 100000, if m.val / 5000 = n + 1 then f m else 0)
    (k : ℕ) : ∀ (i : ℕ) (_ : i < 10) (h : 10 * k + i < cfg1.N),
      a (10 * k + i) h = ∑ m : Fin 100000, if 10 * k ≤ m.val / 5000 ∧ m.val / 5000 ≤ 10 * k + i then f m else 0
  | 0, _, h => by
    rw [h0 _ h (by omega)]
    refine Finset.sum_congr rfl fun m _ => ?_
    by_cases hm : m.val / 5000 = 10 * k + 0
    · rw [if_pos hm, if_pos (by omega)]
    · rw [if_neg hm, if_neg (by omega)]
  | i + 1, hi, h => by
    rw [show a (10 * k + (i + 1)) h = a (10 * k + i + 1) h from rfl, hs (10 * k + i) h (by omega),
      run_sum f a h0 hs k i (by omega) (Nat.lt_of_succ_lt h), ← Finset.sum_add_distrib]
    refine Finset.sum_congr rfl fun m _ => ?_
    by_cases h1 : 10 * k ≤ m.val / 5000 ∧ m.val / 5000 ≤ 10 * k + i
    · rw [if_pos h1, if_neg (by omega), if_pos (by omega), add_zero]
    · by_cases h2 : m.val / 5000 = 10 * k + i + 1
      · rw [if_neg h1, if_pos h2, if_pos (by omega), zero_add]
      · rw [if_neg h1, if_neg h2, if_neg (by omega), add_zero]

/-- At the last point of run `k` the terms are those of the rows of half `k`. -/
theorem run_sum_last (f : Fin 100000 → EReal) (k : ℕ) :
    (∑ m : Fin 100000, if 10 * k ≤ m.val / 5000 ∧ m.val / 5000 ≤ 10 * k + 9 then f m else 0)
      = ∑ m : Fin 100000, if m.val / 50000 = k then f m else 0 := by
  refine Finset.sum_congr rfl fun m _ => ?_
  by_cases hm : m.val / 50000 = k
  · rw [if_pos hm, if_pos (by omega)]
  · rw [if_neg hm, if_neg (by omega)]

/-- At the last point of run `k` the accumulator holds, at `(g, d)`, the pooled sum over the rows of half `k`. -/
theorem pool_accS_last (c : Dev nD) (t : Fin cfg1.N) (h9 : t.val % 10 = 9) (g : Fin 64) (d : Fin 128) :
    (accS (F := Ideal) V c t.val t.isLt (ix2 g d) : EReal)
      = ∑ n : Fin 100000, if n.val / 50000 = t.val / 10 then poolTerm V c g d n else 0 := by
  have hN := pool_N
  have htl := t.isLt
  have same : ∀ (u : ℕ) (hu : u < cfg1.N), u = t.val → accS (F := Ideal) V c u hu = accS (F := Ideal) V c t.val t.isLt :=
    fun u hu e => by subst e; rfl
  rw [← same (10 * (t.val / 10) + 9) (by omega) (by omega), ← run_sum_last]
  exact run_sum (poolTerm V c g d) (fun n h => (accS (F := Ideal) V c n h (ix2 g d) : EReal))
    (fun n h h0 => pool_accS_first V c n h h0 g d) (fun n h hne => pool_accS_next V c n h hne g d) (t.val / 10) 9 (by omega) (by omega)

/-- The counter likewise: at `g`, the count over the rows of half `k`. -/
theorem pool_accC_last (c : Dev nD) (t : Fin cfg1.N) (h9 : t.val % 10 = 9) (g : Fin 64) :
    (accC (F := Ideal) V c t.val t.isLt (ix2 0 g) : EReal)
      = ∑ n : Fin 100000, if n.val / 50000 = t.val / 10 then cntTerm V c g n else 0 := by
  have hN := pool_N
  have htl := t.isLt
  have same : ∀ (u : ℕ) (hu : u < cfg1.N), u = t.val → accC (F := Ideal) V c u hu = accC (F := Ideal) V c t.val t.isLt :=
    fun u hu e => by subst e; rfl
  rw [← same (10 * (t.val / 10) + 9) (by omega) (by omega), ← run_sum_last]
  exact run_sum (cntTerm V c g) (fun n h => (accC (F := Ideal) V c n h (ix2 0 g) : EReal))
    (fun n h h0 => pool_accC_first V c n h h0 g) (fun n h hne => pool_accC_next V c n h hne g) (t.val / 10) 9 (by omega) (by omega)

/-! ## From blocks to the arrays -/

/-- The pooled sums as one function of the three arrays the launch finds: block `k` holds the sums over the rows of half `k`. -/
def poolG (c : Dev nD) : S2x64x128.Idx → Elt Ideal .f32 := fun i =>
  ∑ n : Fin 100000, if n.val / 50000 = (i 0).val then poolTerm V c ⟨(i 1).val, (i 1).isLt⟩ ⟨(i 2).val, (i 2).isLt⟩ n else 0

theorem poolG_apply (c : Dev nD) (k : Fin 2) (g : Fin 64) (d : Fin 128) :
    (poolG V c (ix3 k g d) : EReal) = ∑ n : Fin 100000, if n.val / 50000 = k.val then poolTerm V c g d n else 0 := rfl

/-- The counts likewise. -/
def cntG (c : Dev nD) : S2x1x64.Idx → Elt Ideal .f32 := fun i =>
  ∑ n : Fin 100000, if n.val / 50000 = (i 0).val then cntTerm V c ⟨(i 2).val, (i 2).isLt⟩ n else 0

theorem cntG_apply (c : Dev nD) (k : Fin 2) (g : Fin 64) :
    (cntG V c (ix3 k 0 g) : EReal) = ∑ n : Fin 100000, if n.val / 50000 = k.val then cntTerm V c g n else 0 := rfl

-- The two functions are read through `poolG_apply` and `cntG_apply` from here on: comparing them against a block read
-- back must not open their sums.
attribute [irreducible] poolG cntG

/-- What a point that writes back (the last of its run) writes to the sums' array is its block of the pooled sums. -/
theorem pool_flushed (c : Dev nD) (t : Fin cfg1.N) (hf : (cfg1.win 3).flush t = true) :
    (dat1 (F := Ideal) V c).flushed 3 t = ((cfg1.win 3).blk t).view.read (Elt Ideal) (poolG V c) := by
  have h9 : t.val % 10 = 9 := (flush1_3 t).mp hf
  have hN := pool_N
  have htl := t.isLt
  obtain ⟨-, -, -, -, -, -, e6, e7, e8, -⟩ := pool_idx t
  show (cfg1.win 3).cut (grid1.coords t) ((dat1 (F := Ideal) V c).after 3 t) = _
  rw [after1_3]
  funext j
  show k1_pay6 (F := Ideal) (accS V c t.val t.isLt) j = poolG V c (((cfg1.win 3).blk t).view.emb j)
  have hj0 : (j 0).val < 1 := (j 0).isLt
  have hj1 : (j 1).val < 64 := (j 1).isLt
  have hj2 : (j 2).val < 128 := (j 2).isLt
  unfold k1_pay6
  rw [shapeCast_addUnit_apply ![64, 128] _ shapeCasts_S64x128_S1x64x128 j]
  have hj : (fun a : Fin 2 => j a.succ) = ix2 (⟨(j 1).val, hj1⟩ : Fin 64) (⟨(j 2).val, hj2⟩ : Fin 128) := by
    funext a
    match a with
    | ⟨0, _⟩ => rfl
    | ⟨1, _⟩ => rfl
  have hemb : ((cfg1.win 3).blk t).view.emb j
      = ix3 (⟨t.val / 10, by omega⟩ : Fin 2) (⟨(j 1).val, hj1⟩ : Fin 64) (⟨(j 2).val, hj2⟩ : Fin 128) := by
    funext a; apply Fin.ext
    match a with
    | ⟨0, _⟩ => show win1_3.index t (0 : Fin 3) * 1 + 1 * (j 0).val = t.val / 10; omega
    | ⟨1, _⟩ => show win1_3.index t (1 : Fin 3) * 64 + 1 * (j 1).val = (j 1).val; omega
    | ⟨2, _⟩ => show win1_3.index t (2 : Fin 3) * 128 + 1 * (j 2).val = (j 2).val; omega
  rw [hj, hemb, pool_accS_last V c t h9, poolG_apply]

/-- What such a point writes to the counts' array is its block of the counts. -/
theorem cnt_flushed (c : Dev nD) (t : Fin cfg1.N) (hf : (cfg1.win 4).flush t = true) :
    (dat1 (F := Ideal) V c).flushed 4 t = ((cfg1.win 4).blk t).view.read (Elt Ideal) (cntG V c) := by
  have h9 : t.val % 10 = 9 := (flush1_4 t).mp hf
  have hN := pool_N
  have htl := t.isLt
  obtain ⟨-, -, -, -, -, -, -, -, -, e9, e10, e11⟩ := pool_idx t
  show (cfg1.win 4).cut (grid1.coords t) ((dat1 (F := Ideal) V c).after 4 t) = _
  rw [after1_4]
  funext j
  show k1_pay7 (F := Ideal) (accC V c t.val t.isLt) j = cntG V c (((cfg1.win 4).blk t).view.emb j)
  have hj0 : (j 0).val < 1 := (j 0).isLt
  have hj1 : (j 1).val < 1 := (j 1).isLt
  have hj2 : (j 2).val < 64 := (j 2).isLt
  unfold k1_pay7
  rw [shapeCast_addUnit_apply ![1, 64] _ shapeCasts_S1x64_S1x1x64 j]
  have hj : (fun a : Fin 2 => j a.succ) = ix2 (0 : Fin 1) (⟨(j 2).val, hj2⟩ : Fin 64) := by
    funext a
    match a with
    | ⟨0, _⟩ => exact Fin.ext (by show (j 1).val = 0; omega)
    | ⟨1, _⟩ => rfl
  have hemb : ((cfg1.win 4).blk t).view.emb j
      = ix3 (⟨t.val / 10, by omega⟩ : Fin 2) (0 : Fin 1) (⟨(j 2).val, hj2⟩ : Fin 64) := by
    funext a; apply Fin.ext
    match a with
    | ⟨0, _⟩ => show win1_4.index t (0 : Fin 3) * 1 + 1 * (j 0).val = t.val / 10; omega
    | ⟨1, _⟩ => show win1_4.index t (1 : Fin 3) * 1 + 1 * (j 1).val = 0; omega
    | ⟨2, _⟩ => show win1_4.index t (2 : Fin 3) * 64 + 1 * (j 2).val = (j 2).val; omega
  rw [hj, hemb, pool_accC_last V c t h9, cntG_apply]

/-- An index of the sums' array is in point `t`'s block iff each coordinate is in the block's range on its axis. -/
theorem pool_mem_blk (t : Fin cfg1.N) (i : S2x64x128.Idx) :
    i ∈ ((cfg1.win 3).blk t).view.set ↔ ∀ a : Fin 3, win1_3.index t a * S1x64x128.size a ≤ (i a).val ∧ (i a).val < win1_3.index t a * S1x64x128.size a + S1x64x128.size a := by
  show i ∈ ((View.whole main_v56_0).slice (win1_3.rect t)).set ↔ _
  rw [View.set_slice_whole, Rect.mem_set_unit]
  exact Iff.rfl

/-- The same for the counts' array. -/
theorem cnt_mem_blk (t : Fin cfg1.N) (i : S2x1x64.Idx) :
    i ∈ ((cfg1.win 4).blk t).view.set ↔ ∀ a : Fin 3, win1_4.index t a * S1x1x64.size a ≤ (i a).val ∧ (i a).val < win1_4.index t a * S1x1x64.size a + S1x1x64.size a := by
  show i ∈ ((View.whole main_v56_1).slice (win1_4.rect t)).set ↔ _
  rw [View.set_slice_whole, Rect.mem_set_unit]
  exact Iff.rfl

/-- Block `k` of the sums' array is written back at the last point of run `k`: the two blocks cover the array. -/
theorem pool_cover (i : S2x64x128.Idx) :
    ∃ t : Fin cfg1.N, (cfg1.win 3).flush t = true ∧ i ∈ ((cfg1.win 3).blk t).view.set := by
  have hi0 : (i 0).val < 2 := (i 0).isLt
  have hi1 : (i 1).val < 64 := (i 1).isLt
  have hi2 : (i 2).val < 128 := (i 2).isLt
  have hN := pool_N
  let t : Fin cfg1.N := ⟨10 * (i 0).val + 9, by rw [hN]; omega⟩
  obtain ⟨-, -, -, -, -, -, e6, e7, e8, -⟩ := pool_idx t
  have ht : t.val = 10 * (i 0).val + 9 := rfl
  refine ⟨t, (flush1_3 t).mpr (by rw [ht]; omega), ?_⟩
  rw [pool_mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 128 ≤ (i 2).val ∧ (i 2).val < win1_3.index t (2 : Fin 3) * 128 + 128; omega

/-- The same for the counts' array. -/
theorem cnt_cover (i : S2x1x64.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 64 := (i 2).isLt
  have hN := pool_N
  let t : Fin cfg1.N := ⟨10 * (i 0).val + 9, by rw [hN]; omega⟩
  obtain ⟨-, -, -, -, -, -, -, -, -, e9, e10, e11⟩ := pool_idx t
  have ht : t.val = 10 * (i 0).val + 9 := rfl
  refine ⟨t, (flush1_4 t).mpr (by rw [ht]; omega), ?_⟩
  rw [cnt_mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 64 ≤ (i 2).val ∧ (i 2).val < win1_4.index t (2 : Fin 3) * 64 + 64; omega

/-- After the twenty points the sums' array is the pooled sums … -/
theorem pool_array (c : Dev nD) : (dat1 (F := Ideal) V c).arrAt 3 cfg1.N = poolG V c :=
  (dat1 (F := Ideal) V c).arrAt_eq_of_cover 3 (poolG V c) (fun t hf => pool_flushed V c t hf) pool_cover

/-- … and the counts' array the counts. -/
theorem cnt_array (c : Dev nD) : (dat1 (F := Ideal) V c).arrAt 4 cfg1.N = cntG V c :=
  (dat1 (F := Ideal) V c).arrAt_eq_of_cover 4 (cntG V c) (fun t hf => cnt_flushed V c t hf) cnt_cover

/-- The sums' array at `(k, g, d)`: over the rows `n` of half `k`, membership of `n` in group `g` times the rectified, biased
    activation `d` of row `n`. -/
theorem pool_sums_value (c : Dev nD) (k : Fin 2) (g : Fin 64) (d : Fin 128) :
    ((dat1 (F := Ideal) V c).arrAt 3 cfg1.N : S2x64x128.Idx → EReal) (ix3 k g d)
      = ∑ n : Fin 100000, if n.val / 50000 = k.val then
          poolM V c (ix2 n g) * max (poolX V c (ix2 n d) + poolB V c (ix2 0 d)) 0 else 0 := by
  rw [pool_array]
  exact poolG_apply V c k g d

/-- The counts' array at `(k, 0, g)`: the memberships in group `g` of the rows of half `k`. -/
theorem pool_counts_value (c : Dev nD) (k : Fin 2) (g : Fin 64) :
    ((dat1 (F := Ideal) V c).arrAt 4 cfg1.N : S2x1x64.Idx → EReal) (ix3 k 0 g)
      = ∑ n : Fin 100000, if n.val / 50000 = k.val then poolM V c (ix2 n g) else 0 := by
  rw [cnt_array]
  exact cntG_apply V c k g

end Cert.KernelIdeal.HandV

end
-- ==== Proof.KiVal2.lean ====
/-
  The third launch, read as a value at the ideal numbers: its grid has one point and every window's one block is its
  whole array, so the output array ends holding the classifier's payload on the four input arrays as the launch finds
  them.
-/
import proofs.«422273_j43499428774207_3_alg».proof.Proof.KiRegion2
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The pooled sums: the window's one block is its whole array. -/
theorem iblk2_0 (c : Dev nD) (t : Fin cfg2.N) : iblk2 V c 0 t = V c main_v61 := by
  obtain rfl : t = t2_0 := fin_N2 t
  have hz' : (fun a => win2_0.index t2_0 a * main_v61.ty.shape.size a) = fun _ => 0 := funext fun a => by fin_cases a <;> decide
  exact Memref.read_access_unit_zero (Elt Ideal) main_v61 hz' (fun a => by rw [congrFun hz' a]; simp) (V c main_v61)

/-- The counts: the window's one block is its whole array. -/
theorem iblk2_1 (c : Dev nD) (t : Fin cfg2.N) : iblk2 V c 1 t = V c main_v67 := by
  obtain rfl : t = t2_0 := fin_N2 t
  have hz' : (fun a => win2_1.index t2_0 a * main_v67.ty.shape.size a) = fun _ => 0 := funext fun a => by fin_cases a <;> decide
  exact Memref.read_access_unit_zero (Elt Ideal) main_v67 hz' (fun a => by rw [congrFun hz' a]; simp) (V c main_v67)

/-- The weight column: the window's one block is its whole array. -/
theorem iblk2_2 (c : Dev nD) (t : Fin cfg2.N) : iblk2 V c 2 t = V c main_arg6 := by
  obtain rfl : t = t2_0 := fin_N2 t
  have hz' : (fun a => win2_2.index t2_0 a * main_arg6.ty.shape.size a) = fun _ => 0 := funext fun a => by fin_cases a <;> decide
  exact Memref.read_access_unit_zero (Elt Ideal) main_arg6 hz' (fun a => by rw [congrFun hz' a]; simp) (V c main_arg6)

/-- The bias: the window's one block is its whole array. -/
theorem iblk2_3 (c : Dev nD) (t : Fin cfg2.N) : iblk2 V c 3 t = V c main_v68 := by
  obtain rfl : t = t2_0 := fin_N2 t
  have hz' : (fun a => win2_3.index t2_0 a * main_v68.ty.shape.size a) = fun _ => 0 := funext fun a => by fin_cases a <;> decide
  exact Memref.read_access_unit_zero (Elt Ideal) main_v68 hz' (fun a => by rw [congrFun hz' a]; simp) (V c main_v68)

/-- The classifier's value on the four arrays the launch finds. -/
abbrev clsG (c : Dev nD) : S64x1.Idx → Elt Ideal .f32 :=
  k2_pay1 (F := Ideal) (V c main_v67) (V c main_v61) (V c main_arg6) (V c main_v68)

/-- What the one point writes back is the whole of it: the output's block at zero offsets is the array. -/
theorem cls_flushed (c : Dev nD) (t : Fin cfg2.N) :
    (dat2 (F := Ideal) V c).flushed 4 t = ((cfg2.win 4).blk t).view.read (Elt Ideal) (clsG V c) := by
  show (cfg2.win 4).cut (grid2.coords t) ((dat2 (F := Ideal) V c).after 4 t) = _
  rw [after2_4, iblk2_0, iblk2_1, iblk2_2, iblk2_3]
  obtain rfl : t = t2_0 := fin_N2 t
  have hz' : (fun a => win2_4.index t2_0 a * main_v69.ty.shape.size a) = fun _ => 0 := funext fun a => by fin_cases a <;> decide
  exact (Memref.read_access_unit_zero (Elt Ideal) main_v69 hz' (fun a => by rw [congrFun hz' a]; simp) (clsG V c)).symm

/-- The one point's block covers the output array. -/
theorem cls_cover (i : S64x1.Idx) :
    ∃ t : Fin cfg2.N, (cfg2.win 4).flush t = true ∧ i ∈ ((cfg2.win 4).blk t).view.set := by
  refine ⟨t2_0, flush2_4 t2_0, ?_⟩
  show i ∈ ((View.whole main_v69).slice (win2_4.rect t2_0)).set
  rw [View.set_slice_whole, Rect.mem_set_unit]
  intro a
  have h0 : (i 0 : Nat) < 64 := (i 0).isLt
  have h1 : (i 1 : Nat) < 1 := (i 1).isLt
  match a with
  | ⟨0, _⟩ =>
    show win2_4.index t2_0 0 * win2_4.size 0 ≤ (i 0 : Nat) ∧ (i 0 : Nat) < win2_4.index t2_0 0 * win2_4.size 0 + win2_4.xsize (grid2.coords t2_0) 0
    rw [show win2_4.index t2_0 0 * win2_4.size 0 = 0 from by decide +kernel, show win2_4.xsize (grid2.coords t2_0) 0 = 64 from by decide +kernel]; omega
  | ⟨1, _⟩ =>
    show win2_4.index t2_0 1 * win2_4.size 1 ≤ (i 1 : Nat) ∧ (i 1 : Nat) < win2_4.index t2_0 1 * win2_4.size 1 + win2_4.xsize (grid2.coords t2_0) 1
    rw [show win2_4.index t2_0 1 * win2_4.size 1 = 0 from by decide +kernel, show win2_4.xsize (grid2.coords t2_0) 1 = 1 from by decide +kernel]; omega

/-- After the one point the output array is the classifier's value. -/
theorem cls_value (c : Dev nD) :
    (dat2 (F := Ideal) V c).arrAt 4 cfg2.N = k2_pay1 (F := Ideal) (V c main_v67) (V c main_v61) (V c main_arg6) (V c main_v68) :=
  (dat2 (F := Ideal) V c).arrAt_eq_of_cover 4 (clsG V c) (fun t _ => cls_flushed V c t) cls_cover

end Cert.KernelIdeal.HandV

end
-- ==== Proof.KiTailMath.lean ====
/-
  The tail of the two programs as pure mathematics at the ideal numbers (a float is an extended real, every operation
  exact, a format change the identity). The reference pools relu(out + b) into 64 graphs by a scatter-add over the batch
  word of each row, counts the rows of each graph by a scatter-add of ones, divides, multiplies by the weight column, adds
  the bias and applies 1/(1+exp(-x)). The kernel gets the same pooled sums and counts as two half sums of a one-hot
  matrix (row n, column g is 1 exactly when the batch word of row n is g) and applies the classifier's payload. Given
  the two half sums as finite sums, the two results are equal.
-/
import proofs.«422273_j43499428774207_3_alg».proof.Proof.Gen.KernelIdeal.Skeleton
import proofs.«422273_j43499428774207_3_alg».proof.Proof.RefSide
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.HandV

open Cert.KernelIdeal Cert.KernelIdeal.Gen Idealize.ShloMosaic Idealize.ShloMosaic.TcCoe Idealize.SL.Sem Idealize.ShloMosaic.ValueIdx

/-! ## The kernel's host operations between the launches -/

/-- The one-hot matrix of the batch words: row n, column g compares the batch word of row n with g. -/
def oneHot (x3 : (⟨S100000, .i32⟩ : BufTy).Contents (Elt Ideal)) : (⟨S100000x64, .bf16⟩ : BufTy).Contents (Elt Ideal) :=
  uitofp (F := Ideal) .bf16 (cmpi .eq (broadcastInDim S100000x64 ![0, 1] bcast_S100000x1_S100000x64_0_1 (broadcastInDim S100000x1 ![0] bcast_S100000_S100000x1_0 x3)) (broadcastInDim S100000x64 ![0, 1] bcast_S1x64_S100000x64_0_1 (broadcastInDim S1x64 ![1] bcast_S64_S1x64_1 (iotaInDim S64 32 0))))

/-- The convolution's bias as a row. -/
def biasRow (x5 : (⟨S128, .f32⟩ : BufTy).Contents (Elt Ideal)) : (⟨S1x128, .f32⟩ : BufTy).Contents (Elt Ideal) :=
  shapeCast S1x128 x5 shapeCasts_S128_S1x128

/-- The two half sums added. -/
def sumsMat (S : (⟨S2x64x128, .f32⟩ : BufTy).Contents (Elt Ideal)) : (⟨S64x128, .f32⟩ : BufTy).Contents (Elt Ideal) :=
  addf (F := Ideal) (φ := .f32) (shapeCast S64x128 (extractStridedSlice S1x64x128 ![0, 0, 0] S slices_S2x64x128_S1x64x128_0_0_0) shapeCasts_S1x64x128_S64x128) (shapeCast S64x128 (extractStridedSlice S1x64x128 ![1, 0, 0] S slices_S2x64x128_S1x64x128_1_0_0) shapeCasts_S1x64x128_S64x128)

/-- The two half counts added, as a column. -/
def countsCol (C : (⟨S2x1x64, .f32⟩ : BufTy).Contents (Elt Ideal)) : (⟨S64x1, .f32⟩ : BufTy).Contents (Elt Ideal) :=
  shapeCast S64x1 (addf (F := Ideal) (φ := .f32) (shapeCast S64 (extractStridedSlice S1x1x64 ![0, 0, 0] C slices_S2x1x64_S1x1x64_0_0_0) shapeCasts_S1x1x64_S64) (shapeCast S64 (extractStridedSlice S1x1x64 ![1, 0, 0] C slices_S2x1x64_S1x1x64_1_0_0) shapeCasts_S1x1x64_S64)) shapeCasts_S64_S64x1

/-- The classifier's bias as a one-by-one cell. -/
def blinCell (x7 : (⟨S1, .f32⟩ : BufTy).Contents (Elt Ideal)) : (⟨S1x1, .f32⟩ : BufTy).Contents (Elt Ideal) :=
  shapeCast S1x1 x7 shapeCasts_S1_S1x1

/-! ## The reference's tail as a function of the convolution's scatter result -/

/-- relu(o + b): the reference's lines 50 and 51 over `o`. -/
def refRelu (o : (⟨S100000x128, .f32⟩ : BufTy).Contents (Elt Ideal)) (x5 : (⟨S128, .f32⟩ : BufTy).Contents (Elt Ideal)) :
    (⟨S100000x128, .f32⟩ : BufTy).Contents (Elt Ideal) :=
  maximumf (F := Ideal) (φ := .f32) (addf (F := Ideal) (φ := .f32) o (Cert.ReferenceIdeal.Read.val_main_v49 (F := Ideal) x5)) (Cert.ReferenceIdeal.Read.val_main_call1_v0 (F := Ideal))

/-- The pooled sums: the reference's line 54 over `o`. -/
def refSums (o : (⟨S100000x128, .f32⟩ : BufTy).Contents (Elt Ideal)) (x3 : (⟨S100000, .i32⟩ : BufTy).Contents (Elt Ideal))
    (x5 : (⟨S128, .f32⟩ : BufTy).Contents (Elt Ideal)) : (⟨S64x128, .f32⟩ : BufTy).Contents (Elt Ideal) :=
  Host.scatterAdd (F := Ideal) (φ := .f32) Cert.ReferenceIdeal.scatter_S64x128_S100000x1_S100000x128_1_0_0_1 (Cert.ReferenceIdeal.Read.val_main_v52 (F := Ideal))
    (Cert.ReferenceIdeal.Read.val_main_v53 (F := Ideal) x3) (refRelu o x5)

/-- The logits: the reference's lines 63, 64 and 67 over `o`. -/
def refLogits (o : (⟨S100000x128, .f32⟩ : BufTy).Contents (Elt Ideal)) (x3 : (⟨S100000, .i32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) : (⟨S64x1, .f32⟩ : BufTy).Contents (Elt Ideal) :=
  addf (F := Ideal) (φ := .f32) (Host.dotGeneral (F := Ideal) (φ₁ := .f32) (φ₂ := .f32) Cert.ReferenceIdeal.dot_S64x128_S128x1_S64x1_1_0_0_1_n_n none
      (Host.divf (F := Ideal) (φ := .f32) (refSums o x3 x5) (Cert.ReferenceIdeal.Read.val_main_v62 (F := Ideal) x3)) x6)
    (Cert.ReferenceIdeal.Read.val_main_v66 (F := Ideal) x7)

/-- The reference's tail as a function of the scatter's result `o` (its line 47): lines 48 to 73. -/
def refOut (o : (⟨S100000x128, .f32⟩ : BufTy).Contents (Elt Ideal)) (x3 : (⟨S100000, .i32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) : (⟨S64x1, .f32⟩ : BufTy).Contents (Elt Ideal) :=
  Host.divf (F := Ideal) (φ := .f32) (Cert.ReferenceIdeal.Read.val_main_v72 (F := Ideal))
    (addf (F := Ideal) (φ := .f32) (Cert.ReferenceIdeal.Read.val_main_v70 (F := Ideal)) (Host.exp (F := Ideal) (φ := .f32) (Host.negf (F := Ideal) (φ := .f32) (refLogits o x3 x5 x6 x7))))

/-- The reference's last line is this function of its line 47. -/
theorem refOut_eq (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S100000, .i32⟩ : BufTy).Contents (Elt Ideal))
    (x4 : (⟨S256x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    Cert.ReferenceIdeal.Read.val_main_v73 (F := Ideal) x0 x1 x2 x3 x4 x5 x6 x7
      = refOut (Cert.ReferenceIdeal.Read.val_main_v47 (F := Ideal) x0 x1 x2 x4) x3 x5 x6 x7 := rfl

/-! ## Small facts -/

/-- The word `0x3F800000` is the number one. -/
theorem one_f32 : Ideal.ofBits .f32 0x3F800000#32 = 1 := by
  simp [Ideal.ofBits, Ideal.ieee, -EReal.coe_mul]; norm_num

/-- A 32-bit word read signed is a graph number below 64 exactly when it is that number's word. -/
theorem toInt_eq_iff (w : BitVec 32) (g : Fin 64) : w.toInt = (g.val : Int) ↔ w = BitVec.ofNat 32 g.val := by
  have hg : g.val < 2 ^ 31 := lt_of_lt_of_le g.isLt (by norm_num)
  constructor
  · intro h
    apply BitVec.eq_of_toInt_eq
    rw [h, StableHlo.Predicate.toInt_ofNat_small _ hg]
  · intro h
    rw [h, StableHlo.Predicate.toInt_ofNat_small _ hg]

/-- The two halves of the rows make up all the rows. -/
theorem sum_two_halves (f : Fin 100000 → EReal) :
    (∑ n : Fin 100000, if n.val / 50000 = (0 : Fin 2).val then f n else 0)
      + (∑ n : Fin 100000, if n.val / 50000 = (1 : Fin 2).val then f n else 0) = ∑ n, f n := by
  rw [← Finset.sum_add_distrib]
  refine Finset.sum_congr rfl fun n _ => ?_
  have hn := n.isLt
  by_cases h : n.val < 50000
  · have h0 : n.val / 50000 = 0 := by omega
    rw [h0]; simp
  · have h1 : n.val / 50000 = 1 := by omega
    rw [h1]; simp

/-! ## The one-hot matrix at an element -/

/-- Row n, column g of the one-hot matrix is one when the batch word of row n is g's word, zero otherwise. -/
theorem oneHot_apply (x3 : (⟨S100000, .i32⟩ : BufTy).Contents (Elt Ideal)) (n : Fin 100000) (g : Fin 64) :
    (oneHot x3 : S100000x64.Idx → EReal) (ix2 n g) = if x3 (ix1 n) = BitVec.ofNat 32 g.val then 1 else 0 := by
  have e1 : broadcastInDim S100000x64 ![0, 1] bcast_S100000x1_S100000x64_0_1 (broadcastInDim S100000x1 ![0] bcast_S100000_S100000x1_0 x3) (ix2 n g) = x3 (ix1 n) :=
    (broadcastInDim_apply _ bcast_S100000x1_S100000x64_0_1 _ (ix2 n g) (ix2 n (0 : Fin 1)) (fun a => match a with
      | ⟨0, _⟩ => by show n.val = if (100000 : Nat) = 1 then 0 else n.val; rw [if_neg (by decide)]
      | ⟨1, _⟩ => by show 0 = if (1 : Nat) = 1 then 0 else g.val; rw [if_pos rfl])).trans
    (broadcastInDim_apply _ bcast_S100000_S100000x1_0 x3 (ix2 n (0 : Fin 1)) (ix1 n) (fun a => match a with
      | ⟨0, _⟩ => by show n.val = if (100000 : Nat) = 1 then 0 else n.val; rw [if_neg (by decide)]))
  have e2 : broadcastInDim S100000x64 ![0, 1] bcast_S1x64_S100000x64_0_1 (broadcastInDim S1x64 ![1] bcast_S64_S1x64_1 (iotaInDim S64 32 0)) (ix2 n g) = BitVec.ofNat 32 g.val :=
    (broadcastInDim_apply _ bcast_S1x64_S100000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])).trans
    (broadcastInDim_apply _ bcast_S64_S1x64_1 (iotaInDim S64 32 0) (ix2 (0 : Fin 1) g) (ix1 g) (fun a => match a with
      | ⟨0, _⟩ => by show g.val = if (64 : Nat) = 1 then 0 else g.val; rw [if_neg (by decide)]))
  show (((IntOp.cmpi .eq (broadcastInDim S100000x64 ![0, 1] bcast_S100000x1_S100000x64_0_1 (broadcastInDim S100000x1 ![0] bcast_S100000_S100000x1_0 x3) (ix2 n g))
      (broadcastInDim S100000x64 ![0, 1] bcast_S1x64_S100000x64_0_1 (broadcastInDim S1x64 ![1] bcast_S64_S1x64_1 (iotaInDim S64 32 0)) (ix2 n g))).toNat : ℝ) : EReal) = _
  rw [e1, e2]
  by_cases h : x3 (ix1 n) = BitVec.ofNat 32 g.val
  · rw [if_pos h, StableHlo.Predicate.cmpi_eq_iff.2 h]; simp
  · rw [if_neg h]
    have h0 : IntOp.cmpi .eq (x3 (ix1 n)) (BitVec.ofNat 32 g.val) = 0#1 :=
      eq_zero_of_ne_one (fun h1 => h (StableHlo.Predicate.cmpi_eq_iff.1 h1))
    rw [h0]; simp

/-- The bias row at (0, d) is the bias at d. -/
theorem biasRow_apply (x5 : (⟨S128, .f32⟩ : BufTy).Contents (Elt Ideal)) (d : Fin 128) :
    (biasRow x5 : S1x128.Idx → EReal) (ix2 (0 : Fin 1) d) = x5 (ix1 d) :=
  shapeCast_a_1a_apply x5 shapeCasts_S128_S1x128 0 d

/-- The added half sums at (g, d). -/
theorem sumsMat_apply (S : (⟨S2x64x128, .f32⟩ : BufTy).Contents (Elt Ideal)) (g : Fin 64) (d : Fin 128) :
    (sumsMat S : S64x128.Idx → EReal) (ix2 g d) = (S : S2x64x128.Idx → EReal) (ix3 (0 : Fin 2) g d) + (S : S2x64x128.Idx → EReal) (ix3 (1 : Fin 2) g d) := by
  show shapeCast S64x128 (extractStridedSlice S1x64x128 ![0, 0, 0] S slices_S2x64x128_S1x64x128_0_0_0) shapeCasts_S1x64x128_S64x128 (ix2 g d)
    + shapeCast S64x128 (extractStridedSlice S1x64x128 ![1, 0, 0] S slices_S2x64x128_S1x64x128_1_0_0) shapeCasts_S1x64x128_S64x128 (ix2 g d) = _
  rw [shapeCast_1ab_ab_apply, shapeCast_1ab_ab_apply,
    extractStridedSlice_apply _ S slices_S2x64x128_S1x64x128_0_0_0 (ix3 (0 : Fin 1) g d) (ix3 (0 : Fin 2) g d) (fun a => match a with
      | ⟨0, _⟩ => rfl
      | ⟨1, _⟩ => (Nat.zero_add _).symm
      | ⟨2, _⟩ => (Nat.zero_add _).symm),
    extractStridedSlice_apply _ S slices_S2x64x128_S1x64x128_1_0_0 (ix3 (0 : Fin 1) g d) (ix3 (1 : Fin 2) g d) (fun a => match a with
      | ⟨0, _⟩ => rfl
      | ⟨1, _⟩ => (Nat.zero_add _).symm
      | ⟨2, _⟩ => (Nat.zero_add _).symm)]

/-- The added half counts at (g, 0). -/
theorem countsCol_apply (C : (⟨S2x1x64, .f32⟩ : BufTy).Contents (Elt Ideal)) (g : Fin 64) :
    (countsCol C : S64x1.Idx → EReal) (ix2 g (0 : Fin 1)) = (C : S2x1x64.Idx → EReal) (ix3 (0 : Fin 2) (0 : Fin 1) g) + (C : S2x1x64.Idx → EReal) (ix3 (1 : Fin 2) (0 : Fin 1) g) := by
  have hc : ∀ v : S64.Idx → EReal, shapeCast S64x1 v shapeCasts_S64_S64x1 (ix2 g (0 : Fin 1)) = v (ix1 g) := fun v =>
    shapeCast_apply v shapeCasts_S64_S64x1 _ _ (by
      rw [Shape.rowMajor_val_one, Shape.rowMajor_val_two]
      show g.val = g.val * 1 + 0
      omega)
  have hd : ∀ v : S1x1x64.Idx → EReal, shapeCast S64 v shapeCasts_S1x1x64_S64 (ix1 g) = v (ix3 (0 : Fin 1) (0 : Fin 1) g) := fun v =>
    shapeCast_apply v shapeCasts_S1x1x64_S64 _ _ (by
      rw [Shape.rowMajor_val_one, Shape.rowMajor_val_three]
      show (0 * 1 + 0) * 64 + g.val = g.val
      omega)
  unfold countsCol
  rw [hc]
  show shapeCast S64 (extractStridedSlice S1x1x64 ![0, 0, 0] C slices_S2x1x64_S1x1x64_0_0_0) shapeCasts_S1x1x64_S64 (ix1 g)
    + shapeCast S64 (extractStridedSlice S1x1x64 ![1, 0, 0] C slices_S2x1x64_S1x1x64_1_0_0) shapeCasts_S1x1x64_S64 (ix1 g) = _
  rw [hd, hd,
    extractStridedSlice_apply _ C slices_S2x1x64_S1x1x64_0_0_0 (ix3 (0 : Fin 1) (0 : Fin 1) g) (ix3 (0 : Fin 2) (0 : Fin 1) g) (fun a => match a with
      | ⟨0, _⟩ => rfl
      | ⟨1, _⟩ => rfl
      | ⟨2, _⟩ => (Nat.zero_add _).symm),
    extractStridedSlice_apply _ C slices_S2x1x64_S1x1x64_1_0_0 (ix3 (0 : Fin 1) (0 : Fin 1) g) (ix3 (1 : Fin 2) (0 : Fin 1) g) (fun a => match a with
      | ⟨0, _⟩ => rfl
      | ⟨1, _⟩ => rfl
      | ⟨2, _⟩ => (Nat.zero_add _).symm)]

/-! ## The reference's two scatters: where an update lands -/

/-- The pooling scatter's dimension numbers. -/
abbrev Dsum : ScatterDims Cert.ReferenceIdeal.S64x128 Cert.ReferenceIdeal.S100000x1 Cert.ReferenceIdeal.S100000x128 :=
  Cert.ReferenceIdeal.scatter_S64x128_S100000x1_S100000x128_1_0_0_1

/-- The counting scatter's dimension numbers. -/
abbrev Dcnt : ScatterDims Cert.ReferenceIdeal.S64 Cert.ReferenceIdeal.S100000x1 Cert.ReferenceIdeal.S100000 :=
  Cert.ReferenceIdeal.scatter_S64_S100000x1_S100000_n_0_0_1

theorem Dsum_siIdx (j : S100000x128.Idx) (c : Fin Dsum.scatterDimsToOperandDims.length) :
    Dsum.siIdx j c = ix2 (j 0) (0 : Fin 1) := by
  funext b
  match b with
  | ⟨0, _⟩ => rfl
  | ⟨1, h1⟩ => exact Fin.ext ((Nat.lt_one_iff.mp (Dsum.siIdx j c ⟨1, h1⟩).isLt).trans rfl)

theorem Dsum_start0 (j : S100000x128.Idx) (idx : IVec S100000x1 32) :
    Dsum.start j idx 0 = (idx (ix2 (j 0) (0 : Fin 1))).toInt := by
  unfold ScatterDims.start
  rw [dif_pos (by decide), Dsum_siIdx]
  rfl

theorem Dsum_start1 (j : S100000x128.Idx) (idx : IVec S100000x1 32) : Dsum.start j idx 1 = 0 := by
  unfold ScatterDims.start
  rw [dif_neg (by decide)]

theorem Dsum_window0 (j : S100000x128.Idx) : Dsum.window j 0 = 0 := by
  unfold ScatterDims.window
  rw [dif_neg (by decide)]

theorem Dsum_window1 (j : S100000x128.Idx) : Dsum.window j 1 = (j 1).val := by
  unfold ScatterDims.window
  rw [dif_pos (by decide)]
  rfl

/-- An update of the pooling scatter lands on (g, d) exactly when its column is d and its row's batch word, read signed, is g. -/
theorem Dsum_resultIdx (j : S100000x128.Idx) (idx : IVec S100000x1 32) (g : Fin 64) (d : Fin 128) :
    Dsum.resultIdx? j idx = some (ix2 g d) ↔ (idx (ix2 (j 0) (0 : Fin 1))).toInt = (g.val : Int) ∧ j 1 = d := by
  have hg := g.isLt
  have hd := d.isLt
  have hj1 : (j 1).val < 128 := (j 1).isLt
  unfold ScatterDims.resultIdx?
  split
  · next h =>
    rw [Option.some.injEq]
    have h0 := h 0
    rw [Dsum_start0, Dsum_window0] at h0
    constructor
    · intro e
      have e0 := congrArg Fin.val (congrFun e 0)
      have e1 := congrArg Fin.val (congrFun e 1)
      simp only [Dsum_start0, Dsum_start1, Dsum_window0, Dsum_window1] at e0 e1
      refine ⟨?_, Fin.ext ?_⟩
      · have : ((ix2 g d : S64x128.Idx) 0).val = g.val := rfl
        omega
      · have : ((ix2 g d : S64x128.Idx) 1).val = d.val := rfl
        omega
    · rintro ⟨e0, e1⟩
      funext a
      apply Fin.ext
      match a with
      | ⟨0, _⟩ =>
        show (Dsum.start j idx 0 + (Dsum.window j 0 : Int)).toNat = g.val
        rw [Dsum_start0, Dsum_window0, e0]; omega
      | ⟨1, _⟩ =>
        show (Dsum.start j idx 1 + (Dsum.window j 1 : Int)).toNat = d.val
        rw [Dsum_start1, Dsum_window1, e1]; omega
  · next h =>
    constructor
    · intro e; exact absurd e (by simp)
    · rintro ⟨e0, e1⟩
      exfalso
      apply h
      intro a
      match a with
      | ⟨0, _⟩ =>
        show 0 ≤ Dsum.start j idx 0 + (Dsum.window j 0 : Int) ∧ Dsum.start j idx 0 + (Dsum.window j 0 : Int) < (64 : Nat)
        rw [Dsum_start0, Dsum_window0, e0]; omega
      | ⟨1, _⟩ =>
        show 0 ≤ Dsum.start j idx 1 + (Dsum.window j 1 : Int) ∧ Dsum.start j idx 1 + (Dsum.window j 1 : Int) < (128 : Nat)
        rw [Dsum_start1, Dsum_window1]; omega

theorem Dcnt_siIdx (j : S100000.Idx) (c : Fin Dcnt.scatterDimsToOperandDims.length) :
    Dcnt.siIdx j c = ix2 (j 0) (0 : Fin 1) := by
  funext b
  match b with
  | ⟨0, _⟩ => rfl
  | ⟨1, h1⟩ => exact Fin.ext ((Nat.lt_one_iff.mp (Dcnt.siIdx j c ⟨1, h1⟩).isLt).trans rfl)

theorem Dcnt_start0 (j : S100000.Idx) (idx : IVec S100000x1 32) :
    Dcnt.start j idx 0 = (idx (ix2 (j 0) (0 : Fin 1))).toInt := by
  unfold ScatterDims.start
  rw [dif_pos (by decide), Dcnt_siIdx]
  rfl

theorem Dcnt_window0 (j : S100000.Idx) : Dcnt.window j 0 = 0 := by
  unfold ScatterDims.window
  rw [dif_neg (by decide)]

/-- An update of the counting scatter lands on g exactly when its row's batch word, read signed, is g. -/
theorem Dcnt_resultIdx (j : S100000.Idx) (idx : IVec S100000x1 32) (g : Fin 64) :
    Dcnt.resultIdx? j idx = some (ix1 g) ↔ (idx (ix2 (j 0) (0 : Fin 1))).toInt = (g.val : Int) := by
  have hg := g.isLt
  unfold ScatterDims.resultIdx?
  split
  · next h =>
    rw [Option.some.injEq]
    have h0 := h 0
    rw [Dcnt_start0, Dcnt_window0] at h0
    constructor
    · intro e
      have e0 := congrArg Fin.val (congrFun e 0)
      simp only [Dcnt_start0, Dcnt_window0] at e0
      have : ((ix1 g : S64.Idx) 0).val = g.val := rfl
      omega
    · intro e0
      funext a
      apply Fin.ext
      match a with
      | ⟨0, _⟩ =>
        show (Dcnt.start j idx 0 + (Dcnt.window j 0 : Int)).toNat = g.val
        rw [Dcnt_start0, Dcnt_window0, e0]; omega
  · next h =>
    constructor
    · intro e; exact absurd e (by simp)
    · intro e0
      exfalso
      apply h
      intro a
      match a with
      | ⟨0, _⟩ =>
        show 0 ≤ Dcnt.start j idx 0 + (Dcnt.window j 0 : Int) ∧ Dcnt.start j idx 0 + (Dcnt.window j 0 : Int) < (64 : Nat)
        rw [Dcnt_start0, Dcnt_window0, e0]; omega

/-- The column of batch words at (n, 0) is the batch word of row n. -/
theorem v53_apply (x3 : (⟨S100000, .i32⟩ : BufTy).Contents (Elt Ideal)) (n : Fin 100000) :
    Cert.ReferenceIdeal.Read.val_main_v53 (F := Ideal) x3 (ix2 n (0 : Fin 1)) = x3 (ix1 n) := by
  rw [Cert.ReferenceIdeal.Read.val_main_v53_apply]
  exact congrArg x3 (funext fun a => match a with | ⟨0, _⟩ => rfl)

/-- The same column as the counting scatter reads it. -/
theorem v57_apply (x3 : (⟨S100000, .i32⟩ : BufTy).Contents (Elt Ideal)) (n : Fin 100000) :
    Cert.ReferenceIdeal.Read.val_main_v57 (F := Ideal) x3 (ix2 n (0 : Fin 1)) = x3 (ix1 n) := by
  rw [Cert.ReferenceIdeal.Read.val_main_v57_apply]
  exact congrArg x3 (funext fun a => match a with | ⟨0, _⟩ => rfl)

/-- Update (n, d') of the pooling scatter lands on (g, d) exactly when row n's batch word is g's and d' is d. -/
theorem Dsum_lands (x3 : (⟨S100000, .i32⟩ : BufTy).Contents (Elt Ideal)) (n : Fin 100000) (d' : Fin 128) (g : Fin 64) (d : Fin 128) :
    Dsum.resultIdx? (ix2 n d') (Cert.ReferenceIdeal.Read.val_main_v53 (F := Ideal) x3) = some (ix2 g d)
      ↔ x3 (ix1 n) = BitVec.ofNat 32 g.val ∧ d' = d := by
  rw [Dsum_resultIdx]
  show (Cert.ReferenceIdeal.Read.val_main_v53 (F := Ideal) x3 (ix2 n (0 : Fin 1))).toInt = (g.val : Int) ∧ d' = d ↔ _
  rw [v53_apply, toInt_eq_iff]

/-- Update n of the counting scatter lands on g exactly when row n's batch word is g's. -/
theorem Dcnt_lands (x3 : (⟨S100000, .i32⟩ : BufTy).Contents (Elt Ideal)) (n : Fin 100000) (g : Fin 64) :
    Dcnt.resultIdx? (ix1 n) (Cert.ReferenceIdeal.Read.val_main_v57 (F := Ideal) x3) = some (ix1 g)
      ↔ x3 (ix1 n) = BitVec.ofNat 32 g.val := by
  rw [Dcnt_resultIdx]
  show (Cert.ReferenceIdeal.Read.val_main_v57 (F := Ideal) x3 (ix2 n (0 : Fin 1))).toInt = (g.val : Int) ↔ _
  rw [v57_apply, toInt_eq_iff]

/-- A sum over a vector's indices is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-! ## The reference's pooled sums and counts as finite sums -/

/-- The reference's update: relu(o + b) at (n, d). -/
theorem refRelu_apply (o : (⟨S100000x128, .f32⟩ : BufTy).Contents (Elt Ideal)) (x5 : (⟨S128, .f32⟩ : BufTy).Contents (Elt Ideal))
    (n : Fin 100000) (d : Fin 128) :
    (refRelu o x5 : S100000x128.Idx → EReal) (ix2 n d) = max ((o : S100000x128.Idx → EReal) (ix2 n d) + x5 (ix1 d)) 0 := by
  show max ((o : S100000x128.Idx → EReal) (ix2 n d) + Cert.ReferenceIdeal.Read.val_main_v49 (F := Ideal) x5 (ix2 n d))
    (Cert.ReferenceIdeal.Read.val_main_call1_v0 (F := Ideal) (ix2 n d)) = _
  rw [Cert.ReferenceIdeal.Read.val_main_v49_apply, Cert.ReferenceIdeal.Read.val_main_v48_apply,
    Cert.ReferenceIdeal.Read.val_main_call1_v0_apply, Cert.ReferenceIdeal.Read.val_main_call1_cst_apply]
  have hx : x5 (Cert.ReferenceIdeal.Read.idx_main_v48 (Cert.ReferenceIdeal.Read.idx_main_v49 (ix2 n d))) = x5 (ix1 d) :=
    congrArg x5 (funext fun a => match a with | ⟨0, _⟩ => rfl)
  rw [hx]
  show max _ (Ideal.ofBits .f32 0x00000000#32) = _
  rw [Ideal.ofBits_zero_f32]

/-- The reference's pooled sum at (g, d): relu(o + b) summed over the rows whose batch word is g's. -/
theorem refSums_apply (o : (⟨S100000x128, .f32⟩ : BufTy).Contents (Elt Ideal)) (x3 : (⟨S100000, .i32⟩ : BufTy).Contents (Elt Ideal))
    (x5 : (⟨S128, .f32⟩ : BufTy).Contents (Elt Ideal)) (g : Fin 64) (d : Fin 128) :
    (refSums o x3 x5 : S64x128.Idx → EReal) (ix2 g d)
      = ∑ n : Fin 100000, if x3 (ix1 n) = BitVec.ofNat 32 g.val then max ((o : S100000x128.Idx → EReal) (ix2 n d) + x5 (ix1 d)) 0 else 0 := by
  show Ideal.hostScatterAdd Dsum (Cert.ReferenceIdeal.Read.val_main_v52 (F := Ideal)) (Cert.ReferenceIdeal.Read.val_main_v53 (F := Ideal) x3) (refRelu o x5) (ix2 g d) = _
  unfold Ideal.hostScatterAdd
  rw [Cert.ReferenceIdeal.Read.val_main_v52_apply, Cert.ReferenceIdeal.Read.val_main_cst_10_apply]
  show Ideal.ofBits .f32 0x00000000#32 + _ = _
  rw [Ideal.ofBits_zero_f32, zero_add, Finset.sum_filter, sum_idx2]
  refine Finset.sum_congr rfl fun n _ => ?_
  rw [Finset.sum_eq_single d]
  · by_cases h : x3 (ix1 n) = BitVec.ofNat 32 g.val
    · rw [if_pos ((Dsum_lands x3 n d g d).2 ⟨h, rfl⟩), if_pos h, refRelu_apply]
    · rw [if_neg (fun hh => h ((Dsum_lands x3 n d g d).1 hh).1), if_neg h]
  · intro b _ hb
    exact if_neg (fun hh => hb ((Dsum_lands x3 n b g d).1 hh).2)
  · intro h; exact absurd (Finset.mem_univ _) h

/-- The reference's count at g: the number of rows whose batch word is g's. -/
theorem refCounts_apply (x3 : (⟨S100000, .i32⟩ : BufTy).Contents (Elt Ideal)) (g : Fin 64) :
    (Cert.ReferenceIdeal.Read.val_main_v58 (F := Ideal) x3 : S64.Idx → EReal) (ix1 g)
      = ∑ n : Fin 100000, if x3 (ix1 n) = BitVec.ofNat 32 g.val then 1 else 0 := by
  show Ideal.hostScatterAdd Dcnt (Cert.ReferenceIdeal.Read.val_main_v56 (F := Ideal)) (Cert.ReferenceIdeal.Read.val_main_v57 (F := Ideal) x3)
    (Cert.ReferenceIdeal.Read.val_main_v55 (F := Ideal)) (ix1 g) = _
  unfold Ideal.hostScatterAdd
  rw [Cert.ReferenceIdeal.Read.val_main_v56_apply, Cert.ReferenceIdeal.Read.val_main_cst_12_apply]
  show Ideal.ofBits .f32 0x00000000#32 + _ = _
  rw [Ideal.ofBits_zero_f32, zero_add, Finset.sum_filter, sum_idx1]
  refine Finset.sum_congr rfl fun n _ => ?_
  rw [if_congr (Dcnt_lands x3 n g) rfl rfl, Cert.ReferenceIdeal.Read.val_main_v55_apply, Cert.ReferenceIdeal.Read.val_main_cst_11_apply]
  show (if _ then Ideal.ofBits .f32 0x3F800000#32 else 0) = _
  rw [one_f32]

/-! ## The kernel's pooled sums and counts are the reference's -/

section Halves
variable (o : (⟨S100000x128, .f32⟩ : BufTy).Contents (Elt Ideal)) (x3 : (⟨S100000, .i32⟩ : BufTy).Contents (Elt Ideal))
  (x5 : (⟨S128, .f32⟩ : BufTy).Contents (Elt Ideal))
  (S : (⟨S2x64x128, .f32⟩ : BufTy).Contents (Elt Ideal)) (C : (⟨S2x1x64, .f32⟩ : BufTy).Contents (Elt Ideal))

theorem sums_eq
    (hS : ∀ (k : Fin 2) (g : Fin 64) (d : Fin 128), (S : S2x64x128.Idx → EReal) (ix3 k g d) = ∑ n : Fin 100000, if n.val / 50000 = k.val then ((oneHot x3 : S100000x64.Idx → EReal) (ix2 n g)) * max ((o : S100000x128.Idx → EReal) (ix2 n d) + (biasRow x5 : S1x128.Idx → EReal) (ix2 0 d)) 0 else 0)
    (g : Fin 64) (d : Fin 128) :
    (sumsMat S : S64x128.Idx → EReal) (ix2 g d) = (refSums o x3 x5 : S64x128.Idx → EReal) (ix2 g d) := by
  rw [sumsMat_apply, hS 0 g d, hS 1 g d, sum_two_halves, refSums_apply]
  refine Finset.sum_congr rfl fun n _ => ?_
  rw [oneHot_apply, biasRow_apply]
  by_cases h : x3 (ix1 n) = BitVec.ofNat 32 g.val
  · rw [if_pos h, if_pos h, one_mul]
  · rw [if_neg h, if_neg h, zero_mul]

theorem counts_eq
    (hC : ∀ (k : Fin 2) (g : Fin 64), (C : S2x1x64.Idx → EReal) (ix3 k 0 g) = ∑ n : Fin 100000, if n.val / 50000 = k.val then ((oneHot x3 : S100000x64.Idx → EReal) (ix2 n g)) else 0)
    (g : Fin 64) :
    (countsCol C : S64x1.Idx → EReal) (ix2 g (0 : Fin 1)) = (Cert.ReferenceIdeal.Read.val_main_v58 (F := Ideal) x3 : S64.Idx → EReal) (ix1 g) := by
  rw [countsCol_apply, hC 0 g, hC 1 g, sum_two_halves, refCounts_apply]
  exact Finset.sum_congr rfl fun n _ => oneHot_apply x3 n g

end Halves

/-! ## The classifier's tail -/

section Tail
variable (o : (⟨S100000x128, .f32⟩ : BufTy).Contents (Elt Ideal)) (x3 : (⟨S100000, .i32⟩ : BufTy).Contents (Elt Ideal))
  (x5 : (⟨S128, .f32⟩ : BufTy).Contents (Elt Ideal)) (x6 : (⟨S128x1, .f32⟩ : BufTy).Contents (Elt Ideal))
  (x7 : (⟨S1, .f32⟩ : BufTy).Contents (Elt Ideal))
  (S : (⟨S2x64x128, .f32⟩ : BufTy).Contents (Elt Ideal)) (C : (⟨S2x1x64, .f32⟩ : BufTy).Contents (Elt Ideal))

/-- The kernel's pooled means: the sums over max(counts, 1) along each row. -/
def pooledK : FVec Ideal S64x128 .f32 :=
  divf (F := Ideal) (φ := .f32) (shapeCast S64x128 (sumsMat S) shapeCasts_S64x128_S64x128)
    (broadcastTo S64x128 (maximumf (F := Ideal) (φ := .f32) (shapeCast S64x1 (countsCol C) shapeCasts_S64x1_S64x1)
      (broadcast S64x1 (Scalar.ofBits (F := Ideal) .f32 0x3F800000#32))) broadcasts_S64x1_S64x128)

/-- The reference's pooled means. -/
def pooledR : FVec Ideal S64x128 .f32 :=
  Host.divf (F := Ideal) (φ := .f32) (refSums o x3 x5) (Cert.ReferenceIdeal.Read.val_main_v62 (F := Ideal) x3)

/-- The kernel's pooled mean at (g, k). -/
theorem pooledK_apply (g : Fin 64) (k : Fin 128) :
    pooledK S C (ix2 g k) = Ideal.div ((sumsMat S : S64x128.Idx → EReal) (ix2 g k)) (max ((countsCol C : S64x1.Idx → EReal) (ix2 g (0 : Fin 1))) 1) := by
  unfold pooledK
  rw [divf_apply, shapeCast_self, broadcastTo_apply _ broadcasts_S64x1_S64x128 (ix2 g k) (ix2 g (0 : Fin 1)) (fun a => match a with
      | ⟨0, _⟩ => by show g.val = if (64 : Nat) = 1 then 0 else g.val; rw [if_neg (by decide)]
      | ⟨1, _⟩ => by show 0 = if (1 : Nat) = 1 then 0 else k.val; rw [if_pos rfl]),
    maximumf_apply, shapeCast_self, broadcast_apply]
  show Ideal.div _ (max _ (Ideal.ofBits .f32 0x3F800000#32)) = _
  rw [one_f32]

/-- The reference's pooled mean at (g, k). -/
theorem pooledR_apply (g : Fin 64) (k : Fin 128) :
    pooledR o x3 x5 (ix2 g k) = Ideal.div ((refSums o x3 x5 : S64x128.Idx → EReal) (ix2 g k))
      (max ((Cert.ReferenceIdeal.Read.val_main_v58 (F := Ideal) x3 : S64.Idx → EReal) (ix1 g)) 1) := by
  have hi : Cert.ReferenceIdeal.Read.idx_main_v61 (Cert.ReferenceIdeal.Read.idx_main_v62 (ix2 g k)) = ix1 g :=
    funext fun a => match a with | ⟨0, _⟩ => rfl
  have h62 : Cert.ReferenceIdeal.Read.val_main_v62 (F := Ideal) x3 (ix2 g k)
      = max ((Cert.ReferenceIdeal.Read.val_main_v58 (F := Ideal) x3 : S64.Idx → EReal) (ix1 g)) 1 := by
    rw [Cert.ReferenceIdeal.Read.val_main_v62_apply, Cert.ReferenceIdeal.Read.val_main_v61_apply, Cert.ReferenceIdeal.Read.val_main_v60_apply,
      Cert.ReferenceIdeal.Read.val_main_v59_apply, Cert.ReferenceIdeal.Read.val_main_cst_13_apply, hi]
    show max _ (Ideal.ofBits .f32 0x3F800000#32) = _
    rw [one_f32]
  unfold pooledR Host.divf
  show Ideal.div _ (Cert.ReferenceIdeal.Read.val_main_v62 (F := Ideal) x3 (ix2 g k)) = _
  rw [h62]

theorem pooled_eq
    (hS : ∀ (k : Fin 2) (g : Fin 64) (d : Fin 128), (S : S2x64x128.Idx → EReal) (ix3 k g d) = ∑ n : Fin 100000, if n.val / 50000 = k.val then ((oneHot x3 : S100000x64.Idx → EReal) (ix2 n g)) * max ((o : S100000x128.Idx → EReal) (ix2 n d) + (biasRow x5 : S1x128.Idx → EReal) (ix2 0 d)) 0 else 0)
    (hC : ∀ (k : Fin 2) (g : Fin 64), (C : S2x1x64.Idx → EReal) (ix3 k 0 g) = ∑ n : Fin 100000, if n.val / 50000 = k.val then ((oneHot x3 : S100000x64.Idx → EReal) (ix2 n g)) else 0) :
    pooledK S C = pooledR o x3 x5 := by
  funext j
  obtain ⟨g, k, rfl⟩ : ∃ g k, j = ix2 g k := ⟨j 0, j 1, eq_ix2 j⟩
  rw [pooledK_apply, pooledR_apply, sums_eq o x3 x5 S hS, counts_eq x3 C hC]

/-- The kernel's bias broadcast at (g, z) is the bias. -/
theorem biasK_apply (g : Fin 64) (z : Fin 1) :
    broadcastTo S64x1 (shapeCast S1x1 (blinCell x7) shapeCasts_S1x1_S1x1) broadcasts_S1x1_S64x1 (ix2 g z) = x7 (ix1 (0 : Fin 1)) := by
  rw [broadcastTo_apply _ broadcasts_S1x1_S64x1 (ix2 g z) (ix2 (0 : Fin 1) (0 : Fin 1)) (fun a => match a with
      | ⟨0, _⟩ => by show 0 = if (1 : Nat) = 1 then 0 else g.val; rw [if_pos rfl]
      | ⟨1, _⟩ => by show 0 = if (1 : Nat) = 1 then 0 else z.val; rw [if_pos rfl]), shapeCast_self]
  exact shapeCast_a_1a_apply x7 shapeCasts_S1_S1x1 0 0

/-- The reference's bias broadcast at (g, z) is the bias. -/
theorem biasR_apply (g : Fin 64) (z : Fin 1) :
    Cert.ReferenceIdeal.Read.val_main_v66 (F := Ideal) x7 (ix2 g z) = x7 (ix1 (0 : Fin 1)) := by
  rw [Cert.ReferenceIdeal.Read.val_main_v66_apply, Cert.ReferenceIdeal.Read.val_main_v65_apply]
  exact congrArg x7 (funext fun a => match a with | ⟨0, _⟩ => rfl)

/-- The reference's two splats of one. -/
theorem v72_apply (i : S64x1.Idx) : Cert.ReferenceIdeal.Read.val_main_v72 (F := Ideal) i = (1 : EReal) := by
  rw [Cert.ReferenceIdeal.Read.val_main_v72_apply, Cert.ReferenceIdeal.Read.val_main_cst_15_apply]
  exact one_f32

theorem v70_apply (i : S64x1.Idx) : Cert.ReferenceIdeal.Read.val_main_v70 (F := Ideal) i = (1 : EReal) := by
  rw [Cert.ReferenceIdeal.Read.val_main_v70_apply, Cert.ReferenceIdeal.Read.val_main_cst_14_apply]
  exact one_f32

/-- The classifier's payload at an element: the logistic of the product row plus the bias. -/
theorem k2_apply (i : S64x1.Idx) :
    k2_pay1 (F := Ideal) (countsCol C) (sumsMat S) x6 (blinCell x7) i
      = Ideal.logistic (FloatOps.matmul (F := Ideal) Cert.KernelIdeal.dot_S64x128_S128x1_S64x1_1_0_0_1_n_n none
          (truncf (F := Ideal) .bf16 (pooledK S C) bitsLt_bf16_f32) (truncf (F := Ideal) .bf16 x6 bitsLt_bf16_f32)
          (constant S64x1 .f32 0x00000000#32) i
        + broadcastTo S64x1 (shapeCast S1x1 (blinCell x7) shapeCasts_S1x1_S1x1) broadcasts_S1x1_S64x1 i) := rfl

/-- The reference's last line at an element. -/
theorem refOut_apply (i : S64x1.Idx) :
    refOut o x3 x5 x6 x7 i
      = Ideal.div (Cert.ReferenceIdeal.Read.val_main_v72 (F := Ideal) i)
          (Cert.ReferenceIdeal.Read.val_main_v70 (F := Ideal) i
            + Ideal.exp (-(FloatOps.dotGeneral (F := Ideal) (φ₁ := .f32) (φ₂ := .f32) Cert.ReferenceIdeal.dot_S64x128_S128x1_S64x1_1_0_0_1_n_n none .single (pooledR o x3 x5) x6 i
              + Cert.ReferenceIdeal.Read.val_main_v66 (F := Ideal) x7 i))) := by
  unfold refOut refLogits pooledR Host.divf Host.exp Host.negf Host.dotGeneral
  simp only [addf_apply, Ideal.hostDivf_def, Ideal.hostUnary_exp_def, Ideal.hostNegf_def, Ideal.negf_def]

/-- The kernel's product row and the reference's are one sum: the two programs' dimension numbers are the same record and
    the narrowing of the operands is the identity. -/
theorem sum_dims (f : S64x128.Idx → EReal) (i : S64x1.Idx) :
    (∑ k : Cert.KernelIdeal.dot_S64x128_S128x1_S64x1_1_0_0_1_n_n.contr.Idx,
        truncf (F := Ideal) .bf16 f bitsLt_bf16_f32 (Cert.KernelIdeal.dot_S64x128_S128x1_S64x1_1_0_0_1_n_n.lhsIdx i k)
          * truncf (F := Ideal) .bf16 x6 bitsLt_bf16_f32 (Cert.KernelIdeal.dot_S64x128_S128x1_S64x1_1_0_0_1_n_n.rhsIdx i k))
      = ∑ k : Cert.ReferenceIdeal.dot_S64x128_S128x1_S64x1_1_0_0_1_n_n.contr.Idx,
          f (Cert.ReferenceIdeal.dot_S64x128_S128x1_S64x1_1_0_0_1_n_n.lhsIdx i k) * x6 (Cert.ReferenceIdeal.dot_S64x128_S128x1_S64x1_1_0_0_1_n_n.rhsIdx i k) := rfl

/-- The logistic function is 1/(1 + exp(-x)) with the same corners. -/
theorem logistic_eq (X : EReal) : Ideal.logistic X = Ideal.div 1 (1 + Ideal.exp (-X)) := rfl

/-- The two programs' tails agree. -/
theorem tail_math
    (hS : ∀ (k : Fin 2) (g : Fin 64) (d : Fin 128), (S : S2x64x128.Idx → EReal) (ix3 k g d) = ∑ n : Fin 100000, if n.val / 50000 = k.val then ((oneHot x3 : S100000x64.Idx → EReal) (ix2 n g)) * max ((o : S100000x128.Idx → EReal) (ix2 n d) + (biasRow x5 : S1x128.Idx → EReal) (ix2 0 d)) 0 else 0)
    (hC : ∀ (k : Fin 2) (g : Fin 64), (C : S2x1x64.Idx → EReal) (ix3 k 0 g) = ∑ n : Fin 100000, if n.val / 50000 = k.val then ((oneHot x3 : S100000x64.Idx → EReal) (ix2 n g)) else 0) :
    k2_pay1 (F := Ideal) (countsCol C) (sumsMat S) x6 (blinCell x7) = refOut o x3 x5 x6 x7 := by
  have hp := pooled_eq o x3 x5 S C hS hC
  funext i
  obtain ⟨g, z, rfl⟩ : ∃ g z, i = ix2 g z := ⟨i 0, i 1, eq_ix2 i⟩
  rw [k2_apply, refOut_apply, Ideal.matmul_constant_zero_apply, Ideal.dotGeneral_apply, hp, biasK_apply, biasR_apply, v72_apply, v70_apply,
    sum_dims, logistic_eq]

end Tail

end Cert.KernelIdeal.HandV

end
-- ==== Proof.KiValue.lean ====
/-
  The kernel program's result as a function of the arguments, and that it is the reference's.
  The first launch leaves the dot product x·W; the host chain between the first two launches (shared with the reference,
  operation for operation) turns it into the convolution's scatter result; the second launch leaves, per half of the
  rows, the one-hot matrix's product with relu(out + b) and its column sums; the host adds the halves; the third
  launch applies the classifier. The reference's last stage is the same function of the scatter result.
-/
import proofs.«422273_j43499428774207_3_alg».proof.Proof.KiRun
import proofs.«422273_j43499428774207_3_alg».proof.Proof.KiMid
import proofs.«422273_j43499428774207_3_alg».proof.Proof.KiVal0
import proofs.«422273_j43499428774207_3_alg».proof.Proof.KiVal1
import proofs.«422273_j43499428774207_3_alg».proof.Proof.KiVal2
import proofs.«422273_j43499428774207_3_alg».proof.Proof.KiTailMath
import proofs.«422273_j43499428774207_3_alg».proof.Proof.RefSide

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The arguments and the first launch's product, as the later items find them -/

theorem U1_main_arg1 (c : Dev nD) : U1 m c (Proc.devRef .tc main_arg1) = m ((c.tc : Thread nD τ).loc main_arg1) := U1_of_ne m c main_arg1 (by decide)
theorem U1_main_arg2 (c : Dev nD) : U1 m c (Proc.devRef .tc main_arg2) = m ((c.tc : Thread nD τ).loc main_arg2) := U1_of_ne m c main_arg2 (by decide)
theorem U1_main_arg3 (c : Dev nD) : U1 m c (Proc.devRef .tc main_arg3) = m ((c.tc : Thread nD τ).loc main_arg3) := U1_of_ne m c main_arg3 (by decide)
theorem U1_main_arg5 (c : Dev nD) : U1 m c (Proc.devRef .tc main_arg5) = m ((c.tc : Thread nD τ).loc main_arg5) := U1_of_ne m c main_arg5 (by decide)
theorem U1_main_arg6 (c : Dev nD) : U1 m c (Proc.devRef .tc main_arg6) = m ((c.tc : Thread nD τ).loc main_arg6) := U1_of_ne m c main_arg6 (by decide)
theorem U1_main_arg7 (c : Dev nD) : U1 m c (Proc.devRef .tc main_arg7) = m ((c.tc : Thread nD τ).loc main_arg7) := U1_of_ne m c main_arg7 (by decide)
theorem U4_main_arg6 (c : Dev nD) : U4 m c (Proc.devRef .tc main_arg6) = m ((c.tc : Thread nD τ).loc main_arg6) :=
  (StableHlo.after_of_writes_sub hostOps1_2 _ hostOps1_2_writes (r := main_arg6) (by decide)).trans <|
    (StableHlo.after_of_writes_sub hostOps1_1 _ hostOps1_1_writes (r := main_arg6) (by decide)).trans <|
    (StableHlo.after_of_writes_sub hostOps1 _ hostOps1_writes (r := main_arg6) (by decide)).trans (U1_main_arg6 m c)
theorem U5_main_arg6 (c : Dev nD) : U5 m c (Proc.devRef .tc main_arg6) = m ((c.tc : Thread nD τ).loc main_arg6) :=
  (U5_of_ne m c main_arg6 (by decide)).trans (U4_main_arg6 m c)
theorem U4_main_arg7 (c : Dev nD) : U4 m c (Proc.devRef .tc main_arg7) = m ((c.tc : Thread nD τ).loc main_arg7) :=
  (StableHlo.after_of_writes_sub hostOps1_2 _ hostOps1_2_writes (r := main_arg7) (by decide)).trans <|
    (StableHlo.after_of_writes_sub hostOps1_1 _ hostOps1_1_writes (r := main_arg7) (by decide)).trans <|
    (StableHlo.after_of_writes_sub hostOps1 _ hostOps1_writes (r := main_arg7) (by decide)).trans (U1_main_arg7 m c)
theorem U5_main_arg7 (c : Dev nD) : U5 m c (Proc.devRef .tc main_arg7) = m ((c.tc : Thread nD τ).loc main_arg7) :=
  (U5_of_ne m c main_arg7 (by decide)).trans (U4_main_arg7 m c)
theorem U6_main_arg6 (c : Dev nD) : U6 m c (Proc.devRef .tc main_arg6) = m ((c.tc : Thread nD τ).loc main_arg6) :=
  (StableHlo.after_of_writes_sub hostOps2 _ hostOps2_writes (r := main_arg6) (by decide)).trans (U5_main_arg6 m c)

/-! ## The host operations between the launches -/

set_option maxHeartbeats 4000000 in
theorem U4_main_v54 (c : Dev nD) : U4 m c (Proc.devRef .tc main_v54) = oneHot (m ((c.tc : Thread nD τ).loc main_arg3)) := by
  show StableHlo.after hostOps1_2 (StableHlo.after hostOps1_1 (StableHlo.after hostOps1 (U1 m c))) (Proc.devRef .tc main_v54) = _
  after_results_simp
  rw [U1_main_arg3]
  rfl

set_option maxHeartbeats 4000000 in
theorem U4_main_v55 (c : Dev nD) : U4 m c (Proc.devRef .tc main_v55) = biasRow (m ((c.tc : Thread nD τ).loc main_arg5)) := by
  show StableHlo.after hostOps1_2 (StableHlo.after hostOps1_1 (StableHlo.after hostOps1 (U1 m c))) (Proc.devRef .tc main_v55) = _
  after_results_simp
  rw [U1_main_arg5]
  rfl

theorem U6_main_v61 (c : Dev nD) : U6 m c (Proc.devRef .tc main_v61) = sumsMat (U5 m c (Proc.devRef .tc main_v56_0)) := by
  show StableHlo.after hostOps2 (U5 m c) (Proc.devRef .tc main_v61) = _
  after_results_simp
  rfl

theorem U6_main_v67 (c : Dev nD) : U6 m c (Proc.devRef .tc main_v67) = countsCol (U5 m c (Proc.devRef .tc main_v56_1)) := by
  show StableHlo.after hostOps2 (U5 m c) (Proc.devRef .tc main_v67) = _
  after_results_simp
  rfl

theorem U6_main_v68 (c : Dev nD) : U6 m c (Proc.devRef .tc main_v68) = blinCell (m ((c.tc : Thread nD τ).loc main_arg7)) := by
  show StableHlo.after hostOps2 (U5 m c) (Proc.devRef .tc main_v68) = _
  after_results_simp
  rw [U5_main_arg7]
  rfl

/-! ## The result -/

/-- The kernel program's result buffer ends at the reference's last stage of the arguments. -/
theorem kernel_value (c : Dev nD) :
    U7 m c (Proc.devRef .tc main_v69) = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [refOut_eq, U7_out4, cls_value (T6 m) c]
  show k2_pay1 (F := Ideal) (U6 m c (Proc.devRef .tc main_v67)) (U6 m c (Proc.devRef .tc main_v61)) (U6 m c (Proc.devRef .tc main_arg6)) (U6 m c (Proc.devRef .tc main_v68)) = _
  rw [U6_main_v67, U6_main_v61, U6_main_arg6, U6_main_v68]
  refine tail_math _ _ _ _ _ _ _ (fun k g d => ?_) (fun k g => ?_)
  · rw [U5_out3]
    refine (pool_sums_value (T4 m) c k g d).trans ?_
    have hM : poolM (T4 m) c = (oneHot (m ((c.tc : Thread nD τ).loc main_arg3)) : S100000x64.Idx → EReal) := U4_main_v54 m c
    have hX : poolX (T4 m) c = (Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg4)) : S100000x128.Idx → EReal) := U4_main_v47 m c
    have hB : poolB (T4 m) c = (biasRow (m ((c.tc : Thread nD τ).loc main_arg5)) : S1x128.Idx → EReal) := U4_main_v55 m c
    rw [hM, hX, hB]
  · rw [U5_out4]
    refine (pool_counts_value (T4 m) c k g).trans ?_
    have hM : poolM (T4 m) c = (oneHot (m ((c.tc : Thread nD τ).loc main_arg3)) : S100000x64.Idx → EReal) := U4_main_v54 m c
    rw [hM]

end Cert.KernelIdeal.HandV

end
-- ==== Proof.lean ====
/-
  A graph-convolution classifier: h = x·W; the degree of each node by a scatter-add of the edge weights (self loops of
  weight one added), dis = deg^(-1/2) where deg > 0 and 0 elsewhere; each edge's message h[src]·dis[src]·w·dis[dst]
  scatter-added at dst; bias, relu; the mean of the rows of each of 64 graphs; a linear classifier and the logistic
  function. The kernel's program computes x·W by a launch over blocks of 5000 rows, runs the edge stage on the host
  exactly as the reference does, pools by a second launch that multiplies a one-hot matrix of the graph ids with the
  relu'd rows (two halves of the rows, each accumulated over ten blocks in a scratch buffer) and counts by the one-hot
  matrix's column sums, and classifies by a third launch.

  Over the extended reals the two programs agree: a format change is the identity, the block products are the rows of
  the one product, a one-hot entry times a value is the value or zero, so the one-hot product is the scatter-add's sum
  over the rows of a graph (a row whose graph id is outside 0..63 contributes to neither), sums over halves and blocks
  regroup freely (addition of extended reals is commutative and associative), and the kernel's logistic is 1/(1+exp(-x)).
  No finiteness of the inputs is used.

  Each program runs to the end, faults nowhere and leaves its arguments unchanged: for the kernel's program at both
  instances by the launch theorem for a program of several launches over one body obligation per launch (the pooling
  launch's invariant carries its two scratch accumulators from point to point), for the reference by its run.
-/
import proofs.«422273_j43499428774207_3_alg».proof.Defs
import proofs.«422273_j43499428774207_3_alg».proof.Proof.Gen.Kernel
import proofs.«422273_j43499428774207_3_alg».proof.Proof.Gen.KernelIdeal
import proofs.«422273_j43499428774207_3_alg».proof.Proof.Gen.ReferenceIdeal
import proofs.«422273_j43499428774207_3_alg».proof.Proof.Gen.Pre_finite_inputs
import proofs.«422273_j43499428774207_3_alg».proof.Proof.KbRun
import proofs.«422273_j43499428774207_3_alg».proof.Proof.KiRun
import proofs.«422273_j43499428774207_3_alg».proof.Proof.KiValue
import proofs.«422273_j43499428774207_3_alg».proof.Proof.RefSide
import Idealize.ShloMosaic.Adequacy
import Idealize.ShloMosaic.Init

noncomputable section

namespace Cert.Proof

open Idealize.ShloMosaic Idealize.ShloMosaic.TcCoe Idealize.SL.Sem

/-- The kernel's program as printed: it runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, both programs end with the reference's last stage of the arguments in
    their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.U7 m c (Proc.devRef .tc Cert.KernelIdeal.main_v69), ?_, ?_⟩
  · exact (θ_run Cert.KernelIdeal.defs _ _).mono (fun r h c =>
      ⟨h c _ (Cert.KernelIdeal.Hand.mem_uc Cert.KernelIdeal.main_v69 (by decide)),
       (h c _ (Cert.KernelIdeal.Hand.mem_uc Cert.KernelIdeal.main_arg0 (by decide))).trans (Cert.KernelIdeal.Hand.U7_main_arg0 m c),
       (h c _ (Cert.KernelIdeal.Hand.mem_uc Cert.KernelIdeal.main_arg1 (by decide))).trans (Cert.KernelIdeal.Hand.U7_main_arg1 m c),
       (h c _ (Cert.KernelIdeal.Hand.mem_uc Cert.KernelIdeal.main_arg2 (by decide))).trans (Cert.KernelIdeal.Hand.U7_main_arg2 m c),
       (h c _ (Cert.KernelIdeal.Hand.mem_uc Cert.KernelIdeal.main_arg3 (by decide))).trans (Cert.KernelIdeal.Hand.U7_main_arg3 m c),
       (h c _ (Cert.KernelIdeal.Hand.mem_uc Cert.KernelIdeal.main_arg4 (by decide))).trans (Cert.KernelIdeal.Hand.U7_main_arg4 m c),
       (h c _ (Cert.KernelIdeal.Hand.mem_uc Cert.KernelIdeal.main_arg5 (by decide))).trans (Cert.KernelIdeal.Hand.U7_main_arg5 m c),
       (h c _ (Cert.KernelIdeal.Hand.mem_uc Cert.KernelIdeal.main_arg6 (by decide))).trans (Cert.KernelIdeal.Hand.U7_main_arg6 m c),
       (h c _ (Cert.KernelIdeal.Hand.mem_uc Cert.KernelIdeal.main_arg7 (by decide))).trans (Cert.KernelIdeal.Hand.U7_main_arg7 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.KernelIdeal.HandV.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
